-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S32768x128 : Shape := ⟨2, ![32768, 128]⟩
abbrev S64x128 : Shape := ⟨2, ![64, 128]⟩
abbrev S128 : Shape := ⟨1, ![128]⟩
abbrev S2168x1024 : Shape := ⟨2, ![2168, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2168x1024 : S_.BroadcastsInDim S2168x1024 (![] : Fin 0 → Fin S2168x1024.rank)
  reducesTo_S2168x1024_S_d0_1 : S2168x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part6 {F : FTy → Type} [FloatOps F] (main_arg21 : FVec F S512 .f32) (main_arg22 : FVec F S512x256 .f32) (main_arg23 : FVec F S256 .f32) (main_v98 : IVec S_ 1) (main_v101 : IVec S1024x512 1) (main_c_39 : IVec S_ 1) : IVec S_ 1 :=
  let main_v102 : IVec S_ 1 := (fun x v => Host.reduce IntOp.andi x v reducesTo_S1024x512_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x256 .f32 := Host.absf main_arg22
  let main_cst_42 : FVec F S_ .f32 := constant S_ .f32 0x7F800000#32
  let main_v110 : FVec F S512x256 .f32 := broadcastInDim S512x256 ![] bcast_S_S512x256 main_cst_42
  let main_v111 : IVec S512x256 1 := cmpf .olt main_v109 main_v110
  let main_c_43 : IVec S_ 1 := constantI S_ 1 1#1
  let main_v112 : IVec S_ 1 := (fun x v => Host.reduce IntOp.andi x v reducesTo_S512x256_S_d0_1 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  main_v118

def fn_part5 {F : FTy → Type} [FloatOps F] (main_arg18 : FVec F S2168x1024 .f32) (main_arg19 : FVec F S1024 .f32) (main_arg20 : FVec F S1024x512 .f32) (main_arg21 : FVec F S512 .f32) (main_arg22 : FVec F S512x256 .f32) (main_arg23 : FVec F S256 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S2168x1024 .f32 := Host.absf main_arg18
  let main_cst_34 : FVec F S_ .f32 := constant S_ .f32 0x7F800000#32
  let main_v90 : FVec F S2168x1024 .f32 := broadcastInDim S2168x1024 ![] bcast_S_S2168x1024 main_cst_34
  let main_v91 : IVec S2168x1024 1 := cmpf .olt main_v89 main_v90
  let main_c_35 : IVec S_ 1 := constantI S_ 1 1#1
  let main_v92 : IVec S_ 1 := (fun x v => Host.reduce IntOp.andi x v reducesTo_S2168x1024_S_d0_1 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x512 .f32 := Host.absf main_arg20
  let main_cst_38 : FVec F S_ .f32 := constant S_ .f32 0x7F800000#32
  let main_v100 : FVec F S1024x512 .f32 := broadcastInDim S1024x512 ![] bcast_S_S1024x512 main_cst_38
  let main_v101 : IVec S1024x512 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S32768x128 .f32) (main_arg15 : FVec F S32768x128 .f32) (main_arg16 : FVec F S64x128 .f32) (main_arg17 : FVec F S128 .f32) (main_arg18 : FVec F S2168x1024 .f32) (main_arg19 : FVec F S1024 .f32) (main_arg20 : FVec F S1024x512 .f32) (main_arg21 : FVec F S512 .f32) (main_arg22 : FVec F S512x256 .f32) (main_arg23 : FVec F S256 .f32) (main_v63 : IVec S_ 1) (main_v67 : IVec S_ 1) : IVec S_ 1 :=
  let main_v68 : IVec S_ 1 := andi main_v63 main_v67
  let main_v69 : FVec F S32768x128 .f32 := Host.absf main_arg14
  let main_cst_26 : FVec F S_ .f32 := constant S_ .f32 0x7F800000#32
  let main_v70 : FVec F S32768x128 .f32 := broadcastInDim S32768x128 ![] bcast_S_S32768x128 main_cst_26
  let main_v71 : IVec S32768x128 1 := cmpf .olt main_v69 main_v70
  let main_c_27 : IVec S_ 1 := constantI S_ 1 1#1
  let main_v72 : IVec S_ 1 := (fun x v => Host.reduce IntOp.andi x v reducesTo_S32768x128_S_d0_1 h_S_) main_v71 main_c_27
  let main_v73 : IVec S_ 1 := andi main_v68 main_v72
  let main_v74 : FVec F S32768x128 .f32 := Host.absf main_arg15
  let main_cst_28 : FVec F S_ .f32 := constant S_ .f32 0x7F800000#32
  let main_v75 : FVec F S32768x128 .f32 := broadcastInDim S32768x128 ![] bcast_S_S32768x128 main_cst_28
  let main_v76 : IVec S32768x128 1 := cmpf .olt main_v74 main_v75
  let main_c_29 : IVec S_ 1 := constantI S_ 1 1#1
  let main_v77 : IVec S_ 1 := (fun x v => Host.reduce IntOp.andi x v reducesTo_S32768x128_S_d0_1 h_S_) main_v76 main_c_29
  let main_v78 : IVec S_ 1 := andi main_v73 main_v77
  let main_v79 : FVec F S64x128 .f32 := Host.absf main_arg16
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S32768x128 .f32) (main_arg12 : FVec F S32768x128 .f32) (main_arg13 : FVec F S32768x128 .f32) (main_arg14 : FVec F S32768x128 .f32) (main_arg15 : FVec F S32768x128 .f32) (main_arg16 : FVec F S64x128 .f32) (main_arg17 : FVec F S128 .f32) (main_arg18 : FVec F S2168x1024 .f32) (main_arg19 : FVec F S1024 .f32) (main_arg20 : FVec F S1024x512 .f32) (main_arg21 : FVec F S512 .f32) (main_arg22 : FVec F S512x256 .f32) (main_arg23 : FVec F S256 .f32) (main_v48 : IVec S_ 1) (main_v49 : FVec F S32768x128 .f32) (main_v50 : FVec F S32768x128 .f32) : IVec S_ 1 :=
  let main_v51 : IVec S32768x128 1 := cmpf .olt main_v49 main_v50
  let main_c_19 : IVec S_ 1 := constantI S_ 1 1#1
  let main_v52 : IVec S_ 1 := (fun x v => Host.reduce IntOp.andi x v reducesTo_S32768x128_S_d0_1 h_S_) main_v51 main_c_19
  let main_v53 : IVec S_ 1 := andi main_v48 main_v52
  let main_v54 : FVec F S32768x128 .f32 := Host.absf main_arg11
  let main_cst_20 : FVec F S_ .f32 := constant S_ .f32 0x7F800000#32
  let main_v55 : FVec F S32768x128 .f32 := broadcastInDim S32768x128 ![] bcast_S_S32768x128 main_cst_20
  let main_v56 : IVec S32768x128 1 := cmpf .olt main_v54 main_v55
  let main_c_21 : IVec S_ 1 := constantI S_ 1 1#1
  let main_v57 : IVec S_ 1 := (fun x v => Host.reduce IntOp.andi x v reducesTo_S32768x128_S_d0_1 h_S_) main_v56 main_c_21
  let main_v58 : IVec S_ 1 := andi main_v53 main_v57
  let main_v59 : FVec F S32768x128 .f32 := Host.absf main_arg12
  let main_cst_22 : FVec F S_ .f32 := constant S_ .f32 0x7F800000#32
  let main_v60 : FVec F S32768x128 .f32 := broadcastInDim S32768x128 ![] bcast_S_S32768x128 main_cst_22
  let main_v61 : IVec S32768x128 1 := cmpf .olt main_v59 main_v60
  let main_c_23 : IVec S_ 1 := constantI S_ 1 1#1
  let main_v62 : IVec S_ 1 := (fun x v => Host.reduce IntOp.andi x v reducesTo_S32768x128_S_d0_1 h_S_) main_v61 main_c_23
  let main_v63 : IVec S_ 1 := andi main_v58 main_v62
  let main_v64 : FVec F S32768x128 .f32 := Host.absf main_arg13
  let main_cst_24 : FVec F S_ .f32 := constant S_ .f32 0x7F800000#32
  let main_v65 : FVec F S32768x128 .f32 := broadcastInDim S32768x128 ![] bcast_S_S32768x128 main_cst_24
  let main_v66 : IVec S32768x128 1 := cmpf .olt main_v64 main_v65
  let main_c_25 : IVec S_ 1 := constantI S_ 1 1#1
  let main_v67 : IVec S_ 1 := (fun x v => Host.reduce IntOp.andi x v reducesTo_S32768x128_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S32768x128 .f32) (main_arg8 : FVec F S32768x128 .f32) (main_arg9 : FVec F S32768x128 .f32) (main_arg10 : FVec F S32768x128 .f32) (main_arg11 : FVec F S32768x128 .f32) (main_arg12 : FVec F S32768x128 .f32) (main_arg13 : FVec F S32768x128 .f32) (main_arg14 : FVec F S32768x128 .f32) (main_arg15 : FVec F S32768x128 .f32) (main_arg16 : FVec F S64x128 .f32) (main_arg17 : FVec F S128 .f32) (main_arg18 : FVec F S2168x1024 .f32) (main_arg19 : FVec F S1024 .f32) (main_arg20 : FVec F S1024x512 .f32) (main_arg21 : FVec F S512 .f32) (main_arg22 : FVec F S512x256 .f32) (main_arg23 : FVec F S256 .f32) (main_v33 : IVec S_ 1) : IVec S_ 1 :=
  let main_v34 : FVec F S32768x128 .f32 := Host.absf main_arg7
  let main_cst_12 : FVec F S_ .f32 := constant S_ .f32 0x7F800000#32
  let main_v35 : FVec F S32768x128 .f32 := broadcastInDim S32768x128 ![] bcast_S_S32768x128 main_cst_12
  let main_v36 : IVec S32768x128 1 := cmpf .olt main_v34 main_v35
  let main_c_13 : IVec S_ 1 := constantI S_ 1 1#1
  let main_v37 : IVec S_ 1 := (fun x v => Host.reduce IntOp.andi x v reducesTo_S32768x128_S_d0_1 h_S_) main_v36 main_c_13
  let main_v38 : IVec S_ 1 := andi main_v33 main_v37
  let main_v39 : FVec F S32768x128 .f32 := Host.absf main_arg8
  let main_cst_14 : FVec F S_ .f32 := constant S_ .f32 0x7F800000#32
  let main_v40 : FVec F S32768x128 .f32 := broadcastInDim S32768x128 ![] bcast_S_S32768x128 main_cst_14
  let main_v41 : IVec S32768x128 1 := cmpf .olt main_v39 main_v40
  let main_c_15 : IVec S_ 1 := constantI S_ 1 1#1
  let main_v42 : IVec S_ 1 := (fun x v => Host.reduce IntOp.andi x v reducesTo_S32768x128_S_d0_1 h_S_) main_v41 main_c_15
  let main_v43 : IVec S_ 1 := andi main_v38 main_v42
  let main_v44 : FVec F S32768x128 .f32 := Host.absf main_arg9
  let main_cst_16 : FVec F S_ .f32 := constant S_ .f32 0x7F800000#32
  let main_v45 : FVec F S32768x128 .f32 := broadcastInDim S32768x128 ![] bcast_S_S32768x128 main_cst_16
  let main_v46 : IVec S32768x128 1 := cmpf .olt main_v44 main_v45
  let main_c_17 : IVec S_ 1 := constantI S_ 1 1#1
  let main_v47 : IVec S_ 1 := (fun x v => Host.reduce IntOp.andi x v reducesTo_S32768x128_S_d0_1 h_S_) main_v46 main_c_17
  let main_v48 : IVec S_ 1 := andi main_v43 main_v47
  let main_v49 : FVec F S32768x128 .f32 := Host.absf main_arg10
  let main_cst_18 : FVec F S_ .f32 := constant S_ .f32 0x7F800000#32
  let main_v50 : FVec F S32768x128 .f32 := broadcastInDim S32768x128 ![] bcast_S_S32768x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S32768x128 .f32) (main_arg5 : FVec F S32768x128 .f32) (main_arg6 : FVec F S32768x128 .f32) (main_arg7 : FVec F S32768x128 .f32) (main_arg8 : FVec F S32768x128 .f32) (main_arg9 : FVec F S32768x128 .f32) (main_arg10 : FVec F S32768x128 .f32) (main_arg11 : FVec F S32768x128 .f32) (main_arg12 : FVec F S32768x128 .f32) (main_arg13 : FVec F S32768x128 .f32) (main_arg14 : FVec F S32768x128 .f32) (main_arg15 : FVec F S32768x128 .f32) (main_arg16 : FVec F S64x128 .f32) (main_arg17 : FVec F S128 .f32) (main_arg18 : FVec F S2168x1024 .f32) (main_arg19 : FVec F S1024 .f32) (main_arg20 : FVec F S1024x512 .f32) (main_arg21 : FVec F S512 .f32) (main_arg22 : FVec F S512x256 .f32) (main_arg23 : FVec F S256 .f32) (main_v13 : IVec S_ 1) (main_v16 : IVec S32768x128 1) : IVec S_ 1 :=
  let main_c_5 : IVec S_ 1 := constantI S_ 1 1#1
  let main_v17 : IVec S_ 1 := (fun x v => Host.reduce IntOp.andi x v reducesTo_S32768x128_S_d0_1 h_S_) main_v16 main_c_5
  let main_v18 : IVec S_ 1 := andi main_v13 main_v17
  let main_v19 : FVec F S32768x128 .f32 := Host.absf main_arg4
  let main_cst_6 : FVec F S_ .f32 := constant S_ .f32 0x7F800000#32
  let main_v20 : FVec F S32768x128 .f32 := broadcastInDim S32768x128 ![] bcast_S_S32768x128 main_cst_6
  let main_v21 : IVec S32768x128 1 := cmpf .olt main_v19 main_v20
  let main_c_7 : IVec S_ 1 := constantI S_ 1 1#1
  let main_v22 : IVec S_ 1 := (fun x v => Host.reduce IntOp.andi x v reducesTo_S32768x128_S_d0_1 h_S_) main_v21 main_c_7
  let main_v23 : IVec S_ 1 := andi main_v18 main_v22
  let main_v24 : FVec F S32768x128 .f32 := Host.absf main_arg5
  let main_cst_8 : FVec F S_ .f32 := constant S_ .f32 0x7F800000#32
  let main_v25 : FVec F S32768x128 .f32 := broadcastInDim S32768x128 ![] bcast_S_S32768x128 main_cst_8
  let main_v26 : IVec S32768x128 1 := cmpf .olt main_v24 main_v25
  let main_c_9 : IVec S_ 1 := constantI S_ 1 1#1
  let main_v27 : IVec S_ 1 := (fun x v => Host.reduce IntOp.andi x v reducesTo_S32768x128_S_d0_1 h_S_) main_v26 main_c_9
  let main_v28 : IVec S_ 1 := andi main_v23 main_v27
  let main_v29 : FVec F S32768x128 .f32 := Host.absf main_arg6
  let main_cst_10 : FVec F S_ .f32 := constant S_ .f32 0x7F800000#32
  let main_v30 : FVec F S32768x128 .f32 := broadcastInDim S32768x128 ![] bcast_S_S32768x128 main_cst_10
  let main_v31 : IVec S32768x128 1 := cmpf .olt main_v29 main_v30
  let main_c_11 : IVec S_ 1 := constantI S_ 1 1#1
  let main_v32 : IVec S_ 1 := (fun x v => Host.reduce IntOp.andi x v reducesTo_S32768x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S32768x64 .f32) (main_arg1 : FVec F S32768x128 .f32) (main_arg2 : FVec F S32768x128 .f32) (main_arg3 : FVec F S32768x128 .f32) (main_arg4 : FVec F S32768x128 .f32) (main_arg5 : FVec F S32768x128 .f32) (main_arg6 : FVec F S32768x128 .f32) (main_arg7 : FVec F S32768x128 .f32) (main_arg8 : FVec F S32768x128 .f32) (main_arg9 : FVec F S32768x128 .f32) (main_arg10 : FVec F S32768x128 .f32) (main_arg11 : FVec F S32768x128 .f32) (main_arg12 : FVec F S32768x128 .f32) (main_arg13 : FVec F S32768x128 .f32) (main_arg14 : FVec F S32768x128 .f32) (main_arg15 : FVec F S32768x128 .f32) (main_arg16 : FVec F S64x128 .f32) (main_arg17 : FVec F S128 .f32) (main_arg18 : FVec F S2168x1024 .f32) (main_arg19 : FVec F S1024 .f32) (main_arg20 : FVec F S1024x512 .f32) (main_arg21 : FVec F S512 .f32) (main_arg22 : FVec F S512x256 .f32) (main_arg23 : FVec F S256 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S32768x128 .f32 := Host.absf main_arg2
  let main_cst_2 : FVec F S_ .f32 := constant S_ .f32 0x7F800000#32
  let main_v10 : FVec F S32768x128 .f32 := broadcastInDim S32768x128 ![] bcast_S_S32768x128 main_cst_2
  let main_v11 : IVec S32768x128 1 := cmpf .olt main_v9 main_v10
  let main_c_3 : IVec S_ 1 := constantI S_ 1 1#1
  let main_v12 : IVec S_ 1 := (fun x v => Host.reduce IntOp.andi x v reducesTo_S32768x128_S_d0_1 h_S_) main_v11 main_c_3
  let main_v13 : IVec S_ 1 := andi main_v8 main_v12
  let main_v14 : FVec F S32768x128 .f32 := Host.absf main_arg3
  let main_cst_4 : FVec F S_ .f32 := constant S_ .f32 0x7F800000#32
  let main_v15 : FVec F S32768x128 .f32 := broadcastInDim S32768x128 ![] bcast_S_S32768x128 main_cst_4
  let main_v16 : IVec S32768x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S32768x64 : Shape := ⟨2, ![32768, 64]⟩
abbrev S32768x128 : Shape := ⟨2, ![32768, 128]⟩
abbrev S64x128 : Shape := ⟨2, ![64, 128]⟩
abbrev S128 : Shape := ⟨1, ![128]⟩
abbrev S2168x1024 : Shape := ⟨2, ![2168, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S32768x256 : Shape := ⟨2, ![32768, 256]⟩
abbrev S512x64 : Shape := ⟨2, ![512, 64]⟩
abbrev S512x128 : Shape := ⟨2, ![512, 128]⟩
abbrev S1x128 : Shape := ⟨2, ![1, 128]⟩
abbrev S512x1x128 : Shape := ⟨3, ![512, 1, 128]⟩
abbrev S512x16x128 : Shape := ⟨3, ![512, 16, 128]⟩
abbrev S512x15x128 : Shape := ⟨3, ![512, 15, 128]⟩
abbrev S512x15 : Shape := ⟨2, ![512, 15]⟩
abbrev S512x14x128 : Shape := ⟨3, ![512, 14, 128]⟩
abbrev S512x14 : Shape := ⟨2, ![512, 14]⟩
abbrev S512x13x128 : Shape := ⟨3, ![512, 13, 128]⟩
abbrev S512x13 : Shape := ⟨2, ![512, 13]⟩
abbrev S512x12x128 : Shape := ⟨3, ![512, 12, 128]⟩
abbrev S512x12 : Shape := ⟨2, ![512, 12]⟩
abbrev S512x11x128 : Shape := ⟨3, ![512, 11, 128]⟩
abbrev S512x11 : Shape := ⟨2, ![512, 11]⟩
abbrev S512x10x128 : Shape := ⟨3, ![512, 10, 128]⟩
abbrev S512x10 : Shape := ⟨2, ![512, 10]⟩
abbrev S512x9x128 : Shape := ⟨3, ![512, 9, 128]⟩
abbrev S512x9 : Shape := ⟨2, ![512, 9]⟩
abbrev S512x8x128 : Shape := ⟨3, ![512, 8, 128]⟩
abbrev S512x8 : Shape := ⟨2, ![512, 8]⟩
abbrev S512x7x128 : Shape := ⟨3, ![512, 7, 128]⟩
abbrev S512x7 : Shape := ⟨2, ![512, 7]⟩
abbrev S512x6x128 : Shape := ⟨3, ![512, 6, 128]⟩
abbrev S512x6 : Shape := ⟨2, ![512, 6]⟩
abbrev S512x5x128 : Shape := ⟨3, ![512, 5, 128]⟩
abbrev S512x5 : Shape := ⟨2, ![512, 5]⟩
abbrev S512x4x128 : Shape := ⟨3, ![512, 4, 128]⟩
abbrev S512x4 : Shape := ⟨2, ![512, 4]⟩
abbrev S512x3x128 : Shape := ⟨3, ![512, 3, 128]⟩
abbrev S512x3 : Shape := ⟨2, ![512, 3]⟩
abbrev S512x2x128 : Shape := ⟨3, ![512, 2, 128]⟩
abbrev S512x2 : Shape := ⟨2, ![512, 2]⟩
abbrev S512x1 : Shape := ⟨2, ![512, 1]⟩
abbrev S512x120 : Shape := ⟨2, ![512, 120]⟩
abbrev S512x2048 : Shape := ⟨2, ![512, 2048]⟩
abbrev S512x2168 : Shape := ⟨2, ![512, 2168]⟩
abbrev S512x1024 : Shape := ⟨2, ![512, 1024]⟩
abbrev S1x1024 : Shape := ⟨2, ![1, 1024]⟩
abbrev S512x512 : Shape := ⟨2, ![512, 512]⟩
abbrev S1x512 : Shape := ⟨2, ![1, 512]⟩
abbrev S1x256 : Shape := ⟨2, ![1, 256]⟩

abbrev nBuf : Space → Nat
  | .hbm => 29
  | .vmem => 42
  | .smem => 0
  | _ => 0

abbrev bufTy : (tb : Table) → Fin (tcTables nBuf tb) → BufTy
  | .hbm, ⟨0, _⟩ => ⟨S32768x64, .f32⟩
  | .hbm, ⟨1, _⟩ => ⟨S32768x128, .f32⟩
  | .hbm, ⟨2, _⟩ => ⟨S32768x128, .f32⟩
  | .hbm, ⟨3, _⟩ => ⟨S32768x128, .f32⟩
  | .hbm, ⟨4, _⟩ => ⟨S32768x128, .f32⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S32768x128, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S32768x128, .f32⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S64x128, .f32⟩
  | .hbm, ⟨17, _⟩ => ⟨S128, .f32⟩
  | .hbm, ⟨18, _⟩ => ⟨S2168x1024, .f32⟩
  | .hbm, ⟨19, _⟩ => ⟨S1024, .f32⟩
  | .hbm, ⟨20, _⟩ => ⟨S1024x512, .f32⟩
  | .hbm, ⟨21, _⟩ => ⟨S512, .f32⟩
  | .hbm, ⟨22, _⟩ => ⟨S512x256, .f32⟩
  | .hbm, ⟨23, _⟩ => ⟨S256, .f32⟩
  | .hbm, ⟨24, _⟩ => ⟨S64x128, .bf16⟩
  | .hbm, ⟨25, _⟩ => ⟨S2168x1024, .bf16⟩
  | .hbm, ⟨26, _⟩ => ⟨S1024x512, .bf16⟩
  | .hbm, ⟨27, _⟩ => ⟨S512x256, .bf16⟩
  | .hbm, ⟨28, _⟩ => ⟨S32768x256, .f32⟩
  | .local _ .vmem, ⟨0, _⟩ => ⟨S512x64, .f32⟩
  | .local _ .vmem, ⟨1, _⟩ => ⟨S512x64, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S64x128, .bf16⟩
  | .local _ .vmem, ⟨33, _⟩ => ⟨S128, .f32⟩
  | .local _ .vmem, ⟨34, _⟩ => ⟨S2168x1024, .bf16⟩
  | .local _ .vmem, ⟨35, _⟩ => ⟨S1024, .f32⟩
  | .local _ .vmem, ⟨36, _⟩ => ⟨S1024x512, .bf16⟩
  | .local _ .vmem, ⟨37, _⟩ => ⟨S512, .f32⟩
  | .local _ .vmem, ⟨38, _⟩ => ⟨S512x256, .bf16⟩
  | .local _ .vmem, ⟨39, _⟩ => ⟨S256, .f32⟩
  | .local _ .vmem, ⟨40, _⟩ => ⟨S512x256, .f32⟩
  | .local _ .vmem, ⟨41, _⟩ => ⟨S512x256, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg24_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S64x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2168x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x1x128 : S512x128.ShapeCasts S512x1x128
  concatenates_S512x1x128_S512x1x128_S512x1x128_S512x1x128_S512x1x128_S512x1x128_S512x1x128_S512x1x128_S512x1x128_S512x1x128_S512x1x128_S512x1x128_S512x1x128_S512x1x128_S512x1x128_S512x1x128_S512x16x128_d1 : Shape.Concatenates [S512x1x128, S512x1x128, S512x1x128, S512x1x128, S512x1x128, S512x1x128, S512x1x128, S512x1x128, S512x1x128, S512x1x128, S512x1x128, S512x1x128, S512x1x128, S512x1x128, S512x1x128, S512x1x128] S512x16x128 1
  slices_S512x16x128_o0_0_0_S512x1x128 : S512x16x128.Slices ![0, 0, 0] S512x1x128
  slices_S512x16x128_o0_1_0_S512x15x128 : S512x16x128.Slices ![0, 1, 0] S512x15x128
  broadcasts_S512x1x128_S512x15x128 : S512x1x128.Broadcasts S512x15x128
  reduces_S512x15x128_S512x15 : S512x15x128.Reduces [2] S512x15
  slices_S512x16x128_o0_1_0_S512x1x128 : S512x16x128.Slices ![0, 1, 0] S512x1x128
  slices_S512x16x128_o0_2_0_S512x14x128 : S512x16x128.Slices ![0, 2, 0] S512x14x128
  broadcasts_S512x1x128_S512x14x128 : S512x1x128.Broadcasts S512x14x128
  reduces_S512x14x128_S512x14 : S512x14x128.Reduces [2] S512x14
  slices_S512x16x128_o0_2_0_S512x1x128 : S512x16x128.Slices ![0, 2, 0] S512x1x128
  slices_S512x16x128_o0_3_0_S512x13x128 : S512x16x128.Slices ![0, 3, 0] S512x13x128
  broadcasts_S512x1x128_S512x13x128 : S512x1x128.Broadcasts S512x13x128
  reduces_S512x13x128_S512x13 : S512x13x128.Reduces [2] S512x13
  slices_S512x16x128_o0_3_0_S512x1x128 : S512x16x128.Slices ![0, 3, 0] S512x1x128
  slices_S512x16x128_o0_4_0_S512x12x128 : S512x16x128.Slices ![0, 4, 0] S512x12x128
  broadcasts_S512x1x128_S512x12x128 : S512x1x128.Broadcasts S512x12x128
  reduces_S512x12x128_S512x12 : S512x12x128.Reduces [2] S512x12
  slices_S512x16x128_o0_4_0_S512x1x128 : S512x16x128.Slices ![0, 4, 0] S512x1x128
  slices_S512x16x128_o0_5_0_S512x11x128 : S512x16x128.Slices ![0, 5, 0] S512x11x128
  broadcasts_S512x1x128_S512x11x128 : S512x1x128.Broadcasts S512x11x128
  reduces_S512x11x128_S512x11 : S512x11x128.Reduces [2] S512x11
  slices_S512x16x128_o0_5_0_S512x1x128 : S512x16x128.Slices ![0, 5, 0] S512x1x128
  slices_S512x16x128_o0_6_0_S512x10x128 : S512x16x128.Slices ![0, 6, 0] S512x10x128
  broadcasts_S512x1x128_S512x10x128 : S512x1x128.Broadcasts S512x10x128
  reduces_S512x10x128_S512x10 : S512x10x128.Reduces [2] S512x10
  slices_S512x16x128_o0_6_0_S512x1x128 : S512x16x128.Slices ![0, 6, 0] S512x1x128
  slices_S512x16x128_o0_7_0_S512x9x128 : S512x16x128.Slices ![0, 7, 0] S512x9x128
  broadcasts_S512x1x128_S512x9x128 : S512x1x128.Broadcasts S512x9x128
  reduces_S512x9x128_S512x9 : S512x9x128.Reduces [2] S512x9
  slices_S512x16x128_o0_7_0_S512x1x128 : S512x16x128.Slices ![0, 7, 0] S512x1x128
  slices_S512x16x128_o0_8_0_S512x8x128 : S512x16x128.Slices ![0, 8, 0] S512x8x128
  broadcasts_S512x1x128_S512x8x128 : S512x1x128.Broadcasts S512x8x128
  reduces_S512x8x128_S512x8 : S512x8x128.Reduces [2] S512x8
  slices_S512x16x128_o0_8_0_S512x1x128 : S512x16x128.Slices ![0, 8, 0] S512x1x128
  slices_S512x16x128_o0_9_0_S512x7x128 : S512x16x128.Slices ![0, 9, 0] S512x7x128
  broadcasts_S512x1x128_S512x7x128 : S512x1x128.Broadcasts S512x7x128
  reduces_S512x7x128_S512x7 : S512x7x128.Reduces [2] S512x7
  slices_S512x16x128_o0_9_0_S512x1x128 : S512x16x128.Slices ![0, 9, 0] S512x1x128
  slices_S512x16x128_o0_10_0_S512x6x128 : S512x16x128.Slices ![0, 10, 0] S512x6x128
  broadcasts_S512x1x128_S512x6x128 : S512x1x128.Broadcasts S512x6x128
  reduces_S512x6x128_S512x6 : S512x6x128.Reduces [2] S512x6
  slices_S512x16x128_o0_10_0_S512x1x128 : S512x16x128.Slices ![0, 10, 0] S512x1x128
  slices_S512x16x128_o0_11_0_S512x5x128 : S512x16x128.Slices ![0, 11, 0] S512x5x128
  broadcasts_S512x1x128_S512x5x128 : S512x1x128.Broadcasts S512x5x128
  reduces_S512x5x128_S512x5 : S512x5x128.Reduces [2] S512x5
  slices_S512x16x128_o0_11_0_S512x1x128 : S512x16x128.Slices ![0, 11, 0] S512x1x128
  slices_S512x16x128_o0_12_0_S512x4x128 : S512x16x128.Slices ![0, 12, 0] S512x4x128
  broadcasts_S512x1x128_S512x4x128 : S512x1x128.Broadcasts S512x4x128
  reduces_S512x4x128_S512x4 : S512x4x128.Reduces [2] S512x4
  slices_S512x16x128_o0_12_0_S512x1x128 : S512x16x128.Slices ![0, 12, 0] S512x1x128
  slices_S512x16x128_o0_13_0_S512x3x128 : S512x16x128.Slices ![0, 13, 0] S512x3x128
  broadcasts_S512x1x128_S512x3x128 : S512x1x128.Broadcasts S512x3x128
  reduces_S512x3x128_S512x3 : S512x3x128.Reduces [2] S512x3
  slices_S512x16x128_o0_13_0_S512x1x128 : S512x16x128.Slices ![0, 13, 0] S512x1x128
  slices_S512x16x128_o0_14_0_S512x2x128 : S512x16x128.Slices ![0, 14, 0] S512x2x128
  broadcasts_S512x1x128_S512x2x128 : S512x1x128.Broadcasts S512x2x128
  reduces_S512x2x128_S512x2 : S512x2x128.Reduces [2] S512x2
  slices_S512x16x128_o0_14_0_S512x1x128 : S512x16x128.Slices ![0, 14, 0] S512x1x128
  slices_S512x16x128_o0_15_0_S512x1x128 : S512x16x128.Slices ![0, 15, 0] S512x1x128
  reduces_S512x1x128_S512x1 : S512x1x128.Reduces [2] S512x1
  concatenates_S512x15_S512x14_S512x13_S512x12_S512x11_S512x10_S512x9_S512x8_S512x7_S512x6_S512x5_S512x4_S512x3_S512x2_S512x1_S512x120_d1 : Shape.Concatenates [S512x15, S512x14, S512x13, S512x12, S512x11, S512x10, S512x9, S512x8, S512x7, S512x6, S512x5, S512x4, S512x3, S512x2, S512x1] S512x120 1
  shapeCasts_S512x16x128_S512x2048 : S512x16x128.ShapeCasts S512x2048
  concatenates_S512x120_S512x2048_S512x2168_d1 : Shape.Concatenates [S512x120, S512x2048] S512x2168 1
  inb_S2168x1024_S2168x1024_0_0 : ∀ a, (![0, 0] : Fin 2 → Nat) a + S2168x1024.size a ≤ S2168x1024.size a
  h_S2168x1024 : 0 < S2168x1024.numel
  shapeCasts_S2168x1024_S2168x1024 : S2168x1024.ShapeCasts S2168x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  dot_S512x64_S64x128_S512x128_1_0_0_1_n_n_wf : DotDims.WF S512x64 S64x128 S512x128 [1] [0] [0] [1] [] []
  dot_S512x2168_S2168x1024_S512x1024_1_0_0_1_n_n_wf : DotDims.WF S512x2168 S2168x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S32768x64.size a
  hwx0_0 : ∀ i : grid0.Coords, EltTy.bits .f32 = 32 ∨ (Rect.block (s := S32768x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S32768x128.size a
  hwx0_1 : ∀ i : grid0.Coords, EltTy.bits .f32 = 32 ∨ (Rect.block (s := S32768x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S32768x128.size a
  hwx0_2 : ∀ i : grid0.Coords, EltTy.bits .f32 = 32 ∨ (Rect.block (s := S32768x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S32768x128.size a
  hwx0_3 : ∀ i : grid0.Coords, EltTy.bits .f32 = 32 ∨ (Rect.block (s := S32768x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S32768x128.size a
  hwx0_4 : ∀ i : grid0.Coords, EltTy.bits .f32 = 32 ∨ (Rect.block (s := S32768x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S32768x128.size a
  hwx0_5 : ∀ i : grid0.Coords, EltTy.bits .f32 = 32 ∨ (Rect.block (s := S32768x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S32768x128.size a
  hwx0_6 : ∀ i : grid0.Coords, EltTy.bits .f32 = 32 ∨ (Rect.block (s := S32768x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S32768x128.size a
  hwx0_7 : ∀ i : grid0.Coords, EltTy.bits .f32 = 32 ∨ (Rect.block (s := S32768x128) S512x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S32768x128.size a
  hwx0_8 : ∀ i : grid0.Coords, EltTy.bits .f32 = 32 ∨ (Rect.block (s := S32768x128) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S32768x128.size a
  hwx0_9 : ∀ i : grid0.Coords, EltTy.bits .f32 = 32 ∨ (Rect.block (s := S32768x128) S512x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S32768x128.size a
  hwx0_10 : ∀ i : grid0.Coords, EltTy.bits .f32 = 32 ∨ (Rect.block (s := S32768x128) S512x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S32768x128.size a
  hwx0_11 : ∀ i : grid0.Coords, EltTy.bits .f32 = 32 ∨ (Rect.block (s := S32768x128) S512x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x128.size a ≤ S32768x128.size a
  hwx0_12 : ∀ i : grid0.Coords, EltTy.bits .f32 = 32 ∨ (Rect.block (s := S32768x128) S512x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x128.size a ≤ S32768x128.size a
  hwx0_13 : ∀ i : grid0.Coords, EltTy.bits .f32 = 32 ∨ (Rect.block (s := S32768x128) S512x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x128.size a ≤ S32768x128.size a
  hwx0_14 : ∀ i : grid0.Coords, EltTy.bits .f32 = 32 ∨ (Rect.block (s := S32768x128) S512x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x128.size a ≤ S32768x128.size a
  hwx0_15 : ∀ i : grid0.Coords, EltTy.bits .f32 = 32 ∨ (Rect.block (s := S32768x128) S512x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x128.size a ≤ S64x128.size a
  hwx0_16 : ∀ i : grid0.Coords, EltTy.bits .bf16 = 32 ∨ (Rect.block (s := S64x128) S64x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S2168x1024.size a ≤ S2168x1024.size a
  hwx0_18 : ∀ i : grid0.Coords, EltTy.bits .bf16 = 32 ∨ (Rect.block (s := S2168x1024) S2168x1024.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1024.size a ≤ S1024.size a
  hwx0_19 : ∀ i : grid0.Coords, EltTy.bits .f32 = 32 ∨ (Rect.block (s := S1024) S1024.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1024x512.size a ≤ S1024x512.size a
  hwx0_20 : ∀ i : grid0.Coords, EltTy.bits .bf16 = 32 ∨ (Rect.block (s := S1024x512) S1024x512.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512x256.size a ≤ S512x256.size a
  hwx0_22 : ∀ i : grid0.Coords, EltTy.bits .bf16 = 32 ∨ (Rect.block (s := S512x256) S512x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256.size a ≤ S256.size a
  hwx0_23 : ∀ i : grid0.Coords, EltTy.bits .f32 = 32 ∨ (Rect.block (s := S256) S256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S512x256.size a ≤ S32768x256.size a
  hwx0_24 : ∀ i : grid0.Coords, EltTy.bits .f32 = 32 ∨ (Rect.block (s := S32768x256) S512x256.size (cc0_transform_24 i) (hinb0_24 i)).WholeWords (EltTy.packing .f32)

variable [Facts₀]

def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x2168_S2168x1024_S512x1024_1_0_0_1_n_n : DotDims S512x2168 S2168x1024 S512x1024 where
  lhsContracting := [1]
  rhsContracting := [0]
  lhsNonContracting := [0]
  rhsNonContracting := [1]
  lhsBatch := []
  rhsBatch := []
  wf := dot_S512x2168_S2168x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0) S64x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v1) S2168x1024.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1024.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v2) S1024x512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v3) S512x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v4) S512x256.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S32768x64 : Shape := ⟨2, ![32768, 64]⟩
abbrev S32768x128 : Shape := ⟨2, ![32768, 128]⟩
abbrev S64x128 : Shape := ⟨2, ![64, 128]⟩
abbrev S128 : Shape := ⟨1, ![128]⟩
abbrev S2168x1024 : Shape := ⟨2, ![2168, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S120 : Shape := ⟨1, ![120]⟩
abbrev S1x128 : Shape := ⟨2, ![1, 128]⟩
abbrev S32768x1x128 : Shape := ⟨3, ![32768, 1, 128]⟩
abbrev S32768x16x128 : Shape := ⟨3, ![32768, 16, 128]⟩
abbrev S32768x16x16 : Shape := ⟨3, ![32768, 16, 16]⟩
abbrev S_ : Shape := ⟨0, ![]⟩
abbrev S120x1 : Shape := ⟨2, ![120, 1]⟩
abbrev S120x2 : Shape := ⟨2, ![120, 2]⟩
abbrev S32768x120 : Shape := ⟨2, ![32768, 120]⟩
abbrev S32768x2048 : Shape := ⟨2, ![32768, 2048]⟩
abbrev S32768x2168 : Shape := ⟨2, ![32768, 2168]⟩
abbrev S32768x1024 : Shape := ⟨2, ![32768, 1024]⟩
abbrev S1x1024 : Shape := ⟨2, ![1, 1024]⟩
abbrev S32768x512 : Shape := ⟨2, ![32768, 512]⟩
abbrev S1x512 : Shape := ⟨2, ![1, 512]⟩
abbrev S32768x256 : Shape := ⟨2, ![32768, 256]⟩
abbrev S1x256 : Shape := ⟨2, ![1, 256]⟩

abbrev nBuf : Space → Nat
  | .hbm => 85
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768x128, .f32⟩
  | .hbm, ⟨2, _⟩ => ⟨S32768x128, .f32⟩
  | .hbm, ⟨3, _⟩ => ⟨S32768x128, .f32⟩
  | .hbm, ⟨4, _⟩ => ⟨S32768x128, .f32⟩
  | .hbm, ⟨5, _⟩ => ⟨S32768x128, .f32⟩
  | .hbm, ⟨6, _⟩ => ⟨S32768x128, .f32⟩
  | .hbm, ⟨7, _⟩ => ⟨S32768x128, .f32⟩
  | .hbm, ⟨8, _⟩ => ⟨S32768x128, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S32768x128, .f32⟩
  | .hbm, ⟨13, _⟩ => ⟨S32768x128, .f32⟩
  | .hbm, ⟨14, _⟩ => ⟨S32768x128, .f32⟩
  | .hbm, ⟨15, _⟩ => ⟨S32768x128, .f32⟩
  | .hbm, ⟨16, _⟩ => ⟨S64x128, .f32⟩
  | .hbm, ⟨17, _⟩ => ⟨S128, .f32⟩
  | .hbm, ⟨18, _⟩ => ⟨S2168x1024, .f32⟩
  | .hbm, ⟨19, _⟩ => ⟨S1024, .f32⟩
  | .hbm, ⟨20, _⟩ => ⟨S1024x512, .f32⟩
  | .hbm, ⟨21, _⟩ => ⟨S512, .f32⟩
  | .hbm, ⟨22, _⟩ => ⟨S512x256, .f32⟩
  | .hbm, ⟨23, _⟩ => ⟨S256, .f32⟩
  | .hbm, ⟨24, _⟩ => ⟨S120, .i32⟩
  | .hbm, ⟨25, _⟩ => ⟨S120, .i1⟩
  | .hbm, ⟨26, _⟩ => ⟨S120, .i32⟩
  | .hbm, ⟨27, _⟩ => ⟨S120, .i1⟩
  | .hbm, ⟨28, _⟩ => ⟨S32768x128, .f32⟩
  | .hbm, ⟨29, _⟩ => ⟨S1x128, .f32⟩
  | .hbm, ⟨30, _⟩ => ⟨S32768x128, .f32⟩
  | .hbm, ⟨31, _⟩ => ⟨S32768x128, .f32⟩
  | .hbm, ⟨32, _⟩ => ⟨S32768x1x128, .f32⟩
  | .hbm, ⟨33, _⟩ => ⟨S32768x1x128, .f32⟩
  | .hbm, ⟨34, _⟩ => ⟨S32768x1x128, .f32⟩
  | .hbm, ⟨35, _⟩ => ⟨S32768x1x128, .f32⟩
  | .hbm, ⟨36, _⟩ => ⟨S32768x1x128, .f32⟩
  | .hbm, ⟨37, _⟩ => ⟨S32768x1x128, .f32⟩
  | .hbm, ⟨38, _⟩ => ⟨S32768x1x128, .f32⟩
  | .hbm, ⟨39, _⟩ => ⟨S32768x1x128, .f32⟩
  | .hbm, ⟨40, _⟩ => ⟨S32768x1x128, .f32⟩
  | .hbm, ⟨41, _⟩ => ⟨S32768x1x128, .f32⟩
  | .hbm, ⟨42, _⟩ => ⟨S32768x1x128, .f32⟩
  | .hbm, ⟨43, _⟩ => ⟨S32768x1x128, .f32⟩
  | .hbm, ⟨44, _⟩ => ⟨S32768x1x128, .f32⟩
  | .hbm, ⟨45, _⟩ => ⟨S32768x1x128, .f32⟩
  | .hbm, ⟨46, _⟩ => ⟨S32768x1x128, .f32⟩
  | .hbm, ⟨47, _⟩ => ⟨S32768x1x128, .f32⟩
  | .hbm, ⟨48, _⟩ => ⟨S32768x16x128, .f32⟩
  | .hbm, ⟨49, _⟩ => ⟨S32768x16x16, .f32⟩
  | .hbm, ⟨50, _⟩ => ⟨S_, .i32⟩
  | .hbm, ⟨51, _⟩ => ⟨S120, .i32⟩
  | .hbm, ⟨52, _⟩ => ⟨S120, .i32⟩
  | .hbm, ⟨53, _⟩ => ⟨S120, .i32⟩
  | .hbm, ⟨54, _⟩ => ⟨S_, .i32⟩
  | .hbm, ⟨55, _⟩ => ⟨S120, .i32⟩
  | .hbm, ⟨56, _⟩ => ⟨S120, .i32⟩
  | .hbm, ⟨57, _⟩ => ⟨S120, .i32⟩
  | .hbm, ⟨58, _⟩ => ⟨S120x1, .i32⟩
  | .hbm, ⟨59, _⟩ => ⟨S120x1, .i32⟩
  | .hbm, ⟨60, _⟩ => ⟨S120x2, .i32⟩
  | .hbm, ⟨61, _⟩ => ⟨S32768x120, .f32⟩
  | .hbm, ⟨62, _⟩ => ⟨S32768x2048, .f32⟩
  | .hbm, ⟨63, _⟩ => ⟨S32768x2168, .f32⟩
  | .hbm, ⟨64, _⟩ => ⟨S32768x1024, .f32⟩
  | .hbm, ⟨65, _⟩ => ⟨S1x1024, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768x1024, .f32⟩
  | .hbm, ⟨70, _⟩ => ⟨S32768x1024, .f32⟩
  | .hbm, ⟨71, _⟩ => ⟨S32768x512, .f32⟩
  | .hbm, ⟨72, _⟩ => ⟨S1x512, .f32⟩
  | .hbm, ⟨73, _⟩ => ⟨S32768x512, .f32⟩
  | .hbm, ⟨74, _⟩ => ⟨S32768x512, .f32⟩
  | .hbm, ⟨75, _⟩ => ⟨S_, .f32⟩
  | .hbm, ⟨76, _⟩ => ⟨S32768x512, .f32⟩
  | .hbm, ⟨77, _⟩ => ⟨S32768x512, .f32⟩
  | .hbm, ⟨78, _⟩ => ⟨S32768x256, .f32⟩
  | .hbm, ⟨79, _⟩ => ⟨S1x256, .f32⟩
  | .hbm, ⟨80, _⟩ => ⟨S32768x256, .f32⟩
  | .hbm, ⟨81, _⟩ => ⟨S32768x256, .f32⟩
  | .hbm, ⟨82, _⟩ => ⟨S_, .f32⟩
  | .hbm, ⟨83, _⟩ => ⟨S32768x256, .f32⟩
  | .hbm, ⟨84, _⟩ => ⟨S32768x256, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_c_0 : Ref sig .tc := ⟨.hbm, 25, rfl⟩
abbrev main_c_1 : Ref sig .tc := ⟨.hbm, 26, rfl⟩
abbrev main_c_2 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_4 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call0_cst : Ref sig .tc := ⟨.hbm, 68, rfl⟩
abbrev main_call0_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call1_cst : Ref sig .tc := ⟨.hbm, 75, rfl⟩
abbrev main_call1_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call2_cst : Ref sig .tc := ⟨.hbm, 82, rfl⟩
abbrev main_call2_v0 : Ref sig .tc := ⟨.hbm, 83, rfl⟩
abbrev main_v48 : Ref sig .tc := ⟨.hbm, 84, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S32768x128_S32768x1x128_0_2 : S32768x128.BroadcastsInDim S32768x1x128 (![0, 2] : Fin 2 → Fin S32768x1x128.rank)
  concatenates_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x16x128_d1 : Shape.Concatenates [S32768x1x128, S32768x1x128, S32768x1x128, S32768x1x128, S32768x1x128, S32768x1x128, S32768x1x128, S32768x1x128, S32768x1x128, S32768x1x128, S32768x1x128, S32768x1x128, S32768x1x128, S32768x1x128, S32768x1x128, S32768x1x128] S32768x16x128 1
  bcast_S_S120 : S_.BroadcastsInDim S120 (![] : Fin 0 → Fin S120.rank)
  bcast_S120_S120x1_0 : S120.BroadcastsInDim S120x1 (![0] : Fin 1 → Fin S120x1.rank)
  concatenates_S120x1_S120x1_S120x2_d1 : Shape.Concatenates [S120x1, S120x1] S120x2 1
  shapeCasts_S32768x16x128_S32768x2048 : S32768x16x128.ShapeCasts S32768x2048
  concatenates_S32768x120_S32768x2048_S32768x2168_d1 : Shape.Concatenates [S32768x120, S32768x2048] S32768x2168 1
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  dot_S32768x64_S64x128_S32768x128_1_0_0_1_n_n_wf : DotDims.WF S32768x64 S64x128 S32768x128 [1] [0] [0] [1] [] []
  dot_S32768x16x128_S32768x16x128_S32768x16x16_2_2_1_1_0_0_wf : DotDims.WF S32768x16x128 S32768x16x128 S32768x16x16 [2] [2] [1] [1] [0] [0]
  gather_S32768x16x16_S120x2_S32768x120_0_12_n_n_12_1_3276811_wf : GatherDims.WF S32768x16x16 S120x2 S32768x120 [0] [1, 2] [] [1, 2] [] 1 ![32768, 1, 1]
  dot_S32768x2168_S2168x1024_S32768x1024_1_0_0_1_n_n_wf : DotDims.WF S32768x2168 S2168x1024 S32768x1024 [1] [0] [0] [1] [] []
  dot_S32768x1024_S1024x512_S32768x512_1_0_0_1_n_n_wf : DotDims.WF S32768x1024 S1024x512 S32768x512 [1] [0] [0] [1] [] []
  dot_S32768x512_S512x256_S32768x256_1_0_0_1_n_n_wf : DotDims.WF S32768x512 S512x256 S32768x256 [1] [0] [0] [1] [] []

variable [Facts₀]

def dot_S32768x64_S64x128_S32768x128_1_0_0_1_n_n : DotDims S32768x64 S64x128 S32768x128 where
  lhsContracting := [1]
  rhsContracting := [0]
  lhsNonContracting := [0]
  rhsNonContracting := [1]
  lhsBatch := []
  rhsBatch := []
  wf := dot_S32768x64_S64x128_S32768x128_1_0_0_1_n_n_wf
def dot_S32768x16x128_S32768x16x128_S32768x16x16_2_2_1_1_0_0 : DotDims S32768x16x128 S32768x16x128 S32768x16x16 where
  lhsContracting := [2]
  rhsContracting := [2]
  lhsNonContracting := [1]
  rhsNonContracting := [1]
  lhsBatch := [0]
  rhsBatch := [0]
  wf := dot_S32768x16x128_S32768x16x128_S32768x16x16_2_2_1_1_0_0_wf
def gather_S32768x16x16_S120x2_S32768x120_0_12_n_n_12_1_3276811 : GatherDims S32768x16x16 S120x2 S32768x120 where
  offsetDims := [0]
  collapsedSliceDims := [1, 2]
  operandBatchingDims := []
  startIndicesBatchingDims := []
  startIndexMap := [1, 2]
  indexVectorDim := 1
  sliceSizes := ![32768, 1, 1]
  wf := gather_S32768x16x16_S120x2_S32768x120_0_12_n_n_12_1_3276811_wf
def dot_S32768x2168_S2168x1024_S32768x1024_1_0_0_1_n_n : DotDims S32768x2168 S2168x1024 S32768x1024 where
  lhsContracting := [1]
  rhsContracting := [0]
  lhsNonContracting := [0]
  rhsNonContracting := [1]
  lhsBatch := []
  rhsBatch := []
  wf := dot_S32768x2168_S2168x1024_S32768x1024_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf

class Facts : Prop extends Facts₀ where

variable [Facts]
-- ==== Proof.Spec.lean ====
/-
  The function both programs compute, one sample (one batch row) at a time.

  A sample has sixteen feature rows of width 128: row 0 is the projection `x₀ · Wp + bp` of its 64 raw
  features, rows 1 … 15 are given.  The interaction vector of the sample has 2168 entries: first the 120 inner
  products `⟨s k, s l⟩` of the pairs `k < l`, listed row-major over the strict upper triangle of a 16 × 16
  matrix, then the sixteen rows laid end to end (2048 entries).  Three dense layers with a rectifier,
  `x ↦ max (x · W + b) 0`, of widths 2168 → 1024 → 512 → 256, map it to the sample's 256 results.

  Everything is over the extended reals: sums are finite sums in the commutative monoid `EReal`, so neither
  the order of a sum nor its tiling matters, and no law that needs finiteness is used.
-/
import Idealize.ShloMosaic.PureOps.Ideal
import Idealize.ShloMosaic.Lib.ValueIdx
import Idealize.ShloMosaic.Lib.ValueIdxRank1

noncomputable section

namespace Cert.DotInteraction

open Idealize.ShloMosaic Idealize.ShloMosaic.ValueIdx

/-! ## Arrays read by coordinates -/

/-- Row `r` of a rank-two array. -/
abbrev row {N n : Nat} (a : (⟨2, ![N, n]⟩ : Shape).Idx → EReal) (r : Fin N) : Fin n → EReal := fun c => a (ix2 r c)
/-- A rank-two array as a matrix. -/
abbrev mat {n k : Nat} (W : (⟨2, ![n, k]⟩ : Shape).Idx → EReal) : Fin n → Fin k → EReal := fun c d => W (ix2 c d)
/-- A rank-one array as a vector. -/
abbrev vec1 {n : Nat} (b : (⟨1, ![n]⟩ : Shape).Idx → EReal) : Fin n → EReal := fun d => b (ix1 d)

/-! ## The pairs of the strict upper triangle, row-major -/

/-- The first pair whose left member is `k` has position `k (31 − k) / 2`: 0, 15, 29, 42, …, 119. -/
def pairStart (k : Nat) : Nat := k * (31 - k) / 2

/-- The left member of pair `p`: the `k` with `pairStart k ≤ p < pairStart (k + 1)`. -/
def pairLNat (p : Nat) : Nat :=
  if p < 15 then 0 else if p < 29 then 1 else if p < 42 then 2 else if p < 54 then 3 else if p < 65 then 4
  else if p < 75 then 5 else if p < 84 then 6 else if p < 92 then 7 else if p < 99 then 8 else if p < 105 then 9
  else if p < 110 then 10 else if p < 114 then 11 else if p < 117 then 12 else if p < 119 then 13 else 14

/-- The right member of pair `p`: its offset within the left member's run, past the diagonal. -/
def pairRNat (p : Nat) : Nat := p - pairStart (pairLNat p) + pairLNat p + 1

theorem pair_lt : ∀ p : Fin 120, pairLNat p.val < 16 ∧ pairRNat p.val < 16 := by decide

/-- Left member of pair `p`. -/
def pairL (p : Fin 120) : Fin 16 := ⟨pairLNat p.val, (pair_lt p).1⟩
/-- Right member of pair `p`. -/
def pairR (p : Fin 120) : Fin 16 := ⟨pairRNat p.val, (pair_lt p).2⟩

/-- The `o`-th pair of the run of left member `k` is `(k, k + 1 + o)`. -/
theorem pair_run : ∀ k : Fin 15, ∀ o : Fin 15, o.val + k.val < 15 →
    pairLNat (pairStart k.val + o.val) = k.val ∧ pairRNat (pairStart k.val + o.val) = k.val + 1 + o.val := by decide

/-! ## One sample -/

/-- The projected feature row: `x · W + b`. -/
def proj (x : Fin 64 → EReal) (W : Fin 64 → Fin 128 → EReal) (b : Fin 128 → EReal) (d : Fin 128) : EReal :=
  (∑ c, x c * W c d) + b d

/-- Sixteen rows as one family. -/
def stack16 (p0 p1 p2 p3 p4 p5 p6 p7 p8 p9 p10 p11 p12 p13 p14 p15 : Fin 128 → EReal) : Fin 16 → Fin 128 → EReal :=
  fun k => match k with
    | 0 => p0 | 1 => p1 | 2 => p2 | 3 => p3 | 4 => p4 | 5 => p5 | 6 => p6 | 7 => p7
    | 8 => p8 | 9 => p9 | 10 => p10 | 11 => p11 | 12 => p12 | 13 => p13 | 14 => p14 | _ => p15

/-- The inner product of rows `k` and `l`. -/
def inner (s : Fin 16 → Fin 128 → EReal) (k l : Fin 16) : EReal := ∑ d, s k d * s l d

/-- The interaction vector: the 120 pairwise inner products, then the sixteen rows end to end. -/
def interact (s : Fin 16 → Fin 128 → EReal) (q : Fin 2168) : EReal :=
  if h : q.val < 120 then inner s (pairL ⟨q.val, h⟩) (pairR ⟨q.val, h⟩)
  else s ⟨(q.val - 120) / 128, by have := q.isLt; omega⟩ ⟨(q.val - 120) % 128, Nat.mod_lt _ (by norm_num)⟩

/-- A dense layer with a rectifier: `max (x · W + b) 0`. -/
def dense {n k : Nat} (x : Fin n → EReal) (W : Fin n → Fin k → EReal) (b : Fin k → EReal) (j : Fin k) : EReal :=
  max ((∑ q, x q * W q j) + b j) 0

/-- The three layers on an interaction vector. -/
def mlp (x : Fin 2168 → EReal) (W1 : Fin 2168 → Fin 1024 → EReal) (b1 : Fin 1024 → EReal)
    (W2 : Fin 1024 → Fin 512 → EReal) (b2 : Fin 512 → EReal) (W3 : Fin 512 → Fin 256 → EReal) (b3 : Fin 256 → EReal) :
    Fin 256 → EReal :=
  dense (dense (dense x W1 b1) W2 b2) W3 b3

/-- One sample's 256 results from its raw feature rows and the weights. -/
def sample (x0 : Fin 64 → EReal) (x1 x2 x3 x4 x5 x6 x7 x8 x9 x10 x11 x12 x13 x14 x15 : Fin 128 → EReal)
    (Wp : Fin 64 → Fin 128 → EReal) (bp : Fin 128 → EReal)
    (W1 : Fin 2168 → Fin 1024 → EReal) (b1 : Fin 1024 → EReal)
    (W2 : Fin 1024 → Fin 512 → EReal) (b2 : Fin 512 → EReal) (W3 : Fin 512 → Fin 256 → EReal) (b3 : Fin 256 → EReal) :
    Fin 256 → EReal :=
  mlp (interact (stack16 (proj x0 Wp bp) x1 x2 x3 x4 x5 x6 x7 x8 x9 x10 x11 x12 x13 x14 x15)) W1 b1 W2 b2 W3 b3

/-! ## A batch of samples -/

/-- The result array of a batch of `N` samples: row `r` is `sample` of row `r` of each feature array. -/
def batch {N : Nat} (a0 : (⟨2, ![N, 64]⟩ : Shape).Idx → EReal)
    (a1 a2 a3 a4 a5 a6 a7 a8 a9 a10 a11 a12 a13 a14 a15 : (⟨2, ![N, 128]⟩ : Shape).Idx → EReal)
    (Wp : (⟨2, ![64, 128]⟩ : Shape).Idx → EReal) (bp : (⟨1, ![128]⟩ : Shape).Idx → EReal)
    (W1 : (⟨2, ![2168, 1024]⟩ : Shape).Idx → EReal) (b1 : (⟨1, ![1024]⟩ : Shape).Idx → EReal)
    (W2 : (⟨2, ![1024, 512]⟩ : Shape).Idx → EReal) (b2 : (⟨1, ![512]⟩ : Shape).Idx → EReal)
    (W3 : (⟨2, ![512, 256]⟩ : Shape).Idx → EReal) (b3 : (⟨1, ![256]⟩ : Shape).Idx → EReal) :
    (⟨2, ![N, 256]⟩ : Shape).Idx → EReal :=
  fun i => sample (row a0 (i 0)) (row a1 (i 0)) (row a2 (i 0)) (row a3 (i 0)) (row a4 (i 0)) (row a5 (i 0))
    (row a6 (i 0)) (row a7 (i 0)) (row a8 (i 0)) (row a9 (i 0)) (row a10 (i 0)) (row a11 (i 0)) (row a12 (i 0))
    (row a13 (i 0)) (row a14 (i 0)) (row a15 (i 0)) (mat Wp) (vec1 bp) (mat W1) (vec1 b1) (mat W2) (vec1 b2)
    (mat W3) (vec1 b3) (i 1)

end Cert.DotInteraction

end
-- ==== Proof.KFeatures.lean ====
/-
  The kernel's feature rows at an index.

  The first payload is the projected row of the block: the block's 64 raw features times the 64 × 128 weight, summed
  over the 64 contracted coordinates, plus the bias laid along every row.  The second payload stacks sixteen
  [512, 128] arrays as the sixteen slabs of a [512, 16, 128] array: at (r, k, d) it reads row r of the k-th array at d.
-/
import proofs.«175440_j86792699118126_1_alg».proof.Proof.Gen.KernelIdeal.Skeleton
import proofs.«175440_j86792699118126_1_alg».proof.Proof.Spec
import Idealize.ShloMosaic.Lib.ValueIdx
import Idealize.ShloMosaic.Lib.Pipeline.Value
import Idealize.ShloMosaic.PureOps.Ideal.Laws

noncomputable section

namespace Cert.DotInteraction.Kernel

open Idealize.ShloMosaic Idealize.ShloMosaic.ValueIdx Cert.KernelIdeal Cert.KernelIdeal.Gen Cert.DotInteraction

/-! ## The operand indices of the projection's product

At result index `j` and contraction position `k` the left operand is read at `(j 0, k)` and the right operand at
`(k, j 1)`. -/

theorem lhs_proj_0 (j : S512x128.Idx) (k : (dot_S512x64_S64x128_S512x128_1_0_0_1_n_n).contr.Idx) :
    ((dot_S512x64_S64x128_S512x128_1_0_0_1_n_n).lhsIdx j k 0).val = (j 0).val := by
  simp [DotDims.lhsIdx, dot_S512x64_S64x128_S512x128_1_0_0_1_n_n]; rfl

theorem lhs_proj_1 (j : S512x128.Idx) (k : (dot_S512x64_S64x128_S512x128_1_0_0_1_n_n).contr.Idx) :
    ((dot_S512x64_S64x128_S512x128_1_0_0_1_n_n).lhsIdx j k 1).val = (k ⟨0, by decide⟩).val :=
  (dot_S512x64_S64x128_S512x128_1_0_0_1_n_n).lhsIdx_val_of_single rfl j k

theorem rhs_proj_0 (j : S512x128.Idx) (k : (dot_S512x64_S64x128_S512x128_1_0_0_1_n_n).contr.Idx) :
    ((dot_S512x64_S64x128_S512x128_1_0_0_1_n_n).rhsIdx j k 0).val = (k ⟨0, by decide⟩).val :=
  (dot_S512x64_S64x128_S512x128_1_0_0_1_n_n).rhsIdx_val_of_single rfl j k

theorem rhs_proj_1 (j : S512x128.Idx) (k : (dot_S512x64_S64x128_S512x128_1_0_0_1_n_n).contr.Idx) :
    ((dot_S512x64_S64x128_S512x128_1_0_0_1_n_n).rhsIdx j k 1).val = (j 1).val := by
  simp [DotDims.rhsIdx, dot_S512x64_S64x128_S512x128_1_0_0_1_n_n]; rfl

/-- The product into the zero accumulator, at an index: the sum over the 64 contracted coordinates. -/
theorem proj_matmul_apply (A : FVec Ideal S512x64 .bf16) (B : FVec Ideal S64x128 .bf16) (r : Fin 512) (d : Fin 128) :
    matmul dot_S512x64_S64x128_S512x128_1_0_0_1_n_n none A B (constant (F := Ideal) S512x128 .f32 0x00000000#32) (ix2 r d)
      = ∑ c : Fin 64, A (ix2 r c) * B (ix2 c d) := by
  show FloatOps.matmul _ none A B _ (ix2 r d) = _
  rw [Ideal.matmul_constant_zero_apply,
    ← Equiv.sum_comp (contrEquiv1 dot_S512x64_S64x128_S512x128_1_0_0_1_n_n 64 rfl rfl).symm]
  refine Finset.sum_congr rfl fun c _ => ?_
  have hk := contrEquiv1_symm_val dot_S512x64_S64x128_S512x128_1_0_0_1_n_n 64 rfl rfl c
  have hl : (dot_S512x64_S64x128_S512x128_1_0_0_1_n_n).lhsIdx (ix2 r d)
      ((contrEquiv1 dot_S512x64_S64x128_S512x128_1_0_0_1_n_n 64 rfl rfl).symm c) = ix2 r c := by
    funext ax; apply Fin.ext
    match ax with
    | ⟨0, _⟩ => exact lhs_proj_0 _ _
    | ⟨1, _⟩ => exact (lhs_proj_1 _ _).trans hk
  have hr : (dot_S512x64_S64x128_S512x128_1_0_0_1_n_n).rhsIdx (ix2 r d)
      ((contrEquiv1 dot_S512x64_S64x128_S512x128_1_0_0_1_n_n 64 rfl rfl).symm c) = ix2 c d := by
    funext ax; apply Fin.ext
    match ax with
    | ⟨0, _⟩ => exact (rhs_proj_0 _ _).trans hk
    | ⟨1, _⟩ => exact rhs_proj_1 _ _
  rw [hl, hr]

/-- The bias, cast to one row and laid along every row, at an index. -/
theorem proj_bias_apply (b : Vec Ideal S128 .f32) (h1 : S128.ShapeCasts S1x128) (hb : S1x128.Broadcasts S512x128)
    (r : Fin 512) (d : Fin 128) :
    broadcastTo S512x128 (shapeCast S1x128 b h1) hb (ix2 r d) = b (ix1 d) := by
  have e1 := broadcastTo_apply (shapeCast S1x128 b h1) hb (ix2 r d)
    (ix2 (0 : Fin 1) d) (by
      intro a
      match a with
      | ⟨0, _⟩ => rfl
      | ⟨1, _⟩ => rfl)
  have e2 := shapeCast_apply b h1 (ix2 (0 : Fin 1) d) (ix1 d) (by
    rw [Shape.rowMajor_val_two, Shape.rowMajor_val_one]; show d.val = 0 * 128 + d.val; omega)
  exact e1.trans e2

/-- The projected row of the block, at an index. -/
theorem pay2_apply (v0 : Vec Ideal S512x64 .f32) (v2 : Vec Ideal S64x128 .bf16) (v5 : Vec Ideal S128 .f32) (r : Fin 512) (d : Fin 128) :
    k0_pay2 (F := Ideal) v0 v2 v5 (ix2 r d) = proj (row v0 r) (mat v2) (vec1 v5) d := by
  unfold k0_pay2
  rw [addf_apply, proj_matmul_apply, proj_bias_apply, shapeCast_self]
  rfl

/-! ## The sixteen rows stacked -/

/-- A row of the block cast to a one-row slab, at an index. -/
theorem row_cast_apply (x : S512x128.Idx → EReal) (h : S512x128.ShapeCasts S512x1x128) (r : Fin 512) (d : Fin 128) :
    shapeCast S512x1x128 x h (ix3 r (0 : Fin 1) d) = x (ix2 r d) :=
  shapeCast_apply x h (ix3 r (0 : Fin 1) d) (ix2 r d) (by
    rw [Shape.rowMajor_val_three, Shape.rowMajor_val_two]
    show r.val * 128 + d.val = (r.val * 1 + 0) * 128 + d.val
    omega)

/-- Off the stacking axis an index of a slab and an index of the stack have the same coordinates. -/
theorem off_axis (r : Fin 512) (k : Fin 16) (d : Fin 128) :
    ∀ b : Fin S512x1x128.rank, b.cast (rfl : S512x1x128.rank = S512x16x128.rank) ≠ (1 : Fin S512x16x128.rank) →
      ((ix3 r (0 : Fin 1) d : S512x1x128.Idx) b).val = ((ix3 r k d : S512x16x128.Idx) (b.cast rfl)).val := by
  intro b hb
  match b with
  | ⟨0, _⟩ => rfl
  | ⟨1, _⟩ => exact absurd rfl hb
  | ⟨2, _⟩ => rfl

set_option maxHeartbeats 1600000 in
/-- The stack of the sixteen rows, at an index: row `k` of the family. -/
theorem pay3_apply (v8 : FVec Ideal S512x128 .f32) (v9 v10 v11 v12 v13 v14 v15 v16 v17 v18 v19 v20 v21 v22 v23 : Vec Ideal S512x128 .f32)
    (r : Fin 512) (k : Fin 16) (d : Fin 128) :
    k0_pay3 (F := Ideal) v8 v9 v10 v11 v12 v13 v14 v15 v16 v17 v18 v19 v20 v21 v22 v23 (ix3 r k d)
      = stack16 (row v8 r) (row v9 r) (row v10 r) (row v11 r) (row v12 r) (row v13 r) (row v14 r) (row v15 r) (row v16 r)
          (row v17 r) (row v18 r) (row v19 r) (row v20 r) (row v21 r) (row v22 r) (row v23 r) k d := by
  unfold k0_pay3
  match k with
  | ⟨0, _⟩ =>
    exact (concatenate_apply_piece _ _ _ (ix3 r (⟨0, by decide⟩ : Fin 16) d) 0 (by simp) S512x1x128 _ rfl rfl 0 rfl
      (ix3 r (0 : Fin 1) d) (off_axis r _ d) rfl).trans (row_cast_apply _ _ r d)
  | ⟨1, _⟩ =>
    exact (concatenate_apply_piece _ _ _ (ix3 r (⟨1, by decide⟩ : Fin 16) d) 1 (by simp) S512x1x128 _ rfl rfl 1 rfl
      (ix3 r (0 : Fin 1) d) (off_axis r _ d) rfl).trans (row_cast_apply _ _ r d)
  | ⟨2, _⟩ =>
    exact (concatenate_apply_piece _ _ _ (ix3 r (⟨2, by decide⟩ : Fin 16) d) 2 (by simp) S512x1x128 _ rfl rfl 2 rfl
      (ix3 r (0 : Fin 1) d) (off_axis r _ d) rfl).trans (row_cast_apply _ _ r d)
  | ⟨3, _⟩ =>
    exact (concatenate_apply_piece _ _ _ (ix3 r (⟨3, by decide⟩ : Fin 16) d) 3 (by simp) S512x1x128 _ rfl rfl 3 rfl
      (ix3 r (0 : Fin 1) d) (off_axis r _ d) rfl).trans (row_cast_apply _ _ r d)
  | ⟨4, _⟩ =>
    exact (concatenate_apply_piece _ _ _ (ix3 r (⟨4, by decide⟩ : Fin 16) d) 4 (by simp) S512x1x128 _ rfl rfl 4 rfl
      (ix3 r (0 : Fin 1) d) (off_axis r _ d) rfl).trans (row_cast_apply _ _ r d)
  | ⟨5, _⟩ =>
    exact (concatenate_apply_piece _ _ _ (ix3 r (⟨5, by decide⟩ : Fin 16) d) 5 (by simp) S512x1x128 _ rfl rfl 5 rfl
      (ix3 r (0 : Fin 1) d) (off_axis r _ d) rfl).trans (row_cast_apply _ _ r d)
  | ⟨6, _⟩ =>
    exact (concatenate_apply_piece _ _ _ (ix3 r (⟨6, by decide⟩ : Fin 16) d) 6 (by simp) S512x1x128 _ rfl rfl 6 rfl
      (ix3 r (0 : Fin 1) d) (off_axis r _ d) rfl).trans (row_cast_apply _ _ r d)
  | ⟨7, _⟩ =>
    exact (concatenate_apply_piece _ _ _ (ix3 r (⟨7, by decide⟩ : Fin 16) d) 7 (by simp) S512x1x128 _ rfl rfl 7 rfl
      (ix3 r (0 : Fin 1) d) (off_axis r _ d) rfl).trans (row_cast_apply _ _ r d)
  | ⟨8, _⟩ =>
    exact (concatenate_apply_piece _ _ _ (ix3 r (⟨8, by decide⟩ : Fin 16) d) 8 (by simp) S512x1x128 _ rfl rfl 8 rfl
      (ix3 r (0 : Fin 1) d) (off_axis r _ d) rfl).trans (row_cast_apply _ _ r d)
  | ⟨9, _⟩ =>
    exact (concatenate_apply_piece _ _ _ (ix3 r (⟨9, by decide⟩ : Fin 16) d) 9 (by simp) S512x1x128 _ rfl rfl 9 rfl
      (ix3 r (0 : Fin 1) d) (off_axis r _ d) rfl).trans (row_cast_apply _ _ r d)
  | ⟨10, _⟩ =>
    exact (concatenate_apply_piece _ _ _ (ix3 r (⟨10, by decide⟩ : Fin 16) d) 10 (by simp) S512x1x128 _ rfl rfl 10 rfl
      (ix3 r (0 : Fin 1) d) (off_axis r _ d) rfl).trans (row_cast_apply _ _ r d)
  | ⟨11, _⟩ =>
    exact (concatenate_apply_piece _ _ _ (ix3 r (⟨11, by decide⟩ : Fin 16) d) 11 (by simp) S512x1x128 _ rfl rfl 11 rfl
      (ix3 r (0 : Fin 1) d) (off_axis r _ d) rfl).trans (row_cast_apply _ _ r d)
  | ⟨12, _⟩ =>
    exact (concatenate_apply_piece _ _ _ (ix3 r (⟨12, by decide⟩ : Fin 16) d) 12 (by simp) S512x1x128 _ rfl rfl 12 rfl
      (ix3 r (0 : Fin 1) d) (off_axis r _ d) rfl).trans (row_cast_apply _ _ r d)
  | ⟨13, _⟩ =>
    exact (concatenate_apply_piece _ _ _ (ix3 r (⟨13, by decide⟩ : Fin 16) d) 13 (by simp) S512x1x128 _ rfl rfl 13 rfl
      (ix3 r (0 : Fin 1) d) (off_axis r _ d) rfl).trans (row_cast_apply _ _ r d)
  | ⟨14, _⟩ =>
    exact (concatenate_apply_piece _ _ _ (ix3 r (⟨14, by decide⟩ : Fin 16) d) 14 (by simp) S512x1x128 _ rfl rfl 14 rfl
      (ix3 r (0 : Fin 1) d) (off_axis r _ d) rfl).trans (row_cast_apply _ _ r d)
  | ⟨15, _⟩ =>
    exact (concatenate_apply_piece _ _ _ (ix3 r (⟨15, by decide⟩ : Fin 16) d) 15 (by simp) S512x1x128 _ rfl rfl 15 rfl
      (ix3 r (0 : Fin 1) d) (off_axis r _ d) rfl).trans (row_cast_apply _ _ r d)
  | ⟨n + 16, hn⟩ => exact absurd hn (by omega)

end Cert.DotInteraction.Kernel

end
-- ==== Proof.KPairs.lean ====
/-
  The pairwise inner products as the kernel forms them.

  The sixteen feature rows of every sample are stacked into one array `S` of shape [512, 16, 128].  For a left
  member `k` the kernel cuts row `k` ([512, 1, 128]) and the rows after it ([512, n, 128] with `k + 1 + n = 16`),
  repeats the single row `n` times, multiplies entry by entry and sums over the feature axis.  At sample `r` and
  position `o` of the run this is `∑ d, S (r, k, d) * S (r, k + 1 + o, d)`: the inner product of rows `k` and
  `k + 1 + o`.  The last left member, `k = 14`, has a single partner and is multiplied without the repetition.
-/
import proofs.«175440_j86792699118126_1_alg».proof.Proof.Gen.KernelIdeal.Skeleton
import proofs.«175440_j86792699118126_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.DotInteraction.Kernel

open Idealize.ShloMosaic Idealize.ShloMosaic.ValueIdx Cert.KernelIdeal Cert.KernelIdeal.Gen Cert.DotInteraction

/-- The reduced index `(a, b)` with coordinate `d` put back on the last axis is `(a, b, d)`. -/
theorem lift3_axis2 {n0 n1 n2 : Nat} (hr : (⟨3, ![n0, n1, n2]⟩ : Shape).Reduces [2] ⟨2, ![n0, n1]⟩)
    (a : Fin n0) (b : Fin n1) (d : Fin n2) : hr.lift (ix2 a b) d = ix3 a b d := by
  funext c; apply Fin.ext
  fin_cases c <;> rfl

/-- One run of pairs: row `k` repeated against the `n` rows after it, multiplied and summed over the feature axis,
    reads at sample `r` and position `o` the sum of the products of rows `k` and `k + 1 + o`. -/
theorem pairSum_apply (k n : Nat) (hkn : k + 1 + n = 16) (S : FVec Ideal S512x16x128 .f32)
    (h1 : S512x16x128.Slices ![0, k, 0] S512x1x128)
    (h2 : S512x16x128.Slices ![0, k + 1, 0] ⟨3, ![512, n, 128]⟩)
    (hb : S512x1x128.Broadcasts ⟨3, ![512, n, 128]⟩)
    (hr : (⟨3, ![512, n, 128]⟩ : Shape).Reduces [2] ⟨2, ![512, n]⟩)
    (hφ : FKind.Formats .f32) (hacc : (0x00000000#32 : BitVec 32) = FKind.add.neutral .f32 hφ)
    (r : Fin 512) (o : Fin n) :
    multiReduction (F := Ideal) .add [2] ⟨2, ![512, n]⟩
        (mulf (broadcastTo ⟨3, ![512, n, 128]⟩ (extractStridedSlice S512x1x128 ![0, k, 0] S h1) hb)
          (extractStridedSlice ⟨3, ![512, n, 128]⟩ ![0, k + 1, 0] S h2))
        0x00000000#32 hr hφ hacc (ix2 r o)
      = ∑ d : Fin 128, S (ix3 r ⟨k, by omega⟩ d) * S (ix3 r ⟨k + 1 + o.val, by omega⟩ d) := by
  refine (Ideal.multiReduction_add_single _ _ hr hφ hacc (ix2 r o)).trans ?_
  show ∑ d : Fin 128, _ = _
  refine Finset.sum_congr rfl fun d _ => ?_
  rw [lift3_axis2 hr r o d, mulf_apply]
  congr 1
  · refine (broadcastTo_apply _ hb (ix3 r o d) (ix3 r (0 : Fin 1) d) ?_).trans ?_
    · intro a
      fin_cases a <;> rfl
    · exact slice3_axis1_apply k S h1 r 0 d ⟨k, by omega⟩ rfl
  · exact slice3_axis1_apply (k + 1) S h2 r o d ⟨k + 1 + o.val, by omega⟩ rfl

/-- The same sum as the inner product of rows `k` and `k + 1 + o` of the sample's sixteen rows. -/
theorem pairSum_eq_inner (k n : Nat) (hkn : k + 1 + n = 16) (S : FVec Ideal S512x16x128 .f32)
    (h1 : S512x16x128.Slices ![0, k, 0] S512x1x128)
    (h2 : S512x16x128.Slices ![0, k + 1, 0] ⟨3, ![512, n, 128]⟩)
    (hb : S512x1x128.Broadcasts ⟨3, ![512, n, 128]⟩)
    (hr : (⟨3, ![512, n, 128]⟩ : Shape).Reduces [2] ⟨2, ![512, n]⟩)
    (hφ : FKind.Formats .f32) (hacc : (0x00000000#32 : BitVec 32) = FKind.add.neutral .f32 hφ)
    (r : Fin 512) (o : Fin n) :
    multiReduction (F := Ideal) .add [2] ⟨2, ![512, n]⟩
        (mulf (broadcastTo ⟨3, ![512, n, 128]⟩ (extractStridedSlice S512x1x128 ![0, k, 0] S h1) hb)
          (extractStridedSlice ⟨3, ![512, n, 128]⟩ ![0, k + 1, 0] S h2))
        0x00000000#32 hr hφ hacc (ix2 r o)
      = inner (fun l d => S (ix3 r l d)) ⟨k, by omega⟩ ⟨k + 1 + o.val, by omega⟩ :=
  pairSum_apply k n hkn S h1 h2 hb hr hφ hacc r o

/-- The last pair: rows `k` and `k + 1` (`k = 14`) are cut as two single rows and multiplied as they are; summed
    over the feature axis the product is their inner product. -/
theorem pairSumLast_apply (k : Nat) (hk : k + 2 = 16) (S : FVec Ideal S512x16x128 .f32)
    (h1 : S512x16x128.Slices ![0, k, 0] S512x1x128)
    (h2 : S512x16x128.Slices ![0, k + 1, 0] S512x1x128)
    (hr : S512x1x128.Reduces [2] ⟨2, ![512, 1]⟩)
    (hφ : FKind.Formats .f32) (hacc : (0x00000000#32 : BitVec 32) = FKind.add.neutral .f32 hφ)
    (r : Fin 512) (o : Fin 1) :
    multiReduction (F := Ideal) .add [2] ⟨2, ![512, 1]⟩
        (mulf (extractStridedSlice S512x1x128 ![0, k, 0] S h1) (extractStridedSlice S512x1x128 ![0, k + 1, 0] S h2))
        0x00000000#32 hr hφ hacc (ix2 r o)
      = ∑ d : Fin 128, S (ix3 r ⟨k, by omega⟩ d) * S (ix3 r ⟨k + 1 + o.val, by omega⟩ d) := by
  refine (Ideal.multiReduction_add_single _ _ hr hφ hacc (ix2 r o)).trans ?_
  show ∑ d : Fin 128, _ = _
  refine Finset.sum_congr rfl fun d _ => ?_
  rw [lift3_axis2 hr r o d, mulf_apply]
  congr 1
  · exact slice3_axis1_apply k S h1 r o d ⟨k, by omega⟩ (by have := o.isLt; show k = k + o.val; omega)
  · exact slice3_axis1_apply (k + 1) S h2 r o d ⟨k + 1 + o.val, by omega⟩ rfl

/-- The last pair as an inner product of the sample's rows. -/
theorem pairSumLast_eq_inner (k : Nat) (hk : k + 2 = 16) (S : FVec Ideal S512x16x128 .f32)
    (h1 : S512x16x128.Slices ![0, k, 0] S512x1x128)
    (h2 : S512x16x128.Slices ![0, k + 1, 0] S512x1x128)
    (hr : S512x1x128.Reduces [2] ⟨2, ![512, 1]⟩)
    (hφ : FKind.Formats .f32) (hacc : (0x00000000#32 : BitVec 32) = FKind.add.neutral .f32 hφ)
    (r : Fin 512) (o : Fin 1) :
    multiReduction (F := Ideal) .add [2] ⟨2, ![512, 1]⟩
        (mulf (extractStridedSlice S512x1x128 ![0, k, 0] S h1) (extractStridedSlice S512x1x128 ![0, k + 1, 0] S h2))
        0x00000000#32 hr hφ hacc (ix2 r o)
      = inner (fun l d => S (ix3 r l d)) ⟨k, by omega⟩ ⟨k + 1 + o.val, by omega⟩ :=
  pairSumLast_apply k hk S h1 h2 hr hφ hacc r o

/-! ## The seven runs the kernel passes on -/

variable [Cert.KernelIdeal.Facts]

/-- Run 0: entry `o` is the inner product of rows 0 and 1 + o of the stacked rows. -/
theorem pay4_apply (v8 : FVec Ideal S512x128 .f32) (v9 v10 v11 v12 v13 v14 v15 v16 v17 v18 v19 v20 v21 v22 v23 : Vec Ideal S512x128 .f32)
    (r : Fin 512) (o : Fin 15) :
    k0_pay4 (F := Ideal) v8 v9 v10 v11 v12 v13 v14 v15 v16 v17 v18 v19 v20 v21 v22 v23 (ix2 r o)
      = inner (fun k d => k0_pay3 (F := Ideal) v8 v9 v10 v11 v12 v13 v14 v15 v16 v17 v18 v19 v20 v21 v22 v23 (ix3 r k d)) 0 ⟨1 + o.val, by omega⟩ := by
  unfold k0_pay4
  exact pairSum_apply 0 15 rfl _ _ _ _ _ _ _ r o

/-- Run 1: entry `o` is the inner product of rows 1 and 2 + o of the stacked rows. -/
theorem pay5_apply (v8 : FVec Ideal S512x128 .f32) (v9 v10 v11 v12 v13 v14 v15 v16 v17 v18 v19 v20 v21 v22 v23 : Vec Ideal S512x128 .f32)
    (r : Fin 512) (o : Fin 14) :
    k0_pay5 (F := Ideal) v8 v9 v10 v11 v12 v13 v14 v15 v16 v17 v18 v19 v20 v21 v22 v23 (ix2 r o)
      = inner (fun k d => k0_pay3 (F := Ideal) v8 v9 v10 v11 v12 v13 v14 v15 v16 v17 v18 v19 v20 v21 v22 v23 (ix3 r k d)) 1 ⟨2 + o.val, by omega⟩ := by
  unfold k0_pay5
  exact pairSum_apply 1 14 rfl _ _ _ _ _ _ _ r o

/-- Run 2: entry `o` is the inner product of rows 2 and 3 + o of the stacked rows. -/
theorem pay6_apply (v8 : FVec Ideal S512x128 .f32) (v9 v10 v11 v12 v13 v14 v15 v16 v17 v18 v19 v20 v21 v22 v23 : Vec Ideal S512x128 .f32)
    (r : Fin 512) (o : Fin 13) :
    k0_pay6 (F := Ideal) v8 v9 v10 v11 v12 v13 v14 v15 v16 v17 v18 v19 v20 v21 v22 v23 (ix2 r o)
      = inner (fun k d => k0_pay3 (F := Ideal) v8 v9 v10 v11 v12 v13 v14 v15 v16 v17 v18 v19 v20 v21 v22 v23 (ix3 r k d)) 2 ⟨3 + o.val, by omega⟩ := by
  unfold k0_pay6
  exact pairSum_apply 2 13 rfl _ _ _ _ _ _ _ r o

/-- Run 3: entry `o` is the inner product of rows 3 and 4 + o of the stacked rows. -/
theorem pay7_apply (v8 : FVec Ideal S512x128 .f32) (v9 v10 v11 v12 v13 v14 v15 v16 v17 v18 v19 v20 v21 v22 v23 : Vec Ideal S512x128 .f32)
    (r : Fin 512) (o : Fin 12) :
    k0_pay7 (F := Ideal) v8 v9 v10 v11 v12 v13 v14 v15 v16 v17 v18 v19 v20 v21 v22 v23 (ix2 r o)
      = inner (fun k d => k0_pay3 (F := Ideal) v8 v9 v10 v11 v12 v13 v14 v15 v16 v17 v18 v19 v20 v21 v22 v23 (ix3 r k d)) 3 ⟨4 + o.val, by omega⟩ := by
  unfold k0_pay7
  exact pairSum_apply 3 12 rfl _ _ _ _ _ _ _ r o

/-- Run 4: entry `o` is the inner product of rows 4 and 5 + o of the stacked rows. -/
theorem pay8_apply (v8 : FVec Ideal S512x128 .f32) (v9 v10 v11 v12 v13 v14 v15 v16 v17 v18 v19 v20 v21 v22 v23 : Vec Ideal S512x128 .f32)
    (r : Fin 512) (o : Fin 11) :
    k0_pay8 (F := Ideal) v8 v9 v10 v11 v12 v13 v14 v15 v16 v17 v18 v19 v20 v21 v22 v23 (ix2 r o)
      = inner (fun k d => k0_pay3 (F := Ideal) v8 v9 v10 v11 v12 v13 v14 v15 v16 v17 v18 v19 v20 v21 v22 v23 (ix3 r k d)) 4 ⟨5 + o.val, by omega⟩ := by
  unfold k0_pay8
  exact pairSum_apply 4 11 rfl _ _ _ _ _ _ _ r o

/-- Run 5: entry `o` is the inner product of rows 5 and 6 + o of the stacked rows. -/
theorem pay9_apply (v8 : FVec Ideal S512x128 .f32) (v9 v10 v11 v12 v13 v14 v15 v16 v17 v18 v19 v20 v21 v22 v23 : Vec Ideal S512x128 .f32)
    (r : Fin 512) (o : Fin 10) :
    k0_pay9 (F := Ideal) v8 v9 v10 v11 v12 v13 v14 v15 v16 v17 v18 v19 v20 v21 v22 v23 (ix2 r o)
      = inner (fun k d => k0_pay3 (F := Ideal) v8 v9 v10 v11 v12 v13 v14 v15 v16 v17 v18 v19 v20 v21 v22 v23 (ix3 r k d)) 5 ⟨6 + o.val, by omega⟩ := by
  unfold k0_pay9
  exact pairSum_apply 5 10 rfl _ _ _ _ _ _ _ r o

/-- Run 6: entry `o` is the inner product of rows 6 and 7 + o of the stacked rows. -/
theorem pay10_apply (v8 : FVec Ideal S512x128 .f32) (v9 v10 v11 v12 v13 v14 v15 v16 v17 v18 v19 v20 v21 v22 v23 : Vec Ideal S512x128 .f32)
    (r : Fin 512) (o : Fin 9) :
    k0_pay10 (F := Ideal) v8 v9 v10 v11 v12 v13 v14 v15 v16 v17 v18 v19 v20 v21 v22 v23 (ix2 r o)
      = inner (fun k d => k0_pay3 (F := Ideal) v8 v9 v10 v11 v12 v13 v14 v15 v16 v17 v18 v19 v20 v21 v22 v23 (ix3 r k d)) 6 ⟨7 + o.val, by omega⟩ := by
  unfold k0_pay10
  exact pairSum_apply 6 9 rfl _ _ _ _ _ _ _ r o

end Cert.DotInteraction.Kernel

end
-- ==== Proof.KInteract.lean ====
/-
  The kernel's first product, entry by entry.

  The kernel lays the 120 inner products of the pairs `k < l` of a sample's sixteen rows side by side, as fifteen
  runs of widths 15, 14, …, 1 (run `k` holds the pairs `(k, k + 1)`, …, `(k, 15)` and starts at column
  `k (31 − k) / 2`), puts the sixteen rows themselves end to end after them (2048 more columns), and multiplies the
  2168 columns by the first weight matrix into a zero accumulator. Read at an entry `(r, j)` that is the sum over
  the 2168 positions of the interaction vector of sample `r` times column `j` of the weights: a concatenation is
  read piece by piece, the flattening of the rows by quotient and remainder by 128, and the product by its
  contracted coordinate.
-/
import proofs.«175440_j86792699118126_1_alg».proof.Proof.Gen.KernelIdeal.Skeleton
import proofs.«175440_j86792699118126_1_alg».proof.Proof.Spec
import proofs.«175440_j86792699118126_1_alg».proof.Proof.KPairs
import Idealize.ShloMosaic.Lib.ValueIdx
import Idealize.ShloMosaic.Lib.Pipeline.Value
import Idealize.ShloMosaic.PureOps.Ideal.Laws

noncomputable section

namespace Cert.DotInteraction.Kernel

open Idealize.ShloMosaic Idealize.ShloMosaic.ValueIdx Cert.KernelIdeal Cert.KernelIdeal.Gen Cert.DotInteraction

variable [Cert.KernelIdeal.Facts]

/-! ## The fifteen runs of pair sums side by side -/

/-- Piece `k` of a row of pieces laid side by side, of width `n` and starting at column `pre` (the widths of the
    pieces before it, read off the list `ss` of the pieces' shapes), is what the row shows on the columns
    `pre ≤ p < pre + n`. -/
theorem piece_at (xs : List ((s : Shape) × (s.Idx → Ideal .f32))) (ss : List Shape) (hss : xs.map (·.1) = ss)
    (h : Shape.Concatenates (xs.map (·.1)) S512x120 1)
    (r : Fin 512) (p : Fin 120) (k : Nat) (hk : k < xs.length) (n : Nat) (x : FVec Ideal ⟨2, ![512, n]⟩ .f32)
    (hxk : xs[k] = ⟨⟨2, ![512, n]⟩, x⟩) (pre : Nat)
    (hpre : ((ss.take k).map fun s => if h : s.rank = S512x120.rank then s.size ((1 : Fin S512x120.rank).cast h.symm) else 0).sum = pre)
    (hlo : pre ≤ p.val) (hhi : p.val < pre + n) :
    concatenate S512x120 1 xs h (ix2 r p) = x (ix2 r ⟨p.val - pre, by omega⟩) := by
  subst hss
  refine concatenate_apply_piece 1 xs h (ix2 r p) k hk ⟨2, ![512, n]⟩ x hxk rfl pre (by rw [List.map_take]; exact hpre)
    (ix2 r ⟨p.val - pre, by omega⟩) ?_ ?_
  · intro b hb
    match b, hb with
    | ⟨0, _⟩, _ => rfl
    | ⟨1, _⟩, hb => exact absurd rfl hb
  · show pre + (p.val - pre) = p.val
    omega

/-- Fifteen runs of widths 15, 14, …, 1 side by side: when run `k` lists the values of `P` from position
    `k (31 − k) / 2` on, the whole row lists `P`. -/
theorem runs_apply (x0 : FVec Ideal S512x15 .f32) (x1 : FVec Ideal S512x14 .f32) (x2 : FVec Ideal S512x13 .f32) (x3 : FVec Ideal S512x12 .f32) (x4 : FVec Ideal S512x11 .f32) (x5 : FVec Ideal S512x10 .f32) (x6 : FVec Ideal S512x9 .f32) (x7 : FVec Ideal S512x8 .f32) (x8 : FVec Ideal S512x7 .f32) (x9 : FVec Ideal S512x6 .f32) (x10 : FVec Ideal S512x5 .f32) (x11 : FVec Ideal S512x4 .f32) (x12 : FVec Ideal S512x3 .f32) (x13 : FVec Ideal S512x2 .f32) (x14 : FVec Ideal S512x1 .f32)
    (h : Shape.Concatenates [S512x15, S512x14, S512x13, S512x12, S512x11, S512x10, S512x9, S512x8, S512x7, S512x6, S512x5, S512x4, S512x3, S512x2, S512x1] S512x120 1)
    (P : Fin 120 → Ideal .f32) (r : Fin 512)
    (h0 : ∀ o : Fin 15, x0 (ix2 r o) = P ⟨0 + o.val, by have := o.isLt; omega⟩)
    (h1 : ∀ o : Fin 14, x1 (ix2 r o) = P ⟨15 + o.val, by have := o.isLt; omega⟩)
    (h2 : ∀ o : Fin 13, x2 (ix2 r o) = P ⟨29 + o.val, by have := o.isLt; omega⟩)
    (h3 : ∀ o : Fin 12, x3 (ix2 r o) = P ⟨42 + o.val, by have := o.isLt; omega⟩)
    (h4 : ∀ o : Fin 11, x4 (ix2 r o) = P ⟨54 + o.val, by have := o.isLt; omega⟩)
    (h5 : ∀ o : Fin 10, x5 (ix2 r o) = P ⟨65 + o.val, by have := o.isLt; omega⟩)
    (h6 : ∀ o : Fin 9, x6 (ix2 r o) = P ⟨75 + o.val, by have := o.isLt; omega⟩)
    (h7 : ∀ o : Fin 8, x7 (ix2 r o) = P ⟨84 + o.val, by have := o.isLt; omega⟩)
    (h8 : ∀ o : Fin 7, x8 (ix2 r o) = P ⟨92 + o.val, by have := o.isLt; omega⟩)
    (h9 : ∀ o : Fin 6, x9 (ix2 r o) = P ⟨99 + o.val, by have := o.isLt; omega⟩)
    (h10 : ∀ o : Fin 5, x10 (ix2 r o) = P ⟨105 + o.val, by have := o.isLt; omega⟩)
    (h11 : ∀ o : Fin 4, x11 (ix2 r o) = P ⟨110 + o.val, by have := o.isLt; omega⟩)
    (h12 : ∀ o : Fin 3, x12 (ix2 r o) = P ⟨114 + o.val, by have := o.isLt; omega⟩)
    (h13 : ∀ o : Fin 2, x13 (ix2 r o) = P ⟨117 + o.val, by have := o.isLt; omega⟩)
    (h14 : ∀ o : Fin 1, x14 (ix2 r o) = P ⟨119 + o.val, by have := o.isLt; omega⟩)
    (p : Fin 120) :
    concatenate S512x120 1 [⟨S512x15, x0⟩, ⟨S512x14, x1⟩, ⟨S512x13, x2⟩, ⟨S512x12, x3⟩, ⟨S512x11, x4⟩, ⟨S512x10, x5⟩, ⟨S512x9, x6⟩, ⟨S512x8, x7⟩, ⟨S512x7, x8⟩, ⟨S512x6, x9⟩, ⟨S512x5, x10⟩, ⟨S512x4, x11⟩, ⟨S512x3, x12⟩, ⟨S512x2, x13⟩, ⟨S512x1, x14⟩] h (ix2 r p) = P p := by
  have hp := p.isLt
  have key := piece_at [⟨S512x15, x0⟩, ⟨S512x14, x1⟩, ⟨S512x13, x2⟩, ⟨S512x12, x3⟩, ⟨S512x11, x4⟩, ⟨S512x10, x5⟩, ⟨S512x9, x6⟩, ⟨S512x8, x7⟩, ⟨S512x7, x8⟩, ⟨S512x6, x9⟩, ⟨S512x5, x10⟩, ⟨S512x4, x11⟩, ⟨S512x3, x12⟩, ⟨S512x2, x13⟩, ⟨S512x1, x14⟩]
    [S512x15, S512x14, S512x13, S512x12, S512x11, S512x10, S512x9, S512x8, S512x7, S512x6, S512x5, S512x4, S512x3, S512x2, S512x1] rfl h r p
  by_cases c0 : p.val < 15
  · exact (key 0 (by simp) 15 x0 rfl 0 (by decide) (by omega) (by omega)).trans
      ((h0 _).trans (congrArg P (Fin.ext (by show 0 + (p.val - 0) = p.val; omega))))
  by_cases c1 : p.val < 29
  · exact (key 1 (by simp) 14 x1 rfl 15 (by decide) (by omega) (by omega)).trans
      ((h1 _).trans (congrArg P (Fin.ext (by show 15 + (p.val - 15) = p.val; omega))))
  by_cases c2 : p.val < 42
  · exact (key 2 (by simp) 13 x2 rfl 29 (by decide) (by omega) (by omega)).trans
      ((h2 _).trans (congrArg P (Fin.ext (by show 29 + (p.val - 29) = p.val; omega))))
  by_cases c3 : p.val < 54
  · exact (key 3 (by simp) 12 x3 rfl 42 (by decide) (by omega) (by omega)).trans
      ((h3 _).trans (congrArg P (Fin.ext (by show 42 + (p.val - 42) = p.val; omega))))
  by_cases c4 : p.val < 65
  · exact (key 4 (by simp) 11 x4 rfl 54 (by decide) (by omega) (by omega)).trans
      ((h4 _).trans (congrArg P (Fin.ext (by show 54 + (p.val - 54) = p.val; omega))))
  by_cases c5 : p.val < 75
  · exact (key 5 (by simp) 10 x5 rfl 65 (by decide) (by omega) (by omega)).trans
      ((h5 _).trans (congrArg P (Fin.ext (by show 65 + (p.val - 65) = p.val; omega))))
  by_cases c6 : p.val < 84
  · exact (key 6 (by simp) 9 x6 rfl 75 (by decide) (by omega) (by omega)).trans
      ((h6 _).trans (congrArg P (Fin.ext (by show 75 + (p.val - 75) = p.val; omega))))
  by_cases c7 : p.val < 92
  · exact (key 7 (by simp) 8 x7 rfl 84 (by decide) (by omega) (by omega)).trans
      ((h7 _).trans (congrArg P (Fin.ext (by show 84 + (p.val - 84) = p.val; omega))))
  by_cases c8 : p.val < 99
  · exact (key 8 (by simp) 7 x8 rfl 92 (by decide) (by omega) (by omega)).trans
      ((h8 _).trans (congrArg P (Fin.ext (by show 92 + (p.val - 92) = p.val; omega))))
  by_cases c9 : p.val < 105
  · exact (key 9 (by simp) 6 x9 rfl 99 (by decide) (by omega) (by omega)).trans
      ((h9 _).trans (congrArg P (Fin.ext (by show 99 + (p.val - 99) = p.val; omega))))
  by_cases c10 : p.val < 110
  · exact (key 10 (by simp) 5 x10 rfl 105 (by decide) (by omega) (by omega)).trans
      ((h10 _).trans (congrArg P (Fin.ext (by show 105 + (p.val - 105) = p.val; omega))))
  by_cases c11 : p.val < 114
  · exact (key 11 (by simp) 4 x11 rfl 110 (by decide) (by omega) (by omega)).trans
      ((h11 _).trans (congrArg P (Fin.ext (by show 110 + (p.val - 110) = p.val; omega))))
  by_cases c12 : p.val < 117
  · exact (key 12 (by simp) 3 x12 rfl 114 (by decide) (by omega) (by omega)).trans
      ((h12 _).trans (congrArg P (Fin.ext (by show 114 + (p.val - 114) = p.val; omega))))
  by_cases c13 : p.val < 119
  · exact (key 13 (by simp) 2 x13 rfl 117 (by decide) (by omega) (by omega)).trans
      ((h13 _).trans (congrArg P (Fin.ext (by show 117 + (p.val - 117) = p.val; omega))))
  exact (key 14 (by simp) 1 x14 rfl 119 (by decide) (by omega) (by omega)).trans
      ((h14 _).trans (congrArg P (Fin.ext (by show 119 + (p.val - 119) = p.val; omega))))

/-! ## The sixteen rows laid end to end -/

/-- The stack as one row of 2048 entries: entry `c` is entry `c % 128` of row `c / 128`. -/
theorem flat_apply {φ : FTy} (x : FVec Ideal S512x16x128 φ) (h : S512x16x128.ShapeCasts S512x2048) (r : Fin 512) (c : Fin 2048) :
    shapeCast S512x2048 x h (ix2 r c)
      = x (ix3 r ⟨c.val / 128, by have := c.isLt; omega⟩ ⟨c.val % 128, Nat.mod_lt _ (by norm_num)⟩) := by
  refine shapeCast_apply x h (ix2 r c) _ ?_
  rw [Shape.rowMajor_val_three, Shape.rowMajor_val_two]
  show (r.val * 16 + c.val / 128) * 128 + c.val % 128 = r.val * 2048 + c.val
  omega

/-! ## The pair sums followed by the rows -/

/-- Two pieces of widths 120 and 2048 side by side: the first on the first 120 columns, the second after them. -/
theorem join_apply {φ : FTy} (x : FVec Ideal S512x120 φ) (y : FVec Ideal S512x2048 φ)
    (h : Shape.Concatenates [S512x120, S512x2048] S512x2168 1) (r : Fin 512) (q : Fin 2168) :
    concatenate S512x2168 1 [⟨S512x120, x⟩, ⟨S512x2048, y⟩] h (ix2 r q)
      = if hq : q.val < 120 then x (ix2 r ⟨q.val, hq⟩) else y (ix2 r ⟨q.val - 120, by have := q.isLt; omega⟩) := by
  split
  · next hq =>
    refine concatenate_pair_apply_left 1 x y h (ix2 r q) rfl (ix2 r ⟨q.val, hq⟩) ?_
    intro b
    match b with
    | ⟨0, _⟩ => rfl
    | ⟨1, _⟩ => rfl
  · next hq =>
    refine concatenate_pair_apply_right 1 x y h (ix2 r q) rfl rfl (ix2 r ⟨q.val - 120, by have := q.isLt; omega⟩) ?_ ?_
    · intro b hb
      match b, hb with
      | ⟨0, _⟩, _ => rfl
      | ⟨1, _⟩, hb => exact absurd rfl hb
    · show q.val - 120 + 120 = q.val
      omega

/-! ## The product with the first weight matrix -/

/-- The rows of the left operand are the rows of the product. -/
theorem lhs_dot_0 (j : S512x1024.Idx) (k : dot_S512x2168_S2168x1024_S512x1024_1_0_0_1_n_n.contr.Idx) :
    (dot_S512x2168_S2168x1024_S512x1024_1_0_0_1_n_n.lhsIdx j k 0).val = (j 0).val := by
  unfold DotDims.lhsIdx
  rw [dif_neg (show ¬(0 : Fin S512x2168.rank) ∈ dot_S512x2168_S2168x1024_S512x1024_1_0_0_1_n_n.lhsBatch by decide),
    dif_pos (show (0 : Fin S512x2168.rank) ∈ dot_S512x2168_S2168x1024_S512x1024_1_0_0_1_n_n.lhsNonContracting by decide)]
  rfl

/-- The columns of the left operand are contracted. -/
theorem lhs_dot_1 (j : S512x1024.Idx) (k : dot_S512x2168_S2168x1024_S512x1024_1_0_0_1_n_n.contr.Idx) :
    (dot_S512x2168_S2168x1024_S512x1024_1_0_0_1_n_n.lhsIdx j k 1).val = (k ⟨0, by decide⟩).val :=
  DotDims.lhsIdx_val_of_single (d := dot_S512x2168_S2168x1024_S512x1024_1_0_0_1_n_n) (cl := 1) rfl j k

/-- The rows of the right operand are contracted. -/
theorem rhs_dot_0 (j : S512x1024.Idx) (k : dot_S512x2168_S2168x1024_S512x1024_1_0_0_1_n_n.contr.Idx) :
    (dot_S512x2168_S2168x1024_S512x1024_1_0_0_1_n_n.rhsIdx j k 0).val = (k ⟨0, by decide⟩).val :=
  DotDims.rhsIdx_val_of_single (d := dot_S512x2168_S2168x1024_S512x1024_1_0_0_1_n_n) (cr := 0) rfl j k

/-- The columns of the right operand are the columns of the product. -/
theorem rhs_dot_1 (j : S512x1024.Idx) (k : dot_S512x2168_S2168x1024_S512x1024_1_0_0_1_n_n.contr.Idx) :
    (dot_S512x2168_S2168x1024_S512x1024_1_0_0_1_n_n.rhsIdx j k 1).val = (j 1).val := by
  unfold DotDims.rhsIdx
  rw [dif_neg (show ¬(1 : Fin S2168x1024.rank) ∈ dot_S512x2168_S2168x1024_S512x1024_1_0_0_1_n_n.rhsBatch by decide),
    dif_pos (show (1 : Fin S2168x1024.rank) ∈ dot_S512x2168_S2168x1024_S512x1024_1_0_0_1_n_n.rhsNonContracting by decide)]
  rfl

/-- The product into a zero accumulator, entry by entry: the sum over the 2168 contracted positions. -/
theorem matmul_zero_apply (A : FVec Ideal S512x2168 .bf16) (B : FVec Ideal S2168x1024 .bf16) (r : Fin 512) (j : Fin 1024) :
    matmul dot_S512x2168_S2168x1024_S512x1024_1_0_0_1_n_n none A B (constant (F := Ideal) S512x1024 .f32 0x00000000#32) (ix2 r j)
      = ∑ q : Fin 2168, A (ix2 r q) * B (ix2 q j) := by
  refine (Ideal.matmul_constant_zero_apply dot_S512x2168_S2168x1024_S512x1024_1_0_0_1_n_n none A B (ix2 r j)).trans ?_
  rw [← Equiv.sum_comp (contrEquiv1 dot_S512x2168_S2168x1024_S512x1024_1_0_0_1_n_n 2168 rfl rfl).symm]
  refine Finset.sum_congr rfl fun q _ => ?_
  have hk := contrEquiv1_symm_val dot_S512x2168_S2168x1024_S512x1024_1_0_0_1_n_n 2168 rfl rfl q
  have hl : dot_S512x2168_S2168x1024_S512x1024_1_0_0_1_n_n.lhsIdx (ix2 r j)
      ((contrEquiv1 dot_S512x2168_S2168x1024_S512x1024_1_0_0_1_n_n 2168 rfl rfl).symm q) = ix2 r q := by
    funext ax; apply Fin.ext
    match ax with
    | ⟨0, _⟩ => exact lhs_dot_0 _ _
    | ⟨1, _⟩ => exact (lhs_dot_1 _ _).trans hk
  have hr : dot_S512x2168_S2168x1024_S512x1024_1_0_0_1_n_n.rhsIdx (ix2 r j)
      ((contrEquiv1 dot_S512x2168_S2168x1024_S512x1024_1_0_0_1_n_n 2168 rfl rfl).symm q) = ix2 q j := by
    funext ax; apply Fin.ext
    match ax with
    | ⟨0, _⟩ => exact (rhs_dot_0 _ _).trans hk
    | ⟨1, _⟩ => exact rhs_dot_1 _ _
  rw [hl, hr]

/-! ## The interaction vector times the first weight matrix -/

/-- The inner product of rows `k` and `k + 1 + o` is the inner product of the pair at position
    `k (31 − k) / 2 + o` of the strict upper triangle. -/
theorem inner_pair (s : Fin 16 → Fin 128 → EReal) (k o : Nat) (hko : o + k < 15) (p : Fin 120) (hp : p.val = pairStart k + o)
    (a b : Fin 16) (ha : a.val = k) (hb : b.val = k + 1 + o) :
    inner s a b = inner s (pairL p) (pairR p) := by
  have hrun := pair_run ⟨k, by omega⟩ ⟨o, by omega⟩ hko
  have hL : pairL p = a := Fin.ext (by show pairLNat p.val = a.val; rw [hp, ha]; exact hrun.1)
  have hR : pairR p = b := Fin.ext (by show pairRNat p.val = b.val; rw [hp, hb]; exact hrun.2)
  rw [hL, hR]

/-- The product's entry `(r, j)`, for any stack `S` of sixteen rows and any seven first runs that list the inner
    products of their pairs: the interaction vector of sample `r` against column `j` of the weights. -/
theorem pay11_apply (S : FVec Ideal S512x16x128 .f32) (v45 : FVec Ideal S512x15 .f32) (v50 : FVec Ideal S512x14 .f32) (v55 : FVec Ideal S512x13 .f32) (v60 : FVec Ideal S512x12 .f32) (v65 : FVec Ideal S512x11 .f32) (v70 : FVec Ideal S512x10 .f32) (v75 : FVec Ideal S512x9 .f32)
    (v120 : Vec Ideal S2168x1024 .bf16) (r : Fin 512)
    (h0 : ∀ o : Fin 15, v45 (ix2 r o)
      = inner (fun k d => S (ix3 r k d)) (pairL ⟨0 + o.val, by have := o.isLt; omega⟩) (pairR ⟨0 + o.val, by have := o.isLt; omega⟩))
    (h1 : ∀ o : Fin 14, v50 (ix2 r o)
      = inner (fun k d => S (ix3 r k d)) (pairL ⟨15 + o.val, by have := o.isLt; omega⟩) (pairR ⟨15 + o.val, by have := o.isLt; omega⟩))
    (h2 : ∀ o : Fin 13, v55 (ix2 r o)
      = inner (fun k d => S (ix3 r k d)) (pairL ⟨29 + o.val, by have := o.isLt; omega⟩) (pairR ⟨29 + o.val, by have := o.isLt; omega⟩))
    (h3 : ∀ o : Fin 12, v60 (ix2 r o)
      = inner (fun k d => S (ix3 r k d)) (pairL ⟨42 + o.val, by have := o.isLt; omega⟩) (pairR ⟨42 + o.val, by have := o.isLt; omega⟩))
    (h4 : ∀ o : Fin 11, v65 (ix2 r o)
      = inner (fun k d => S (ix3 r k d)) (pairL ⟨54 + o.val, by have := o.isLt; omega⟩) (pairR ⟨54 + o.val, by have := o.isLt; omega⟩))
    (h5 : ∀ o : Fin 10, v70 (ix2 r o)
      = inner (fun k d => S (ix3 r k d)) (pairL ⟨65 + o.val, by have := o.isLt; omega⟩) (pairR ⟨65 + o.val, by have := o.isLt; omega⟩))
    (h6 : ∀ o : Fin 9, v75 (ix2 r o)
      = inner (fun k d => S (ix3 r k d)) (pairL ⟨75 + o.val, by have := o.isLt; omega⟩) (pairR ⟨75 + o.val, by have := o.isLt; omega⟩))
    (j : Fin 1024) :
    k0_pay11 (F := Ideal) S v45 v50 v55 v60 v65 v70 v75 v120 (ix2 r j)
      = ∑ q : Fin 2168, interact (fun k d => S (ix3 r k d)) q * v120 (ix2 q j) := by
  unfold k0_pay11
  refine (matmul_zero_apply _ _ r j).trans ?_
  refine Finset.sum_congr rfl fun q _ => ?_
  rw [shapeCast_self]
  congr 1
  rw [join_apply]
  unfold interact
  split
  · next hq =>
    rw [truncf_apply]
    refine runs_apply _ _ _ _ _ _ _ _ _ _ _ _ _ _ _ _
      (fun p => inner (fun k d => S (ix3 r k d)) (pairL p) (pairR p)) r ?_ ?_ ?_ ?_ ?_ ?_ ?_ ?_ ?_ ?_ ?_ ?_ ?_ ?_ ?_ ⟨q.val, hq⟩
    · exact h0
    · exact h1
    · exact h2
    · exact h3
    · exact h4
    · exact h5
    · exact h6
    · intro o
      exact (pairSum_eq_inner 7 8 rfl S _ _ _ _ _ _ r o).trans
        (inner_pair _ 7 o.val (by have := o.isLt; omega) _ rfl _ _ rfl rfl)
    · intro o
      exact (pairSum_eq_inner 8 7 rfl S _ _ _ _ _ _ r o).trans
        (inner_pair _ 8 o.val (by have := o.isLt; omega) _ rfl _ _ rfl rfl)
    · intro o
      exact (pairSum_eq_inner 9 6 rfl S _ _ _ _ _ _ r o).trans
        (inner_pair _ 9 o.val (by have := o.isLt; omega) _ rfl _ _ rfl rfl)
    · intro o
      exact (pairSum_eq_inner 10 5 rfl S _ _ _ _ _ _ r o).trans
        (inner_pair _ 10 o.val (by have := o.isLt; omega) _ rfl _ _ rfl rfl)
    · intro o
      exact (pairSum_eq_inner 11 4 rfl S _ _ _ _ _ _ r o).trans
        (inner_pair _ 11 o.val (by have := o.isLt; omega) _ rfl _ _ rfl rfl)
    · intro o
      exact (pairSum_eq_inner 12 3 rfl S _ _ _ _ _ _ r o).trans
        (inner_pair _ 12 o.val (by have := o.isLt; omega) _ rfl _ _ rfl rfl)
    · intro o
      exact (pairSum_eq_inner 13 2 rfl S _ _ _ _ _ _ r o).trans
        (inner_pair _ 13 o.val (by have := o.isLt; omega) _ rfl _ _ rfl rfl)
    · intro o
      exact (pairSumLast_eq_inner 14 rfl S _ _ _ _ _ r o).trans
        (inner_pair _ 14 o.val (by have := o.isLt; omega) _ rfl _ _ rfl rfl)
  · next hq =>
    rw [flat_apply, truncf_apply]

/-- **The kernel's first product.** Entry `(r, j)` is the interaction vector of the stacked rows of sample `r`
    against column `j` of the first weight matrix. -/
theorem interact_apply (v8 : FVec Ideal S512x128 .f32) (v9 v10 v11 v12 v13 v14 v15 v16 v17 v18 v19 v20 v21 v22 v23 : Vec Ideal S512x128 .f32)
    (v120 : Vec Ideal S2168x1024 .bf16) (r : Fin 512) (j : Fin 1024) :
    k0_pay11 (F := Ideal) (k0_pay3 (F := Ideal) v8 v9 v10 v11 v12 v13 v14 v15 v16 v17 v18 v19 v20 v21 v22 v23)
        (k0_pay4 (F := Ideal) v8 v9 v10 v11 v12 v13 v14 v15 v16 v17 v18 v19 v20 v21 v22 v23) (k0_pay5 (F := Ideal) v8 v9 v10 v11 v12 v13 v14 v15 v16 v17 v18 v19 v20 v21 v22 v23)
        (k0_pay6 (F := Ideal) v8 v9 v10 v11 v12 v13 v14 v15 v16 v17 v18 v19 v20 v21 v22 v23) (k0_pay7 (F := Ideal) v8 v9 v10 v11 v12 v13 v14 v15 v16 v17 v18 v19 v20 v21 v22 v23)
        (k0_pay8 (F := Ideal) v8 v9 v10 v11 v12 v13 v14 v15 v16 v17 v18 v19 v20 v21 v22 v23) (k0_pay9 (F := Ideal) v8 v9 v10 v11 v12 v13 v14 v15 v16 v17 v18 v19 v20 v21 v22 v23)
        (k0_pay10 (F := Ideal) v8 v9 v10 v11 v12 v13 v14 v15 v16 v17 v18 v19 v20 v21 v22 v23) v120 (ix2 r j)
      = ∑ q : Fin 2168, interact (fun k d => k0_pay3 (F := Ideal) v8 v9 v10 v11 v12 v13 v14 v15 v16 v17 v18 v19 v20 v21 v22 v23 (ix3 r k d)) q * v120 (ix2 q j) :=
  pay11_apply _ _ _ _ _ _ _ _ v120 r
    (fun o => (pay4_apply v8 v9 v10 v11 v12 v13 v14 v15 v16 v17 v18 v19 v20 v21 v22 v23 r o).trans
      (inner_pair _ 0 o.val (by have := o.isLt; omega) _ rfl _ _ rfl rfl))
    (fun o => (pay5_apply v8 v9 v10 v11 v12 v13 v14 v15 v16 v17 v18 v19 v20 v21 v22 v23 r o).trans
      (inner_pair _ 1 o.val (by have := o.isLt; omega) _ rfl _ _ rfl rfl))
    (fun o => (pay6_apply v8 v9 v10 v11 v12 v13 v14 v15 v16 v17 v18 v19 v20 v21 v22 v23 r o).trans
      (inner_pair _ 2 o.val (by have := o.isLt; omega) _ rfl _ _ rfl rfl))
    (fun o => (pay7_apply v8 v9 v10 v11 v12 v13 v14 v15 v16 v17 v18 v19 v20 v21 v22 v23 r o).trans
      (inner_pair _ 3 o.val (by have := o.isLt; omega) _ rfl _ _ rfl rfl))
    (fun o => (pay8_apply v8 v9 v10 v11 v12 v13 v14 v15 v16 v17 v18 v19 v20 v21 v22 v23 r o).trans
      (inner_pair _ 4 o.val (by have := o.isLt; omega) _ rfl _ _ rfl rfl))
    (fun o => (pay9_apply v8 v9 v10 v11 v12 v13 v14 v15 v16 v17 v18 v19 v20 v21 v22 v23 r o).trans
      (inner_pair _ 5 o.val (by have := o.isLt; omega) _ rfl _ _ rfl rfl))
    (fun o => (pay10_apply v8 v9 v10 v11 v12 v13 v14 v15 v16 v17 v18 v19 v20 v21 v22 v23 r o).trans
      (inner_pair _ 6 o.val (by have := o.isLt; omega) _ rfl _ _ rfl rfl))
    j

end Cert.DotInteraction.Kernel

end
-- ==== Proof.KMlp.lean ====
import proofs.«175440_j86792699118126_1_alg».proof.Proof.Gen.KernelIdeal.Skeleton
import proofs.«175440_j86792699118126_1_alg».proof.Proof.Spec
import Idealize.ShloMosaic.Lib.ValueIdx
import Idealize.ShloMosaic.Lib.Pipeline.Value
import Idealize.ShloMosaic.Lib.ValueLayout
import Idealize.ShloMosaic.PureOps.Ideal.Laws

/-!
  The kernel's last payload read at an index: three dense layers with a rectifier.

  The payload takes the first product (a 512 × 1024 array), adds the first bias row to every row, takes the
  maximum with zero, multiplies by the second weight matrix, adds the second bias row, takes the maximum with
  zero, multiplies by the third weight matrix, adds the third bias row and takes the maximum with zero.  Over
  the extended reals the format changes are the identity and a matrix product into a zero accumulator is the
  plain finite sum, so row `r` of the result is two dense layers applied to the rectified, biased row `r` of
  the first product.
-/

noncomputable section

namespace Cert.DotInteraction.Kernel

open Idealize.ShloMosaic Idealize.ShloMosaic.ValueIdx Cert.KernelIdeal Cert.KernelIdeal.Gen Cert.DotInteraction

variable [Cert.KernelIdeal.Facts]

/-! ## The pieces of a layer at an index -/

/-- A bias vector of length `b`, viewed as one row and repeated over `a` rows, reads at `(p, c)` its entry `c`. -/
theorem mlp_biasRows_apply {a b : ℕ} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The product of an `m × k` by a `k × n` matrix into a zero accumulator, read at `(a, b)`, is the sum over the
    contracted coordinate of the products of the entries. -/
theorem mlp_matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## One layer at an index -/

/-- A dense layer as the kernel writes it — the input rounded to the narrow format (the identity here), multiplied
    by the weights into a zero accumulator, the bias row added to every row, the maximum with the zero splat —
    read at `(r, j)`, is the dense layer of row `r` of the input. -/
theorem mlp_layer_apply {m k n : ℕ}
    (w : DotDims.WF ⟨2, ![m, k]⟩ ⟨2, ![k, n]⟩ ⟨2, ![m, n]⟩ [1] [0] [0] [1] [] [])
    (prec : Option ContractPrecision) (hlt : FTy.bits .bf16 < FTy.bits .f32)
    (x : FVec Ideal ⟨2, ![m, k]⟩ .f32) (W : FVec Ideal ⟨2, ![k, n]⟩ .bf16) (hW : (⟨2, ![k, n]⟩ : Shape).ShapeCasts ⟨2, ![k, n]⟩)
    (b : FVec Ideal ⟨1, ![n]⟩ .f32)
    (h1 : (⟨1, ![n]⟩ : Shape).ShapeCasts ⟨2, ![1, n]⟩) (h2 : (⟨2, ![1, n]⟩ : Shape).Broadcasts ⟨2, ![m, n]⟩)
    (r : Fin m) (j : Fin n) :
    maximumf
        (addf
          (matmul (⟨[1], [0], [0], [1], [], [], w⟩ : DotDims _ _ _) prec (truncf .bf16 x hlt) (shapeCast ⟨2, ![k, n]⟩ W hW)
            (constant (F := Ideal) ⟨2, ![m, n]⟩ .f32 0x00000000#32))
          (broadcastTo ⟨2, ![m, n]⟩ (shapeCast ⟨2, ![1, n]⟩ b h1) h2))
        (broadcast ⟨2, ![m, n]⟩ (Scalar.ofBits (F := Ideal) .f32 0x00000000#32)) (ix2 r j)
      = dense (fun q : Fin k => x (ix2 r q)) (mat W) (vec1 b) j := by
  rw [maximumf_apply, addf_apply, broadcast_apply, mlp_matmul_zero_apply, mlp_biasRows_apply, shapeCast_self]
  show max ((∑ c : Fin k, x (ix2 r c) * W (ix2 c j)) + b (ix1 j)) (Ideal.ofBits .f32 0x00000000#32) = _
  rw [Ideal.ofBits_zero_f32]
  rfl

/-! ## The payload at an index -/

/-- Row `r` of the kernel's result: the second and third dense layers applied to the rectified, biased row `r` of
    the first product. -/
theorem pay1_apply (v122 : FVec Ideal S512x1024 .f32) (v123 : Vec Ideal S1024 .f32) (v130 : Vec Ideal S1024x512 .bf16)
    (v133 : Vec Ideal S512 .f32) (v140 : Vec Ideal S512x256 .bf16) (v143 : Vec Ideal S256 .f32) (r : Fin 512) (j : Fin 256) :
    k0_pay1 (F := Ideal) v122 v123 v130 v133 v140 v143 (ix2 r j)
      = dense (dense (fun q : Fin 1024 => max (v122 (ix2 r q) + v123 (ix1 q)) 0) (mat v130) (vec1 v133))
          (mat v140) (vec1 v143) j := by
  unfold k0_pay1
  refine (mlp_layer_apply _ _ _ _ _ _ _ _ _ r j).trans ?_
  refine congrArg (fun x => dense x (mat v140) (vec1 v143) j) (funext fun p => ?_)
  refine (mlp_layer_apply _ _ _ _ _ _ _ _ _ r p).trans ?_
  refine congrArg (fun x => dense x (mat v130) (vec1 v133) p) (funext fun q => ?_)
  rw [maximumf_apply, addf_apply, broadcast_apply, mlp_biasRows_apply]
  show max (v122 (ix2 r q) + v123 (ix1 q)) (Ideal.ofBits .f32 0x00000000#32) = _
  rw [Ideal.ofBits_zero_f32]

end Cert.DotInteraction.Kernel

end
-- ==== Proof.KBlock.lean ====
/-
  The kernel body's result block is the batch function of its input blocks.

  The body stores one value, through the whole of the result block: the three dense layers applied to the first
  product of the interaction vectors with the first weight matrix, the interaction vectors being formed from the
  sixteen stacked rows, the first of which is the projection of the raw features.  Row `r`, column `j` of that
  value is the `j`-th result of sample `r` of the block.
-/
import proofs.«175440_j86792699118126_1_alg».proof.Proof.Gen.KernelIdeal.Frame
import proofs.«175440_j86792699118126_1_alg».proof.Proof.Spec
import proofs.«175440_j86792699118126_1_alg».proof.Proof.KFeatures
import proofs.«175440_j86792699118126_1_alg».proof.Proof.KInteract
import proofs.«175440_j86792699118126_1_alg».proof.Proof.KMlp

noncomputable section

namespace Cert.DotInteraction.Kernel

open Idealize.ShloMosaic Idealize.ShloMosaic.ValueIdx Cert.KernelIdeal Cert.KernelIdeal.Gen Cert.DotInteraction

theorem origin2 : (![0, 0] : Fin 2 → Nat) = fun _ => 0 := funext fun a => by fin_cases a <;> rfl
theorem origin1 : (![0] : Fin 1 → Nat) = fun _ => 0 := funext fun a => by fin_cases a <;> rfl

/-- The first product, then the first layer's bias and rectifier, is the first dense layer of the interaction vector. -/
theorem first_layer (s : Fin 16 → Fin 128 → EReal) (W : Fin 2168 → Fin 1024 → EReal) (b : Fin 1024 → EReal) :
    (fun q : Fin 1024 => max ((∑ q' : Fin 2168, interact s q' * W q' q) + b q) 0) = dense (interact s) W b := rfl

theorem out_apply (x0 : Vec Ideal S512x64 .f32) (x1 : Vec Ideal S512x128 .f32) (x2 : Vec Ideal S512x128 .f32) (x3 : Vec Ideal S512x128 .f32) (x4 : Vec Ideal S512x128 .f32) (x5 : Vec Ideal S512x128 .f32) (x6 : Vec Ideal S512x128 .f32) (x7 : Vec Ideal S512x128 .f32) (x8 : Vec Ideal S512x128 .f32) (x9 : Vec Ideal S512x128 .f32) (x10 : Vec Ideal S512x128 .f32) (x11 : Vec Ideal S512x128 .f32) (x12 : Vec Ideal S512x128 .f32) (x13 : Vec Ideal S512x128 .f32) (x14 : Vec Ideal S512x128 .f32) (x15 : Vec Ideal S512x128 .f32) (x16 : Vec Ideal S64x128 .bf16) (x17 : Vec Ideal S128 .f32) (x18 : Vec Ideal S2168x1024 .bf16) (x19 : Vec Ideal S1024 .f32) (x20 : Vec Ideal S1024x512 .bf16) (x21 : Vec Ideal S512 .f32) (x22 : Vec Ideal S512x256 .bf16) (x23 : Vec Ideal S256 .f32) :
    out0_24 (F := Ideal) x0 x1 x2 x3 x4 x5 x6 x7 x8 x9 x10 x11 x12 x13 x14 x15 x16 x17 x18 x19 x20 x21 x22 x23 = batch (N := 512) x0 x1 x2 x3 x4 x5 x6 x7 x8 x9 x10 x11 x12 x13 x14 x15 x16 x17 x18 x19 x20 x21 x22 x23 := by
  funext y
  obtain ⟨r, j, rfl⟩ : ∃ (r : Fin 512) (j : Fin 256), y = ix2 r j := ⟨y 0, y 1, eq_ix2 y⟩
  unfold out0_24
  rw [View.canon_unit_zero origin2]
  simp only [View.ld_unit_zero (S := S512x64) origin2, View.ld_unit_zero (S := S512x128) origin2,
    View.ld_unit_zero (S := S64x128) origin2, View.ld_unit_zero (S := S128) origin1,
    View.ld_unit_zero (S := S2168x1024) origin2, View.ld_unit_zero (S := S1024) origin1,
    View.ld_unit_zero (S := S1024x512) origin2, View.ld_unit_zero (S := S512) origin1,
    View.ld_unit_zero (S := S512x256) origin2, View.ld_unit_zero (S := S256) origin1]
  rw [pay1_apply]
  simp only [interact_apply]
  have hrows : (fun k d => k0_pay3 (F := Ideal) (k0_pay2 (F := Ideal) x0 x16 x17) x1 x2 x3 x4 x5 x6 x7 x8 x9 x10 x11 x12 x13 x14 x15 (ix3 r k d))
      = stack16 (proj (row x0 r) (mat x16) (vec1 x17)) (row x1 r) (row x2 r) (row x3 r) (row x4 r) (row x5 r) (row x6 r) (row x7 r) (row x8 r) (row x9 r) (row x10 r) (row x11 r) (row x12 r) (row x13 r) (row x14 r) (row x15 r) := by
    funext k d
    rw [pay3_apply]
    have hp : row (k0_pay2 (F := Ideal) x0 x16 x17) r = proj (row x0 r) (mat x16) (vec1 x17) := funext fun d => pay2_apply x0 x16 x17 r d
    rw [hp]
  rw [hrows]
  rfl

end Cert.DotInteraction.Kernel

end
-- ==== Proof.KernelValue.lean ====
/-
  What the kernel's result array holds after the run.

  Grid point `t` works on rows `512 t … 512 t + 511` of the sixteen feature arrays and on the whole of every weight
  array, and writes rows `512 t … 512 t + 511` of the result.  Since a sample's results depend on its own rows only,
  what point `t` writes is block `t` of the batch function of the whole arrays; the 64 blocks cover the 32768 rows,
  so the result array ends holding the batch function of the arrays the region finds.  The four weight matrices
  reach the region narrowed to a shorter float format, which is the identity on the extended reals.
-/
import proofs.«175440_j86792699118126_1_alg».proof.Proof.Gen.KernelIdeal.Value
import proofs.«175440_j86792699118126_1_alg».proof.Proof.KBlock
import Idealize.ShloMosaic.Lib.StableHlo.Run

set_option maxRecDepth 16384

noncomputable section

namespace Cert.DotInteraction.Kernel

open Idealize.ShloMosaic Idealize.ShloMosaic.TcCoe Idealize.ShloMosaic.ValueIdx Idealize.SL.Sem
open Cert.KernelIdeal Cert.KernelIdeal.Gen Cert.DotInteraction
open Idealize.ShloMosaic.Pipeline (Dat)

/-- The batch function depends on the sample's own rows, the weights and the result column only. -/
theorem batch_congr {N N' : Nat} (x0 : (⟨2, ![N, 64]⟩ : Shape).Idx → EReal) (x1 x2 x3 x4 x5 x6 x7 x8 x9 x10 x11 x12 x13 x14 x15 : (⟨2, ![N, 128]⟩ : Shape).Idx → EReal) (x16 : (⟨2, ![64, 128]⟩ : Shape).Idx → EReal) (x17 : (⟨1, ![128]⟩ : Shape).Idx → EReal) (x18 : (⟨2, ![2168, 1024]⟩ : Shape).Idx → EReal) (x19 : (⟨1, ![1024]⟩ : Shape).Idx → EReal) (x20 : (⟨2, ![1024, 512]⟩ : Shape).Idx → EReal) (x21 : (⟨1, ![512]⟩ : Shape).Idx → EReal) (x22 : (⟨2, ![512, 256]⟩ : Shape).Idx → EReal) (x23 : (⟨1, ![256]⟩ : Shape).Idx → EReal)
    (A0 : (⟨2, ![N', 64]⟩ : Shape).Idx → EReal) (A1 A2 A3 A4 A5 A6 A7 A8 A9 A10 A11 A12 A13 A14 A15 : (⟨2, ![N', 128]⟩ : Shape).Idx → EReal) (A16 : (⟨2, ![64, 128]⟩ : Shape).Idx → EReal) (A17 : (⟨1, ![128]⟩ : Shape).Idx → EReal) (A18 : (⟨2, ![2168, 1024]⟩ : Shape).Idx → EReal) (A19 : (⟨1, ![1024]⟩ : Shape).Idx → EReal) (A20 : (⟨2, ![1024, 512]⟩ : Shape).Idx → EReal) (A21 : (⟨1, ![512]⟩ : Shape).Idx → EReal) (A22 : (⟨2, ![512, 256]⟩ : Shape).Idx → EReal) (A23 : (⟨1, ![256]⟩ : Shape).Idx → EReal)
    (y : (⟨2, ![N, 256]⟩ : Shape).Idx) (Y : (⟨2, ![N', 256]⟩ : Shape).Idx)
    (h0 : ∀ col, x0 (ix2 (y 0) col) = A0 (ix2 (Y 0) col))
    (h1 : ∀ col, x1 (ix2 (y 0) col) = A1 (ix2 (Y 0) col))
    (h2 : ∀ col, x2 (ix2 (y 0) col) = A2 (ix2 (Y 0) col))
    (h3 : ∀ col, x3 (ix2 (y 0) col) = A3 (ix2 (Y 0) col))
    (h4 : ∀ col, x4 (ix2 (y 0) col) = A4 (ix2 (Y 0) col))
    (h5 : ∀ col, x5 (ix2 (y 0) col) = A5 (ix2 (Y 0) col))
    (h6 : ∀ col, x6 (ix2 (y 0) col) = A6 (ix2 (Y 0) col))
    (h7 : ∀ col, x7 (ix2 (y 0) col) = A7 (ix2 (Y 0) col))
    (h8 : ∀ col, x8 (ix2 (y 0) col) = A8 (ix2 (Y 0) col))
    (h9 : ∀ col, x9 (ix2 (y 0) col) = A9 (ix2 (Y 0) col))
    (h10 : ∀ col, x10 (ix2 (y 0) col) = A10 (ix2 (Y 0) col))
    (h11 : ∀ col, x11 (ix2 (y 0) col) = A11 (ix2 (Y 0) col))
    (h12 : ∀ col, x12 (ix2 (y 0) col) = A12 (ix2 (Y 0) col))
    (h13 : ∀ col, x13 (ix2 (y 0) col) = A13 (ix2 (Y 0) col))
    (h14 : ∀ col, x14 (ix2 (y 0) col) = A14 (ix2 (Y 0) col))
    (h15 : ∀ col, x15 (ix2 (y 0) col) = A15 (ix2 (Y 0) col))
    (h16 : ∀ a b, x16 (ix2 a b) = A16 (ix2 a b))
    (h17 : ∀ a, x17 (ix1 a) = A17 (ix1 a))
    (h18 : ∀ a b, x18 (ix2 a b) = A18 (ix2 a b))
    (h19 : ∀ a, x19 (ix1 a) = A19 (ix1 a))
    (h20 : ∀ a b, x20 (ix2 a b) = A20 (ix2 a b))
    (h21 : ∀ a, x21 (ix1 a) = A21 (ix1 a))
    (h22 : ∀ a b, x22 (ix2 a b) = A22 (ix2 a b))
    (h23 : ∀ a, x23 (ix1 a) = A23 (ix1 a))
    (hj : (y 1).val = (Y 1).val) :
    batch x0 x1 x2 x3 x4 x5 x6 x7 x8 x9 x10 x11 x12 x13 x14 x15 x16 x17 x18 x19 x20 x21 x22 x23 y = batch A0 A1 A2 A3 A4 A5 A6 A7 A8 A9 A10 A11 A12 A13 A14 A15 A16 A17 A18 A19 A20 A21 A22 A23 Y := by
  have r0 : row x0 (y 0) = row A0 (Y 0) := funext h0
  have r1 : row x1 (y 0) = row A1 (Y 0) := funext h1
  have r2 : row x2 (y 0) = row A2 (Y 0) := funext h2
  have r3 : row x3 (y 0) = row A3 (Y 0) := funext h3
  have r4 : row x4 (y 0) = row A4 (Y 0) := funext h4
  have r5 : row x5 (y 0) = row A5 (Y 0) := funext h5
  have r6 : row x6 (y 0) = row A6 (Y 0) := funext h6
  have r7 : row x7 (y 0) = row A7 (Y 0) := funext h7
  have r8 : row x8 (y 0) = row A8 (Y 0) := funext h8
  have r9 : row x9 (y 0) = row A9 (Y 0) := funext h9
  have r10 : row x10 (y 0) = row A10 (Y 0) := funext h10
  have r11 : row x11 (y 0) = row A11 (Y 0) := funext h11
  have r12 : row x12 (y 0) = row A12 (Y 0) := funext h12
  have r13 : row x13 (y 0) = row A13 (Y 0) := funext h13
  have r14 : row x14 (y 0) = row A14 (Y 0) := funext h14
  have r15 : row x15 (y 0) = row A15 (Y 0) := funext h15
  have r16 : mat x16 = mat A16 := funext fun a => funext fun b => h16 a b
  have r18 : mat x18 = mat A18 := funext fun a => funext fun b => h18 a b
  have r20 : mat x20 = mat A20 := funext fun a => funext fun b => h20 a b
  have r22 : mat x22 = mat A22 := funext fun a => funext fun b => h22 a b
  have r17 : vec1 x17 = vec1 A17 := funext h17
  have r19 : vec1 x19 = vec1 A19 := funext h19
  have r21 : vec1 x21 = vec1 A21 := funext h21
  have r23 : vec1 x23 = vec1 A23 := funext h23
  have rj : (y 1 : Fin 256) = Y 1 := Fin.ext hj
  show sample (row x0 (y 0)) (row x1 (y 0)) (row x2 (y 0)) (row x3 (y 0)) (row x4 (y 0)) (row x5 (y 0)) (row x6 (y 0)) (row x7 (y 0)) (row x8 (y 0)) (row x9 (y 0)) (row x10 (y 0)) (row x11 (y 0)) (row x12 (y 0)) (row x13 (y 0)) (row x14 (y 0)) (row x15 (y 0)) (mat x16) (vec1 x17) (mat x18) (vec1 x19) (mat x20) (vec1 x21) (mat x22) (vec1 x23) (y 1) = sample (row A0 (Y 0)) (row A1 (Y 0)) (row A2 (Y 0)) (row A3 (Y 0)) (row A4 (Y 0)) (row A5 (Y 0)) (row A6 (Y 0)) (row A7 (Y 0)) (row A8 (Y 0)) (row A9 (Y 0)) (row A10 (Y 0)) (row A11 (Y 0)) (row A12 (Y 0)) (row A13 (Y 0)) (row A14 (Y 0)) (row A15 (Y 0)) (mat A16) (vec1 A17) (mat A18) (vec1 A19) (mat A20) (vec1 A21) (mat A22) (vec1 A23) (Y 1)
  rw [r0, r1, r2, r3, r4, r5, r6, r7, r8, r9, r10, r11, r12, r13, r14, r15, r16, r17, r18, r19, r20, r21, r22, r23, rj]

variable (m : (ℓ : Loc nD τ sig) → Buf (Elt Ideal) ℓ) (ρ : Dev nD → PrngReg)

/-- The batch function of the arrays as the region finds them. -/
def found (c : Dev nD) : S32768x256.Idx → EReal :=
  batch (N := 32768) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_v0) (V m c main_arg17) (V m c main_v1) (V m c main_arg19) (V m c main_v2) (V m c main_arg21) (V m c main_v3) (V m c main_arg23)

/-! ## Where each window's block sits at grid point `t` (decided over the 64 points) -/

theorem block_index0 : ∀ t : Fin cfg0.N, win0_0.index t (0 : Fin 2) = t.val ∧ win0_0.index t (1 : Fin 2) = 0 :=
  (by decide +kernel : ∀ t : Fin grid0.N, _)
theorem block_index1 : ∀ t : Fin cfg0.N, win0_1.index t (0 : Fin 2) = t.val ∧ win0_1.index t (1 : Fin 2) = 0 :=
  (by decide +kernel : ∀ t : Fin grid0.N, _)
theorem block_index2 : ∀ t : Fin cfg0.N, win0_2.index t (0 : Fin 2) = t.val ∧ win0_2.index t (1 : Fin 2) = 0 :=
  (by decide +kernel : ∀ t : Fin grid0.N, _)
theorem block_index3 : ∀ t : Fin cfg0.N, win0_3.index t (0 : Fin 2) = t.val ∧ win0_3.index t (1 : Fin 2) = 0 :=
  (by decide +kernel : ∀ t : Fin grid0.N, _)
theorem block_index4 : ∀ t : Fin cfg0.N, win0_4.index t (0 : Fin 2) = t.val ∧ win0_4.index t (1 : Fin 2) = 0 :=
  (by decide +kernel : ∀ t : Fin grid0.N, _)
theorem block_index5 : ∀ t : Fin cfg0.N, win0_5.index t (0 : Fin 2) = t.val ∧ win0_5.index t (1 : Fin 2) = 0 :=
  (by decide +kernel : ∀ t : Fin grid0.N, _)
theorem block_index6 : ∀ t : Fin cfg0.N, win0_6.index t (0 : Fin 2) = t.val ∧ win0_6.index t (1 : Fin 2) = 0 :=
  (by decide +kernel : ∀ t : Fin grid0.N, _)
theorem block_index7 : ∀ t : Fin cfg0.N, win0_7.index t (0 : Fin 2) = t.val ∧ win0_7.index t (1 : Fin 2) = 0 :=
  (by decide +kernel : ∀ t : Fin grid0.N, _)
theorem block_index8 : ∀ t : Fin cfg0.N, win0_8.index t (0 : Fin 2) = t.val ∧ win0_8.index t (1 : Fin 2) = 0 :=
  (by decide +kernel : ∀ t : Fin grid0.N, _)
theorem block_index9 : ∀ t : Fin cfg0.N, win0_9.index t (0 : Fin 2) = t.val ∧ win0_9.index t (1 : Fin 2) = 0 :=
  (by decide +kernel : ∀ t : Fin grid0.N, _)
theorem block_index10 : ∀ t : Fin cfg0.N, win0_10.index t (0 : Fin 2) = t.val ∧ win0_10.index t (1 : Fin 2) = 0 :=
  (by decide +kernel : ∀ t : Fin grid0.N, _)
theorem block_index11 : ∀ t : Fin cfg0.N, win0_11.index t (0 : Fin 2) = t.val ∧ win0_11.index t (1 : Fin 2) = 0 :=
  (by decide +kernel : ∀ t : Fin grid0.N, _)
theorem block_index12 : ∀ t : Fin cfg0.N, win0_12.index t (0 : Fin 2) = t.val ∧ win0_12.index t (1 : Fin 2) = 0 :=
  (by decide +kernel : ∀ t : Fin grid0.N, _)
theorem block_index13 : ∀ t : Fin cfg0.N, win0_13.index t (0 : Fin 2) = t.val ∧ win0_13.index t (1 : Fin 2) = 0 :=
  (by decide +kernel : ∀ t : Fin grid0.N, _)
theorem block_index14 : ∀ t : Fin cfg0.N, win0_14.index t (0 : Fin 2) = t.val ∧ win0_14.index t (1 : Fin 2) = 0 :=
  (by decide +kernel : ∀ t : Fin grid0.N, _)
theorem block_index15 : ∀ t : Fin cfg0.N, win0_15.index t (0 : Fin 2) = t.val ∧ win0_15.index t (1 : Fin 2) = 0 :=
  (by decide +kernel : ∀ t : Fin grid0.N, _)
theorem block_index16 : ∀ t : Fin cfg0.N, win0_16.index t (0 : Fin 2) = 0 ∧ win0_16.index t (1 : Fin 2) = 0 :=
  (by decide +kernel : ∀ t : Fin grid0.N, _)
theorem block_index17 : ∀ t : Fin cfg0.N, win0_17.index t (0 : Fin 1) = 0 :=
  (by decide +kernel : ∀ t : Fin grid0.N, _)
theorem block_index18 : ∀ t : Fin cfg0.N, win0_18.index t (0 : Fin 2) = 0 ∧ win0_18.index t (1 : Fin 2) = 0 :=
  (by decide +kernel : ∀ t : Fin grid0.N, _)
theorem block_index19 : ∀ t : Fin cfg0.N, win0_19.index t (0 : Fin 1) = 0 :=
  (by decide +kernel : ∀ t : Fin grid0.N, _)
theorem block_index20 : ∀ t : Fin cfg0.N, win0_20.index t (0 : Fin 2) = 0 ∧ win0_20.index t (1 : Fin 2) = 0 :=
  (by decide +kernel : ∀ t : Fin grid0.N, _)
theorem block_index21 : ∀ t : Fin cfg0.N, win0_21.index t (0 : Fin 1) = 0 :=
  (by decide +kernel : ∀ t : Fin grid0.N, _)
theorem block_index22 : ∀ t : Fin cfg0.N, win0_22.index t (0 : Fin 2) = 0 ∧ win0_22.index t (1 : Fin 2) = 0 :=
  (by decide +kernel : ∀ t : Fin grid0.N, _)
theorem block_index23 : ∀ t : Fin cfg0.N, win0_23.index t (0 : Fin 1) = 0 :=
  (by decide +kernel : ∀ t : Fin grid0.N, _)
theorem block_index24 : ∀ t : Fin cfg0.N, win0_24.index t (0 : Fin 2) = t.val ∧ win0_24.index t (1 : Fin 2) = 0 :=
  (by decide +kernel : ∀ t : Fin grid0.N, _)

/-! ## Each window's block read off its array -/

/-- Row `r` of feature window 0's block at point `t` is row `512 t + r` of its array. -/
theorem block_row0 (c : Dev nD) (t : Fin cfg0.N) (r : Fin 512) (col : Fin 64) (R : Fin 32768) (hR : R.val = t.val * 512 + r.val) :
    (iblk m c 0 t : Vec Ideal S512x64 .f32) (ix2 r col) = V m c main_arg0 (ix2 R col) := by
  obtain ⟨ea, eb⟩ := block_index0 t
  show V m c main_arg0 (((cfg0.win 0).blk t).view.emb (ix2 r col)) = V m c main_arg0 (ix2 R col)
  congr 1; funext a; apply Fin.ext
  match a with
  | ⟨0, _⟩ => show win0_0.index t (0 : Fin 2) * 512 + 1 * r.val = R.val; omega
  | ⟨1, _⟩ => show win0_0.index t (1 : Fin 2) * 64 + 1 * col.val = col.val; omega

/-- Row `r` of feature window 1's block at point `t` is row `512 t + r` of its array. -/
theorem block_row1 (c : Dev nD) (t : Fin cfg0.N) (r : Fin 512) (col : Fin 128) (R : Fin 32768) (hR : R.val = t.val * 512 + r.val) :
    (iblk m c 1 t : Vec Ideal S512x128 .f32) (ix2 r col) = V m c main_arg1 (ix2 R col) := by
  obtain ⟨ea, eb⟩ := block_index1 t
  show V m c main_arg1 (((cfg0.win 1).blk t).view.emb (ix2 r col)) = V m c main_arg1 (ix2 R col)
  congr 1; funext a; apply Fin.ext
  match a with
  | ⟨0, _⟩ => show win0_1.index t (0 : Fin 2) * 512 + 1 * r.val = R.val; omega
  | ⟨1, _⟩ => show win0_1.index t (1 : Fin 2) * 128 + 1 * col.val = col.val; omega

/-- Row `r` of feature window 2's block at point `t` is row `512 t + r` of its array. -/
theorem block_row2 (c : Dev nD) (t : Fin cfg0.N) (r : Fin 512) (col : Fin 128) (R : Fin 32768) (hR : R.val = t.val * 512 + r.val) :
    (iblk m c 2 t : Vec Ideal S512x128 .f32) (ix2 r col) = V m c main_arg2 (ix2 R col) := by
  obtain ⟨ea, eb⟩ := block_index2 t
  show V m c main_arg2 (((cfg0.win 2).blk t).view.emb (ix2 r col)) = V m c main_arg2 (ix2 R col)
  congr 1; funext a; apply Fin.ext
  match a with
  | ⟨0, _⟩ => show win0_2.index t (0 : Fin 2) * 512 + 1 * r.val = R.val; omega
  | ⟨1, _⟩ => show win0_2.index t (1 : Fin 2) * 128 + 1 * col.val = col.val; omega

/-- Row `r` of feature window 3's block at point `t` is row `512 t + r` of its array. -/
theorem block_row3 (c : Dev nD) (t : Fin cfg0.N) (r : Fin 512) (col : Fin 128) (R : Fin 32768) (hR : R.val = t.val * 512 + r.val) :
    (iblk m c 3 t : Vec Ideal S512x128 .f32) (ix2 r col) = V m c main_arg3 (ix2 R col) := by
  obtain ⟨ea, eb⟩ := block_index3 t
  show V m c main_arg3 (((cfg0.win 3).blk t).view.emb (ix2 r col)) = V m c main_arg3 (ix2 R col)
  congr 1; funext a; apply Fin.ext
  match a with
  | ⟨0, _⟩ => show win0_3.index t (0 : Fin 2) * 512 + 1 * r.val = R.val; omega
  | ⟨1, _⟩ => show win0_3.index t (1 : Fin 2) * 128 + 1 * col.val = col.val; omega

/-- Row `r` of feature window 4's block at point `t` is row `512 t + r` of its array. -/
theorem block_row4 (c : Dev nD) (t : Fin cfg0.N) (r : Fin 512) (col : Fin 128) (R : Fin 32768) (hR : R.val = t.val * 512 + r.val) :
    (iblk m c 4 t : Vec Ideal S512x128 .f32) (ix2 r col) = V m c main_arg4 (ix2 R col) := by
  obtain ⟨ea, eb⟩ := block_index4 t
  show V m c main_arg4 (((cfg0.win 4).blk t).view.emb (ix2 r col)) = V m c main_arg4 (ix2 R col)
  congr 1; funext a; apply Fin.ext
  match a with
  | ⟨0, _⟩ => show win0_4.index t (0 : Fin 2) * 512 + 1 * r.val = R.val; omega
  | ⟨1, _⟩ => show win0_4.index t (1 : Fin 2) * 128 + 1 * col.val = col.val; omega

/-- Row `r` of feature window 5's block at point `t` is row `512 t + r` of its array. -/
theorem block_row5 (c : Dev nD) (t : Fin cfg0.N) (r : Fin 512) (col : Fin 128) (R : Fin 32768) (hR : R.val = t.val * 512 + r.val) :
    (iblk m c 5 t : Vec Ideal S512x128 .f32) (ix2 r col) = V m c main_arg5 (ix2 R col) := by
  obtain ⟨ea, eb⟩ := block_index5 t
  show V m c main_arg5 (((cfg0.win 5).blk t).view.emb (ix2 r col)) = V m c main_arg5 (ix2 R col)
  congr 1; funext a; apply Fin.ext
  match a with
  | ⟨0, _⟩ => show win0_5.index t (0 : Fin 2) * 512 + 1 * r.val = R.val; omega
  | ⟨1, _⟩ => show win0_5.index t (1 : Fin 2) * 128 + 1 * col.val = col.val; omega

/-- Row `r` of feature window 6's block at point `t` is row `512 t + r` of its array. -/
theorem block_row6 (c : Dev nD) (t : Fin cfg0.N) (r : Fin 512) (col : Fin 128) (R : Fin 32768) (hR : R.val = t.val * 512 + r.val) :
    (iblk m c 6 t : Vec Ideal S512x128 .f32) (ix2 r col) = V m c main_arg6 (ix2 R col) := by
  obtain ⟨ea, eb⟩ := block_index6 t
  show V m c main_arg6 (((cfg0.win 6).blk t).view.emb (ix2 r col)) = V m c main_arg6 (ix2 R col)
  congr 1; funext a; apply Fin.ext
  match a with
  | ⟨0, _⟩ => show win0_6.index t (0 : Fin 2) * 512 + 1 * r.val = R.val; omega
  | ⟨1, _⟩ => show win0_6.index t (1 : Fin 2) * 128 + 1 * col.val = col.val; omega

/-- Row `r` of feature window 7's block at point `t` is row `512 t + r` of its array. -/
theorem block_row7 (c : Dev nD) (t : Fin cfg0.N) (r : Fin 512) (col : Fin 128) (R : Fin 32768) (hR : R.val = t.val * 512 + r.val) :
    (iblk m c 7 t : Vec Ideal S512x128 .f32) (ix2 r col) = V m c main_arg7 (ix2 R col) := by
  obtain ⟨ea, eb⟩ := block_index7 t
  show V m c main_arg7 (((cfg0.win 7).blk t).view.emb (ix2 r col)) = V m c main_arg7 (ix2 R col)
  congr 1; funext a; apply Fin.ext
  match a with
  | ⟨0, _⟩ => show win0_7.index t (0 : Fin 2) * 512 + 1 * r.val = R.val; omega
  | ⟨1, _⟩ => show win0_7.index t (1 : Fin 2) * 128 + 1 * col.val = col.val; omega

/-- Row `r` of feature window 8's block at point `t` is row `512 t + r` of its array. -/
theorem block_row8 (c : Dev nD) (t : Fin cfg0.N) (r : Fin 512) (col : Fin 128) (R : Fin 32768) (hR : R.val = t.val * 512 + r.val) :
    (iblk m c 8 t : Vec Ideal S512x128 .f32) (ix2 r col) = V m c main_arg8 (ix2 R col) := by
  obtain ⟨ea, eb⟩ := block_index8 t
  show V m c main_arg8 (((cfg0.win 8).blk t).view.emb (ix2 r col)) = V m c main_arg8 (ix2 R col)
  congr 1; funext a; apply Fin.ext
  match a with
  | ⟨0, _⟩ => show win0_8.index t (0 : Fin 2) * 512 + 1 * r.val = R.val; omega
  | ⟨1, _⟩ => show win0_8.index t (1 : Fin 2) * 128 + 1 * col.val = col.val; omega

/-- Row `r` of feature window 9's block at point `t` is row `512 t + r` of its array. -/
theorem block_row9 (c : Dev nD) (t : Fin cfg0.N) (r : Fin 512) (col : Fin 128) (R : Fin 32768) (hR : R.val = t.val * 512 + r.val) :
    (iblk m c 9 t : Vec Ideal S512x128 .f32) (ix2 r col) = V m c main_arg9 (ix2 R col) := by
  obtain ⟨ea, eb⟩ := block_index9 t
  show V m c main_arg9 (((cfg0.win 9).blk t).view.emb (ix2 r col)) = V m c main_arg9 (ix2 R col)
  congr 1; funext a; apply Fin.ext
  match a with
  | ⟨0, _⟩ => show win0_9.index t (0 : Fin 2) * 512 + 1 * r.val = R.val; omega
  | ⟨1, _⟩ => show win0_9.index t (1 : Fin 2) * 128 + 1 * col.val = col.val; omega

/-- Row `r` of feature window 10's block at point `t` is row `512 t + r` of its array. -/
theorem block_row10 (c : Dev nD) (t : Fin cfg0.N) (r : Fin 512) (col : Fin 128) (R : Fin 32768) (hR : R.val = t.val * 512 + r.val) :
    (iblk m c 10 t : Vec Ideal S512x128 .f32) (ix2 r col) = V m c main_arg10 (ix2 R col) := by
  obtain ⟨ea, eb⟩ := block_index10 t
  show V m c main_arg10 (((cfg0.win 10).blk t).view.emb (ix2 r col)) = V m c main_arg10 (ix2 R col)
  congr 1; funext a; apply Fin.ext
  match a with
  | ⟨0, _⟩ => show win0_10.index t (0 : Fin 2) * 512 + 1 * r.val = R.val; omega
  | ⟨1, _⟩ => show win0_10.index t (1 : Fin 2) * 128 + 1 * col.val = col.val; omega

/-- Row `r` of feature window 11's block at point `t` is row `512 t + r` of its array. -/
theorem block_row11 (c : Dev nD) (t : Fin cfg0.N) (r : Fin 512) (col : Fin 128) (R : Fin 32768) (hR : R.val = t.val * 512 + r.val) :
    (iblk m c 11 t : Vec Ideal S512x128 .f32) (ix2 r col) = V m c main_arg11 (ix2 R col) := by
  obtain ⟨ea, eb⟩ := block_index11 t
  show V m c main_arg11 (((cfg0.win 11).blk t).view.emb (ix2 r col)) = V m c main_arg11 (ix2 R col)
  congr 1; funext a; apply Fin.ext
  match a with
  | ⟨0, _⟩ => show win0_11.index t (0 : Fin 2) * 512 + 1 * r.val = R.val; omega
  | ⟨1, _⟩ => show win0_11.index t (1 : Fin 2) * 128 + 1 * col.val = col.val; omega

/-- Row `r` of feature window 12's block at point `t` is row `512 t + r` of its array. -/
theorem block_row12 (c : Dev nD) (t : Fin cfg0.N) (r : Fin 512) (col : Fin 128) (R : Fin 32768) (hR : R.val = t.val * 512 + r.val) :
    (iblk m c 12 t : Vec Ideal S512x128 .f32) (ix2 r col) = V m c main_arg12 (ix2 R col) := by
  obtain ⟨ea, eb⟩ := block_index12 t
  show V m c main_arg12 (((cfg0.win 12).blk t).view.emb (ix2 r col)) = V m c main_arg12 (ix2 R col)
  congr 1; funext a; apply Fin.ext
  match a with
  | ⟨0, _⟩ => show win0_12.index t (0 : Fin 2) * 512 + 1 * r.val = R.val; omega
  | ⟨1, _⟩ => show win0_12.index t (1 : Fin 2) * 128 + 1 * col.val = col.val; omega

/-- Row `r` of feature window 13's block at point `t` is row `512 t + r` of its array. -/
theorem block_row13 (c : Dev nD) (t : Fin cfg0.N) (r : Fin 512) (col : Fin 128) (R : Fin 32768) (hR : R.val = t.val * 512 + r.val) :
    (iblk m c 13 t : Vec Ideal S512x128 .f32) (ix2 r col) = V m c main_arg13 (ix2 R col) := by
  obtain ⟨ea, eb⟩ := block_index13 t
  show V m c main_arg13 (((cfg0.win 13).blk t).view.emb (ix2 r col)) = V m c main_arg13 (ix2 R col)
  congr 1; funext a; apply Fin.ext
  match a with
  | ⟨0, _⟩ => show win0_13.index t (0 : Fin 2) * 512 + 1 * r.val = R.val; omega
  | ⟨1, _⟩ => show win0_13.index t (1 : Fin 2) * 128 + 1 * col.val = col.val; omega

/-- Row `r` of feature window 14's block at point `t` is row `512 t + r` of its array. -/
theorem block_row14 (c : Dev nD) (t : Fin cfg0.N) (r : Fin 512) (col : Fin 128) (R : Fin 32768) (hR : R.val = t.val * 512 + r.val) :
    (iblk m c 14 t : Vec Ideal S512x128 .f32) (ix2 r col) = V m c main_arg14 (ix2 R col) := by
  obtain ⟨ea, eb⟩ := block_index14 t
  show V m c main_arg14 (((cfg0.win 14).blk t).view.emb (ix2 r col)) = V m c main_arg14 (ix2 R col)
  congr 1; funext a; apply Fin.ext
  match a with
  | ⟨0, _⟩ => show win0_14.index t (0 : Fin 2) * 512 + 1 * r.val = R.val; omega
  | ⟨1, _⟩ => show win0_14.index t (1 : Fin 2) * 128 + 1 * col.val = col.val; omega

/-- Row `r` of feature window 15's block at point `t` is row `512 t + r` of its array. -/
theorem block_row15 (c : Dev nD) (t : Fin cfg0.N) (r : Fin 512) (col : Fin 128) (R : Fin 32768) (hR : R.val = t.val * 512 + r.val) :
    (iblk m c 15 t : Vec Ideal S512x128 .f32) (ix2 r col) = V m c main_arg15 (ix2 R col) := by
  obtain ⟨ea, eb⟩ := block_index15 t
  show V m c main_arg15 (((cfg0.win 15).blk t).view.emb (ix2 r col)) = V m c main_arg15 (ix2 R col)
  congr 1; funext a; apply Fin.ext
  match a with
  | ⟨0, _⟩ => show win0_15.index t (0 : Fin 2) * 512 + 1 * r.val = R.val; omega
  | ⟨1, _⟩ => show win0_15.index t (1 : Fin 2) * 128 + 1 * col.val = col.val; omega

/-- Weight window 16's block at every point is its whole array. -/
theorem block_whole16 (c : Dev nD) (t : Fin cfg0.N) (p : Fin 64) (q : Fin 128) :
    (iblk m c 16 t : Vec Ideal S64x128 .bf16) (ix2 p q) = V m c main_v0 (ix2 p q) := by
  obtain ⟨ea, eb⟩ := block_index16 t
  show V m c main_v0 (((cfg0.win 16).blk t).view.emb (ix2 p q)) = V m c main_v0 (ix2 p q)
  congr 1; funext a; apply Fin.ext
  match a with
  | ⟨0, _⟩ => show win0_16.index t (0 : Fin 2) * 64 + 1 * p.val = p.val; omega
  | ⟨1, _⟩ => show win0_16.index t (1 : Fin 2) * 128 + 1 * q.val = q.val; omega

/-- Bias window 17's block at every point is its whole array. -/
theorem block_whole17 (c : Dev nD) (t : Fin cfg0.N) (p : Fin 128) :
    (iblk m c 17 t : Vec Ideal S128 .f32) (ix1 p) = V m c main_arg17 (ix1 p) := by
  have ea := block_index17 t
  show V m c main_arg17 (((cfg0.win 17).blk t).view.emb (ix1 p)) = V m c main_arg17 (ix1 p)
  congr 1; funext a; apply Fin.ext
  match a with
  | ⟨0, _⟩ => show win0_17.index t (0 : Fin 1) * 128 + 1 * p.val = p.val; omega

/-- Weight window 18's block at every point is its whole array. -/
theorem block_whole18 (c : Dev nD) (t : Fin cfg0.N) (p : Fin 2168) (q : Fin 1024) :
    (iblk m c 18 t : Vec Ideal S2168x1024 .bf16) (ix2 p q) = V m c main_v1 (ix2 p q) := by
  obtain ⟨ea, eb⟩ := block_index18 t
  show V m c main_v1 (((cfg0.win 18).blk t).view.emb (ix2 p q)) = V m c main_v1 (ix2 p q)
  congr 1; funext a; apply Fin.ext
  match a with
  | ⟨0, _⟩ => show win0_18.index t (0 : Fin 2) * 2168 + 1 * p.val = p.val; omega
  | ⟨1, _⟩ => show win0_18.index t (1 : Fin 2) * 1024 + 1 * q.val = q.val; omega

/-- Bias window 19's block at every point is its whole array. -/
theorem block_whole19 (c : Dev nD) (t : Fin cfg0.N) (p : Fin 1024) :
    (iblk m c 19 t : Vec Ideal S1024 .f32) (ix1 p) = V m c main_arg19 (ix1 p) := by
  have ea := block_index19 t
  show V m c main_arg19 (((cfg0.win 19).blk t).view.emb (ix1 p)) = V m c main_arg19 (ix1 p)
  congr 1; funext a; apply Fin.ext
  match a with
  | ⟨0, _⟩ => show win0_19.index t (0 : Fin 1) * 1024 + 1 * p.val = p.val; omega

/-- Weight window 20's block at every point is its whole array. -/
theorem block_whole20 (c : Dev nD) (t : Fin cfg0.N) (p : Fin 1024) (q : Fin 512) :
    (iblk m c 20 t : Vec Ideal S1024x512 .bf16) (ix2 p q) = V m c main_v2 (ix2 p q) := by
  obtain ⟨ea, eb⟩ := block_index20 t
  show V m c main_v2 (((cfg0.win 20).blk t).view.emb (ix2 p q)) = V m c main_v2 (ix2 p q)
  congr 1; funext a; apply Fin.ext
  match a with
  | ⟨0, _⟩ => show win0_20.index t (0 : Fin 2) * 1024 + 1 * p.val = p.val; omega
  | ⟨1, _⟩ => show win0_20.index t (1 : Fin 2) * 512 + 1 * q.val = q.val; omega

/-- Bias window 21's block at every point is its whole array. -/
theorem block_whole21 (c : Dev nD) (t : Fin cfg0.N) (p : Fin 512) :
    (iblk m c 21 t : Vec Ideal S512 .f32) (ix1 p) = V m c main_arg21 (ix1 p) := by
  have ea := block_index21 t
  show V m c main_arg21 (((cfg0.win 21).blk t).view.emb (ix1 p)) = V m c main_arg21 (ix1 p)
  congr 1; funext a; apply Fin.ext
  match a with
  | ⟨0, _⟩ => show win0_21.index t (0 : Fin 1) * 512 + 1 * p.val = p.val; omega

/-- Weight window 22's block at every point is its whole array. -/
theorem block_whole22 (c : Dev nD) (t : Fin cfg0.N) (p : Fin 512) (q : Fin 256) :
    (iblk m c 22 t : Vec Ideal S512x256 .bf16) (ix2 p q) = V m c main_v3 (ix2 p q) := by
  obtain ⟨ea, eb⟩ := block_index22 t
  show V m c main_v3 (((cfg0.win 22).blk t).view.emb (ix2 p q)) = V m c main_v3 (ix2 p q)
  congr 1; funext a; apply Fin.ext
  match a with
  | ⟨0, _⟩ => show win0_22.index t (0 : Fin 2) * 512 + 1 * p.val = p.val; omega
  | ⟨1, _⟩ => show win0_22.index t (1 : Fin 2) * 256 + 1 * q.val = q.val; omega

/-- Bias window 23's block at every point is its whole array. -/
theorem block_whole23 (c : Dev nD) (t : Fin cfg0.N) (p : Fin 256) :
    (iblk m c 23 t : Vec Ideal S256 .f32) (ix1 p) = V m c main_arg23 (ix1 p) := by
  have ea := block_index23 t
  show V m c main_arg23 (((cfg0.win 23).blk t).view.emb (ix1 p)) = V m c main_arg23 (ix1 p)
  congr 1; funext a; apply Fin.ext
  match a with
  | ⟨0, _⟩ => show win0_23.index t (0 : Fin 1) * 256 + 1 * p.val = p.val; omega

/-- What point `t` writes back is block `t` of the batch function of the arrays the region finds. -/
theorem flushed_eq (c : Dev nD) (t : Fin cfg0.N) :
    (dats m 0 c).flushed 24 t = ((cfg0.win 24).blk t).view.read (Elt Ideal) (found m c) := by
  rw [Cert.KernelIdeal.Value.flushed24, out_apply]
  obtain ⟨ea, eb⟩ := block_index24 t
  have hN : cfg0.N = 64 := N_0
  have ht : t.val < 64 := by have := t.isLt; omega
  funext y
  have hy0 : (y 0).val < 512 := (y 0).isLt
  have hemb : ((cfg0.win 24).blk t).view.emb y = ix2 (⟨t.val * 512 + (y 0).val, by omega⟩ : Fin 32768) (⟨(y 1).val, (y 1).isLt⟩ : Fin 256) := by
    funext a; apply Fin.ext
    match a with
    | ⟨0, _⟩ => show win0_24.index t (0 : Fin 2) * 512 + 1 * (y 0).val = t.val * 512 + (y 0).val; omega
    | ⟨1, _⟩ => show win0_24.index t (1 : Fin 2) * 256 + 1 * (y 1).val = (y 1).val; omega
  show batch (N := 512) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) y = found m c (((cfg0.win 24).blk t).view.emb y)
  rw [hemb]
  exact batch_congr (N := 512) (N' := 32768) _ _ _ _ _ _ _ _ _ _ _ _ _ _ _ _ _ _ _ _ _ _ _ _ (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_v0) (V m c main_arg17) (V m c main_v1) (V m c main_arg19) (V m c main_v2) (V m c main_arg21) (V m c main_v3) (V m c main_arg23) y _
    (fun col => block_row0 m c t (y 0) col _ rfl)
    (fun col => block_row1 m c t (y 0) col _ rfl)
    (fun col => block_row2 m c t (y 0) col _ rfl)
    (fun col => block_row3 m c t (y 0) col _ rfl)
    (fun col => block_row4 m c t (y 0) col _ rfl)
    (fun col => block_row5 m c t (y 0) col _ rfl)
    (fun col => block_row6 m c t (y 0) col _ rfl)
    (fun col => block_row7 m c t (y 0) col _ rfl)
    (fun col => block_row8 m c t (y 0) col _ rfl)
    (fun col => block_row9 m c t (y 0) col _ rfl)
    (fun col => block_row10 m c t (y 0) col _ rfl)
    (fun col => block_row11 m c t (y 0) col _ rfl)
    (fun col => block_row12 m c t (y 0) col _ rfl)
    (fun col => block_row13 m c t (y 0) col _ rfl)
    (fun col => block_row14 m c t (y 0) col _ rfl)
    (fun col => block_row15 m c t (y 0) col _ rfl)
    (fun p q => block_whole16 m c t p q)
    (fun p => block_whole17 m c t p)
    (fun p q => block_whole18 m c t p q)
    (fun p => block_whole19 m c t p)
    (fun p q => block_whole20 m c t p q)
    (fun p => block_whole21 m c t p)
    (fun p q => block_whole22 m c t p q)
    (fun p => block_whole23 m c t p)
    rfl

/-- An index of the result array is in point `t`'s block iff each coordinate is in the block's range on its axis. -/
theorem mem_block (t : Fin cfg0.N) (i : S32768x256.Idx) :
    i ∈ ((cfg0.win 24).blk t).view.set ↔ ∀ a : Fin 2, win0_24.index t a * S512x256.size a ≤ (i a).val ∧ (i a).val < win0_24.index t a * S512x256.size a + S512x256.size a := by
  show i ∈ ((View.whole main_v4).slice (win0_24.rect t)).set ↔ _
  rw [View.set_slice_whole, Rect.mem_set_unit]
  exact Iff.rfl

/-- The 64 row blocks cover the result array. -/
theorem covered (i : S32768x256.Idx) : ∃ t : Fin cfg0.N, (cfg0.win 24).flush t = true ∧ i ∈ ((cfg0.win 24).blk t).view.set := by
  have hi0 : (i 0).val < 32768 := (i 0).isLt
  have hi1 : (i 1).val < 256 := (i 1).isLt
  have hN : cfg0.N = 64 := N_0
  obtain ⟨t, ht⟩ : ∃ t : Fin cfg0.N, t.val = (i 0).val / 512 := ⟨⟨(i 0).val / 512, by rw [hN]; omega⟩, rfl⟩
  refine ⟨t, flush0_24 t, ?_⟩
  obtain ⟨ea, eb⟩ := block_index24 t
  rw [mem_block]
  intro a
  match a with
  | ⟨0, _⟩ =>
    show win0_24.index t (0 : Fin 2) * 512 ≤ (i 0).val ∧ (i 0).val < win0_24.index t (0 : Fin 2) * 512 + 512
    omega
  | ⟨1, _⟩ =>
    show win0_24.index t (1 : Fin 2) * 256 ≤ (i 1).val ∧ (i 1).val < win0_24.index t (1 : Fin 2) * 256 + 256
    omega

/-- So the result array ends holding the batch function of the arrays the region finds. -/
theorem final (c : Dev nD) : (dats m 0 c).arrAt 24 cfg0.N = found m c :=
  (dats m 0 c).arrAt_eq_of_cover 24 (found m c) (fun t _ => flushed_eq m c t) (covered)

/-- A weight matrix narrowed to the shorter format by the host is, on the extended reals, the matrix itself. -/
theorem found_v0 (c : Dev nD) : (V m c main_v0 : S64x128.Idx → EReal) = m ((c : Thread nD τ).loc main_arg16) := by
  dsimp only [V, hostOps0]; after_results; rfl
theorem found_v1 (c : Dev nD) : (V m c main_v1 : S2168x1024.Idx → EReal) = m ((c : Thread nD τ).loc main_arg18) := by
  dsimp only [V, hostOps0]; after_results; rfl
theorem found_v2 (c : Dev nD) : (V m c main_v2 : S1024x512.Idx → EReal) = m ((c : Thread nD τ).loc main_arg20) := by
  dsimp only [V, hostOps0]; after_results; rfl
theorem found_v3 (c : Dev nD) : (V m c main_v3 : S512x256.Idx → EReal) = m ((c : Thread nD τ).loc main_arg22) := by
  dsimp only [V, hostOps0]; after_results; rfl

/-- The batch function of the arrays the region finds is the batch function of the arguments as launched. -/
theorem found_eq (c : Dev nD) : found m c = batch (N := 32768) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  unfold found
  rw [V_main_arg0 m c, V_main_arg1 m c, V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c, V_main_arg15 m c, V_main_arg17 m c, V_main_arg19 m c, V_main_arg21 m c, V_main_arg23 m c, found_v0, found_v1, found_v2, found_v3]

/-- The kernel's run, read: the result array at the batch function of the arguments, the arguments unchanged. -/
theorem run : θ_run defs (onTc (τ := τ) (main (F := Ideal))) ⟨m, fun _ => 0, ρ⟩ fun r => ∀ c : Dev nD,
      r.2.mem ((c : Thread nD τ).loc main_v4) = batch (N := 32768) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(h c).1.trans ((final m c).trans (found_eq m c)), (h c).2⟩)
    (Cert.KernelIdeal.Value.run_blocks m ρ)

end Cert.DotInteraction.Kernel

end
-- ==== Proof.RefTerm.lean ====
/-
  The reference program's result as ONE composed function of its argument arrays, cut into named stages:
  the projected feature rows, the sixteen rows stacked, the table of index pairs, the pairwise inner products
  gathered from the batched product of the stack with itself, the interaction vectors, and the three dense
  layers with their rectifiers.  Each stage is the program's own operations, in its order.
-/
import proofs.«175440_j86792699118126_1_alg».proof.ReferenceIdeal

noncomputable section

namespace Cert.DotInteraction.Ref

open Idealize.ShloMosaic Cert.ReferenceIdeal Cert.ReferenceIdeal.Facts₀

variable {F : FTy → Type} [FloatOps F] [Cert.ReferenceIdeal.Facts]

/-- The projected rows of every sample: `f0 · Wp + bp`, the bias broadcast down the batch. -/
def projAll (a0 : FVec F S32768x64 .f32) (Wp : FVec F S64x128 .f32) (bp : FVec F S128 .f32) : FVec F S32768x128 .f32 :=
  addf (Host.dotGeneral dot_S32768x64_S64x128_S32768x128_1_0_0_1_n_n none a0 Wp)
    (broadcastInDim S32768x128 ![0, 1] bcast_S1x128_S32768x128_0_1 (broadcastInDim S1x128 ![1] bcast_S128_S1x128_1 bp))

/-- Sixteen [32768, 128] arrays as one [32768, 16, 128] array: each given a unit middle axis, then concatenated along it. -/
def stackAll (p0 a1 a2 a3 a4 a5 a6 a7 a8 a9 a10 a11 a12 a13 a14 a15 : FVec F S32768x128 .f32) : FVec F S32768x16x128 .f32 :=
  concatenate S32768x16x128 1 [⟨S32768x1x128, broadcastInDim S32768x1x128 ![0, 2] bcast_S32768x128_S32768x1x128_0_2 p0⟩, ⟨S32768x1x128, broadcastInDim S32768x1x128 ![0, 2] bcast_S32768x128_S32768x1x128_0_2 a1⟩, ⟨S32768x1x128, broadcastInDim S32768x1x128 ![0, 2] bcast_S32768x128_S32768x1x128_0_2 a2⟩, ⟨S32768x1x128, broadcastInDim S32768x1x128 ![0, 2] bcast_S32768x128_S32768x1x128_0_2 a3⟩, ⟨S32768x1x128, broadcastInDim S32768x1x128 ![0, 2] bcast_S32768x128_S32768x1x128_0_2 a4⟩, ⟨S32768x1x128, broadcastInDim S32768x1x128 ![0, 2] bcast_S32768x128_S32768x1x128_0_2 a5⟩, ⟨S32768x1x128, broadcastInDim S32768x1x128 ![0, 2] bcast_S32768x128_S32768x1x128_0_2 a6⟩, ⟨S32768x1x128, broadcastInDim S32768x1x128 ![0, 2] bcast_S32768x128_S32768x1x128_0_2 a7⟩, ⟨S32768x1x128, broadcastInDim S32768x1x128 ![0, 2] bcast_S32768x128_S32768x1x128_0_2 a8⟩, ⟨S32768x1x128, broadcastInDim S32768x1x128 ![0, 2] bcast_S32768x128_S32768x1x128_0_2 a9⟩, ⟨S32768x1x128, broadcastInDim S32768x1x128 ![0, 2] bcast_S32768x128_S32768x1x128_0_2 a10⟩, ⟨S32768x1x128, broadcastInDim S32768x1x128 ![0, 2] bcast_S32768x128_S32768x1x128_0_2 a11⟩, ⟨S32768x1x128, broadcastInDim S32768x1x128 ![0, 2] bcast_S32768x128_S32768x1x128_0_2 a12⟩, ⟨S32768x1x128, broadcastInDim S32768x1x128 ![0, 2] bcast_S32768x128_S32768x1x128_0_2 a13⟩, ⟨S32768x1x128, broadcastInDim S32768x1x128 ![0, 2] bcast_S32768x128_S32768x1x128_0_2 a14⟩, ⟨S32768x1x128, broadcastInDim S32768x1x128 ![0, 2] bcast_S32768x128_S32768x1x128_0_2 a15⟩] concatenates_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x16x128_d1

/-- One column of the index table: a literal column, with the program's (never taken) wrap of negative entries by 16. -/
def idxCol (lit : Fin 120 → BitVec 32) : IVec S120x1 32 :=
  broadcastInDim S120x1 ![0] bcast_S120_S120x1_0
    (select (constantI S120 1 0#1) (addi (fun i => lit (S120.rowMajor i)) (broadcastInDim S120 ![] bcast_S_S120 (constantI S_ 32 16#32)))
      (fun i => lit (S120.rowMajor i)))

/-- The [120, 2] table of the pairs (k, l), k < l, of the strict upper triangle in row-major order. -/
def idxTable : IVec S120x2 32 :=
  concatenate S120x2 1 [⟨S120x1, idxCol lit0⟩, ⟨S120x1, idxCol lit1⟩] concatenates_S120x1_S120x1_S120x2_d1

/-- Every sample's 16 × 16 matrix of inner products of its rows: the product of the stack with itself, batched over the
    samples and contracted over the feature axis. -/
def gramAll (S : FVec F S32768x16x128 .f32) : FVec F S32768x16x16 .f32 :=
  Host.dotGeneral dot_S32768x16x128_S32768x16x128_S32768x16x16_2_2_1_1_0_0 none S S

/-- The 120 entries of the strict upper triangle, gathered through the table. -/
def pairsAll (S : FVec F S32768x16x128 .f32) : FVec F S32768x120 .f32 :=
  Host.gather gather_S32768x16x16_S120x2_S32768x120_0_12_n_n_12_1_3276811 (gramAll S) idxTable

/-- The interaction vectors: the 120 inner products, then the sixteen rows end to end. -/
def interactAll (S : FVec F S32768x16x128 .f32) : FVec F S32768x2168 .f32 :=
  concatenate S32768x2168 1 [⟨S32768x120, pairsAll S⟩, ⟨S32768x2048, shapeCast S32768x2048 S shapeCasts_S32768x16x128_S32768x2048⟩] concatenates_S32768x120_S32768x2048_S32768x2168_d1

/-- First dense layer with its rectifier. -/
def layer1 (x : FVec F S32768x2168 .f32) (W : FVec F S2168x1024 .f32) (b : FVec F S1024 .f32) : FVec F S32768x1024 .f32 :=
  maximumf (addf (Host.dotGeneral dot_S32768x2168_S2168x1024_S32768x1024_1_0_0_1_n_n none x W)
      (broadcastInDim S32768x1024 ![0, 1] bcast_S1x1024_S32768x1024_0_1 (broadcastInDim S1x1024 ![1] bcast_S1024_S1x1024_1 b)))
    (broadcastInDim S32768x1024 ![] bcast_S_S32768x1024 (constant S_ .f32 0x00000000#32))

/-- Second dense layer with its rectifier. -/
def layer2 (x : FVec F S32768x1024 .f32) (W : FVec F S1024x512 .f32) (b : FVec F S512 .f32) : FVec F S32768x512 .f32 :=
  maximumf (addf (Host.dotGeneral dot_S32768x1024_S1024x512_S32768x512_1_0_0_1_n_n none x W)
      (broadcastInDim S32768x512 ![0, 1] bcast_S1x512_S32768x512_0_1 (broadcastInDim S1x512 ![1] bcast_S512_S1x512_1 b)))
    (broadcastInDim S32768x512 ![] bcast_S_S32768x512 (constant S_ .f32 0x00000000#32))

/-- Third dense layer with its rectifier. -/
def layer3 (x : FVec F S32768x512 .f32) (W : FVec F S512x256 .f32) (b : FVec F S256 .f32) : FVec F S32768x256 .f32 :=
  maximumf (addf (Host.dotGeneral dot_S32768x512_S512x256_S32768x256_1_0_0_1_n_n none x W)
      (broadcastInDim S32768x256 ![0, 1] bcast_S1x256_S32768x256_0_1 (broadcastInDim S1x256 ![1] bcast_S256_S1x256_1 b)))
    (broadcastInDim S32768x256 ![] bcast_S_S32768x256 (constant S_ .f32 0x00000000#32))

/-- The reference's result array as a function of its twenty-four arguments. -/
def result (a0 : FVec F S32768x64 .f32) (a1 a2 a3 a4 a5 a6 a7 a8 a9 a10 a11 a12 a13 a14 a15 : FVec F S32768x128 .f32)
    (Wp : FVec F S64x128 .f32) (bp : FVec F S128 .f32) (W1 : FVec F S2168x1024 .f32) (b1 : FVec F S1024 .f32)
    (W2 : FVec F S1024x512 .f32) (b2 : FVec F S512 .f32) (W3 : FVec F S512x256 .f32) (b3 : FVec F S256 .f32) : FVec F S32768x256 .f32 :=
  layer3 (layer2 (layer1 (interactAll (stackAll (projAll a0 Wp bp) a1 a2 a3 a4 a5 a6 a7 a8 a9 a10 a11 a12 a13 a14 a15)) W1 b1) W2 b2) W3 b3

end Cert.DotInteraction.Ref

end
-- ==== Proof.RRun.lean ====
/-
  The reference program's run.  Its @main is a straight line of sixty-one host operations once the three
  rectifier functions are unfolded at their calls (each is a zero constant, its broadcast, and a maximum, over the
  call's own record of buffers).  Every weakly fair execution of that line terminates with each buffer at the fold
  of the operations over the launch contents; read at the result buffer the fold is the composed function
  `result` of the twenty-four argument arrays, and at an argument buffer it is what the launch put there.
-/
import proofs.«175440_j86792699118126_1_alg».proof.Proof.Gen.ReferenceIdeal
import proofs.«175440_j86792699118126_1_alg».proof.Proof.RefTerm
import Idealize.ShloMosaic.Lib.StableHlo.Run

noncomputable section

namespace Cert.DotInteraction.Ref

open Cert.ReferenceIdeal Cert.ReferenceIdeal.Facts₀ Idealize.ShloMosaic Idealize.ShloMosaic.TcCoe Idealize.SL.Sem Idealize.ShloMosaic.StableHlo

variable {F : FTy → Type} [FloatOps F]

/-- @main's operations in order: its own fifty-two, and at each of the three calls the callee's three over the
    call's record of buffers. -/
abbrev ops : List (HloOp τ sig (Elt F)) :=
  [ nullary main_c (fun i => lit0 (S120.rowMajor i)),
    nullary main_c_0 (constantI S120 1 0#1),
    nullary main_c_1 (fun i => lit1 (S120.rowMajor i)),
    nullary main_c_2 (constantI S120 1 0#1),
    binary main_arg0 main_arg16 main_v0 ((fun l r => Host.dotGeneral dot_S32768x64_S64x128_S32768x128_1_0_0_1_n_n none l r) : (⟨S32768x64, .f32⟩ : BufTy).Contents (Elt F) → (⟨S64x128, .f32⟩ : BufTy).Contents (Elt F) → (⟨S32768x128, .f32⟩ : BufTy).Contents (Elt F)),
    unary main_arg17 main_v1 (broadcastInDim S1x128 ![1] bcast_S128_S1x128_1 : (⟨S128, .f32⟩ : BufTy).Contents (Elt F) → (⟨S1x128, .f32⟩ : BufTy).Contents (Elt F)),
    unary main_v1 main_v2 (broadcastInDim S32768x128 ![0, 1] bcast_S1x128_S32768x128_0_1 : (⟨S1x128, .f32⟩ : BufTy).Contents (Elt F) → (⟨S32768x128, .f32⟩ : BufTy).Contents (Elt F)),
    binary main_v0 main_v2 main_v3 (addf : (⟨S32768x128, .f32⟩ : BufTy).Contents (Elt F) → (⟨S32768x128, .f32⟩ : BufTy).Contents (Elt F) → (⟨S32768x128, .f32⟩ : BufTy).Contents (Elt F)),
    unary main_v3 main_v4 (broadcastInDim S32768x1x128 ![0, 2] bcast_S32768x128_S32768x1x128_0_2 : (⟨S32768x128, .f32⟩ : BufTy).Contents (Elt F) → (⟨S32768x1x128, .f32⟩ : BufTy).Contents (Elt F)),
    unary main_arg1 main_v5 (broadcastInDim S32768x1x128 ![0, 2] bcast_S32768x128_S32768x1x128_0_2 : (⟨S32768x128, .f32⟩ : BufTy).Contents (Elt F) → (⟨S32768x1x128, .f32⟩ : BufTy).Contents (Elt F)),
    unary main_arg2 main_v6 (broadcastInDim S32768x1x128 ![0, 2] bcast_S32768x128_S32768x1x128_0_2 : (⟨S32768x128, .f32⟩ : BufTy).Contents (Elt F) → (⟨S32768x1x128, .f32⟩ : BufTy).Contents (Elt F)),
    unary main_arg3 main_v7 (broadcastInDim S32768x1x128 ![0, 2] bcast_S32768x128_S32768x1x128_0_2 : (⟨S32768x128, .f32⟩ : BufTy).Contents (Elt F) → (⟨S32768x1x128, .f32⟩ : BufTy).Contents (Elt F)),
    unary main_arg4 main_v8 (broadcastInDim S32768x1x128 ![0, 2] bcast_S32768x128_S32768x1x128_0_2 : (⟨S32768x128, .f32⟩ : BufTy).Contents (Elt F) → (⟨S32768x1x128, .f32⟩ : BufTy).Contents (Elt F)),
    unary main_arg5 main_v9 (broadcastInDim S32768x1x128 ![0, 2] bcast_S32768x128_S32768x1x128_0_2 : (⟨S32768x128, .f32⟩ : BufTy).Contents (Elt F) → (⟨S32768x1x128, .f32⟩ : BufTy).Contents (Elt F)),
    unary main_arg6 main_v10 (broadcastInDim S32768x1x128 ![0, 2] bcast_S32768x128_S32768x1x128_0_2 : (⟨S32768x128, .f32⟩ : BufTy).Contents (Elt F) → (⟨S32768x1x128, .f32⟩ : BufTy).Contents (Elt F)),
    unary main_arg7 main_v11 (broadcastInDim S32768x1x128 ![0, 2] bcast_S32768x128_S32768x1x128_0_2 : (⟨S32768x128, .f32⟩ : BufTy).Contents (Elt F) → (⟨S32768x1x128, .f32⟩ : BufTy).Contents (Elt F)),
    unary main_arg8 main_v12 (broadcastInDim S32768x1x128 ![0, 2] bcast_S32768x128_S32768x1x128_0_2 : (⟨S32768x128, .f32⟩ : BufTy).Contents (Elt F) → (⟨S32768x1x128, .f32⟩ : BufTy).Contents (Elt F)),
    unary main_arg9 main_v13 (broadcastInDim S32768x1x128 ![0, 2] bcast_S32768x128_S32768x1x128_0_2 : (⟨S32768x128, .f32⟩ : BufTy).Contents (Elt F) → (⟨S32768x1x128, .f32⟩ : BufTy).Contents (Elt F)),
    unary main_arg10 main_v14 (broadcastInDim S32768x1x128 ![0, 2] bcast_S32768x128_S32768x1x128_0_2 : (⟨S32768x128, .f32⟩ : BufTy).Contents (Elt F) → (⟨S32768x1x128, .f32⟩ : BufTy).Contents (Elt F)),
    unary main_arg11 main_v15 (broadcastInDim S32768x1x128 ![0, 2] bcast_S32768x128_S32768x1x128_0_2 : (⟨S32768x128, .f32⟩ : BufTy).Contents (Elt F) → (⟨S32768x1x128, .f32⟩ : BufTy).Contents (Elt F)),
    unary main_arg12 main_v16 (broadcastInDim S32768x1x128 ![0, 2] bcast_S32768x128_S32768x1x128_0_2 : (⟨S32768x128, .f32⟩ : BufTy).Contents (Elt F) → (⟨S32768x1x128, .f32⟩ : BufTy).Contents (Elt F)),
    unary main_arg13 main_v17 (broadcastInDim S32768x1x128 ![0, 2] bcast_S32768x128_S32768x1x128_0_2 : (⟨S32768x128, .f32⟩ : BufTy).Contents (Elt F) → (⟨S32768x1x128, .f32⟩ : BufTy).Contents (Elt F)),
    unary main_arg14 main_v18 (broadcastInDim S32768x1x128 ![0, 2] bcast_S32768x128_S32768x1x128_0_2 : (⟨S32768x128, .f32⟩ : BufTy).Contents (Elt F) → (⟨S32768x1x128, .f32⟩ : BufTy).Contents (Elt F)),
    unary main_arg15 main_v19 (broadcastInDim S32768x1x128 ![0, 2] bcast_S32768x128_S32768x1x128_0_2 : (⟨S32768x128, .f32⟩ : BufTy).Contents (Elt F) → (⟨S32768x1x128, .f32⟩ : BufTy).Contents (Elt F)),
    nary ![main_v4, main_v5, main_v6, main_v7, main_v8, main_v9, main_v10, main_v11, main_v12, main_v13, main_v14, main_v15, main_v16, main_v17, main_v18, main_v19] main_v20 (fun u => concatenate S32768x16x128 1 [⟨S32768x1x128, u 0⟩, ⟨S32768x1x128, u 1⟩, ⟨S32768x1x128, u 2⟩, ⟨S32768x1x128, u 3⟩, ⟨S32768x1x128, u 4⟩, ⟨S32768x1x128, u 5⟩, ⟨S32768x1x128, u 6⟩, ⟨S32768x1x128, u 7⟩, ⟨S32768x1x128, u 8⟩, ⟨S32768x1x128, u 9⟩, ⟨S32768x1x128, u 10⟩, ⟨S32768x1x128, u 11⟩, ⟨S32768x1x128, u 12⟩, ⟨S32768x1x128, u 13⟩, ⟨S32768x1x128, u 14⟩, ⟨S32768x1x128, u 15⟩] concatenates_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x16x128_d1),
    binary main_v20 main_v20 main_v21 ((fun l r => Host.dotGeneral dot_S32768x16x128_S32768x16x128_S32768x16x16_2_2_1_1_0_0 none l r) : (⟨S32768x16x128, .f32⟩ : BufTy).Contents (Elt F) → (⟨S32768x16x128, .f32⟩ : BufTy).Contents (Elt F) → (⟨S32768x16x16, .f32⟩ : BufTy).Contents (Elt F)),
    nullary main_c_3 (constantI S_ 32 16#32),
    unary main_c_3 main_v22 (broadcastInDim S120 ![] bcast_S_S120 : (⟨S_, .i32⟩ : BufTy).Contents (Elt F) → (⟨S120, .i32⟩ : BufTy).Contents (Elt F)),
    binary main_c main_v22 main_v23 (addi : (⟨S120, .i32⟩ : BufTy).Contents (Elt F) → (⟨S120, .i32⟩ : BufTy).Contents (Elt F) → (⟨S120, .i32⟩ : BufTy).Contents (Elt F)),
    ternary main_c_0 main_v23 main_c main_v24 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    nullary main_c_4 (constantI S_ 32 16#32),
    unary main_c_4 main_v25 (broadcastInDim S120 ![] bcast_S_S120 : (⟨S_, .i32⟩ : BufTy).Contents (Elt F) → (⟨S120, .i32⟩ : BufTy).Contents (Elt F)),
    binary main_c_1 main_v25 main_v26 (addi : (⟨S120, .i32⟩ : BufTy).Contents (Elt F) → (⟨S120, .i32⟩ : BufTy).Contents (Elt F) → (⟨S120, .i32⟩ : BufTy).Contents (Elt F)),
    ternary main_c_2 main_v26 main_c_1 main_v27 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    unary main_v24 main_v28 (broadcastInDim S120x1 ![0] bcast_S120_S120x1_0 : (⟨S120, .i32⟩ : BufTy).Contents (Elt F) → (⟨S120x1, .i32⟩ : BufTy).Contents (Elt F)),
    unary main_v27 main_v29 (broadcastInDim S120x1 ![0] bcast_S120_S120x1_0 : (⟨S120, .i32⟩ : BufTy).Contents (Elt F) → (⟨S120x1, .i32⟩ : BufTy).Contents (Elt F)),
    binary main_v28 main_v29 main_v30 ((fun a b => concatenate S120x2 1 [⟨S120x1, a⟩, ⟨S120x1, b⟩] concatenates_S120x1_S120x1_S120x2_d1) : (⟨S120x1, .i32⟩ : BufTy).Contents (Elt F) → (⟨S120x1, .i32⟩ : BufTy).Contents (Elt F) → (⟨S120x2, .i32⟩ : BufTy).Contents (Elt F)),
    binary main_v21 main_v30 main_v31 ((fun x i => Host.gather gather_S32768x16x16_S120x2_S32768x120_0_12_n_n_12_1_3276811 x i) : (⟨S32768x16x16, .f32⟩ : BufTy).Contents (Elt F) → (⟨S120x2, .i32⟩ : BufTy).Contents (Elt F) → (⟨S32768x120, .f32⟩ : BufTy).Contents (Elt F)),
    reshape main_v20 main_v32 rfl shapeCasts_S32768x16x128_S32768x2048,
    binary main_v31 main_v32 main_v33 ((fun a b => concatenate S32768x2168 1 [⟨S32768x120, a⟩, ⟨S32768x2048, b⟩] concatenates_S32768x120_S32768x2048_S32768x2168_d1) : (⟨S32768x120, .f32⟩ : BufTy).Contents (Elt F) → (⟨S32768x2048, .f32⟩ : BufTy).Contents (Elt F) → (⟨S32768x2168, .f32⟩ : BufTy).Contents (Elt F)),
    binary main_v33 main_arg18 main_v34 ((fun l r => Host.dotGeneral dot_S32768x2168_S2168x1024_S32768x1024_1_0_0_1_n_n none l r) : (⟨S32768x2168, .f32⟩ : BufTy).Contents (Elt F) → (⟨S2168x1024, .f32⟩ : BufTy).Contents (Elt F) → (⟨S32768x1024, .f32⟩ : BufTy).Contents (Elt F)),
    unary main_arg19 main_v35 (broadcastInDim S1x1024 ![1] bcast_S1024_S1x1024_1 : (⟨S1024, .f32⟩ : BufTy).Contents (Elt F) → (⟨S1x1024, .f32⟩ : BufTy).Contents (Elt F)),
    unary main_v35 main_v36 (broadcastInDim S32768x1024 ![0, 1] bcast_S1x1024_S32768x1024_0_1 : (⟨S1x1024, .f32⟩ : BufTy).Contents (Elt F) → (⟨S32768x1024, .f32⟩ : BufTy).Contents (Elt F)),
    binary main_v34 main_v36 main_v37 (addf : (⟨S32768x1024, .f32⟩ : BufTy).Contents (Elt F) → (⟨S32768x1024, .f32⟩ : BufTy).Contents (Elt F) → (⟨S32768x1024, .f32⟩ : BufTy).Contents (Elt F)),
    TRef.nullary main_call0.cst (constant S_ .f32 0x00000000#32),
    TRef.unary main_call0.cst main_call0.v0 (broadcastInDim S32768x1024 ![] bcast_S_S32768x1024),
    TRef.binary (.of main_v37) main_call0.v0 main_call0.v1 maximumf,
    binary main_v38 main_arg20 main_v39 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    unary main_arg21 main_v40 (broadcastInDim S1x512 ![1] bcast_S512_S1x512_1 : (⟨S512, .f32⟩ : BufTy).Contents (Elt F) → (⟨S1x512, .f32⟩ : BufTy).Contents (Elt F)),
    unary main_v40 main_v41 (broadcastInDim S32768x512 ![0, 1] bcast_S1x512_S32768x512_0_1 : (⟨S1x512, .f32⟩ : BufTy).Contents (Elt F) → (⟨S32768x512, .f32⟩ : BufTy).Contents (Elt F)),
    binary main_v39 main_v41 main_v42 (addf : (⟨S32768x512, .f32⟩ : BufTy).Contents (Elt F) → (⟨S32768x512, .f32⟩ : BufTy).Contents (Elt F) → (⟨S32768x512, .f32⟩ : BufTy).Contents (Elt F)),
    TRef.nullary main_call1.cst (constant S_ .f32 0x00000000#32),
    TRef.unary main_call1.cst main_call1.v0 (broadcastInDim S32768x512 ![] bcast_S_S32768x512),
    TRef.binary (.of main_v42) main_call1.v0 main_call1.v1 maximumf,
    binary main_v43 main_arg22 main_v44 ((fun l r => Host.dotGeneral dot_S32768x512_S512x256_S32768x256_1_0_0_1_n_n none l r) : (⟨S32768x512, .f32⟩ : BufTy).Contents (Elt F) → (⟨S512x256, .f32⟩ : BufTy).Contents (Elt F) → (⟨S32768x256, .f32⟩ : BufTy).Contents (Elt F)),
    unary main_arg23 main_v45 (broadcastInDim S1x256 ![1] bcast_S256_S1x256_1 : (⟨S256, .f32⟩ : BufTy).Contents (Elt F) → (⟨S1x256, .f32⟩ : BufTy).Contents (Elt F)),
    unary main_v45 main_v46 (broadcastInDim S32768x256 ![0, 1] bcast_S1x256_S32768x256_0_1 : (⟨S1x256, .f32⟩ : BufTy).Contents (Elt F) → (⟨S32768x256, .f32⟩ : BufTy).Contents (Elt F)),
    binary main_v44 main_v46 main_v47 (addf : (⟨S32768x256, .f32⟩ : BufTy).Contents (Elt F) → (⟨S32768x256, .f32⟩ : BufTy).Contents (Elt F) → (⟨S32768x256, .f32⟩ : BufTy).Contents (Elt F)),
    TRef.nullary main_call2.cst (constant S_ .f32 0x00000000#32),
    TRef.unary main_call2.cst main_call2.v0 (broadcastInDim S32768x256 ![] bcast_S_S32768x256),
    TRef.binary (.of main_v47) main_call2.v0 main_call2.v1 maximumf ]

/-- @main is that straight line: with the three functions unfolded at their calls, both sides are the same chain
    of host steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., binary_bufs_sub .., unary_bufs_sub ..,
    unary_bufs_sub .., binary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    nary_bufs_sub .., binary_bufs_sub .., nullary_bufs_sub .., unary_bufs_sub .., binary_bufs_sub .., ternary_bufs_sub ..,
    nullary_bufs_sub .., unary_bufs_sub .., binary_bufs_sub .., ternary_bufs_sub .., unary_bufs_sub .., unary_bufs_sub ..,
    binary_bufs_sub .., binary_bufs_sub .., reshape_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub ..⟩

/-! ## The fold at the result buffer and at the arguments -/

-- the array operations are kept opaque here: the equation holds whatever they are, both sides applying the same
-- operations to the same operands in the same order
attribute [local irreducible] Host.gather concatenate broadcastInDim shapeCast addf addi maximumf select constant constantI in
set_option maxRecDepth 8192 in
set_option maxHeartbeats 1600000 in
/-- The fold at the result buffer is `result` of the arguments' contents, by computation: the fold unrolled, each
    operation's `HloOp.result` decides whether the buffer read is the one it writes, the typed references' casts
    are the identity at these literal references, and the stages of `result` are the operations in the program's
    order. -/
theorem out_eq (V : Valuation τ sig (Elt F)) :
    after ops V (main_v48 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) := by
  simp only [after_cons, after_nil]
  rfl

/-- No operation of the line writes an argument: the fold unrolled, every `HloOp.result` at an argument buffer
    reads what was there. -/
local macro "kept" : tactic => `(tactic| (simp only [after_cons, after_nil]; rfl))

theorem arg0_eq (V : Valuation τ sig (Elt F)) : after ops V (main_arg0 : DevRef τ sig) = V (main_arg0 : DevRef τ sig) := by kept
theorem arg1_eq (V : Valuation τ sig (Elt F)) : after ops V (main_arg1 : DevRef τ sig) = V (main_arg1 : DevRef τ sig) := by kept
theorem arg2_eq (V : Valuation τ sig (Elt F)) : after ops V (main_arg2 : DevRef τ sig) = V (main_arg2 : DevRef τ sig) := by kept
theorem arg3_eq (V : Valuation τ sig (Elt F)) : after ops V (main_arg3 : DevRef τ sig) = V (main_arg3 : DevRef τ sig) := by kept
theorem arg4_eq (V : Valuation τ sig (Elt F)) : after ops V (main_arg4 : DevRef τ sig) = V (main_arg4 : DevRef τ sig) := by kept
theorem arg5_eq (V : Valuation τ sig (Elt F)) : after ops V (main_arg5 : DevRef τ sig) = V (main_arg5 : DevRef τ sig) := by kept
theorem arg6_eq (V : Valuation τ sig (Elt F)) : after ops V (main_arg6 : DevRef τ sig) = V (main_arg6 : DevRef τ sig) := by kept
theorem arg7_eq (V : Valuation τ sig (Elt F)) : after ops V (main_arg7 : DevRef τ sig) = V (main_arg7 : DevRef τ sig) := by kept
theorem arg8_eq (V : Valuation τ sig (Elt F)) : after ops V (main_arg8 : DevRef τ sig) = V (main_arg8 : DevRef τ sig) := by kept
theorem arg9_eq (V : Valuation τ sig (Elt F)) : after ops V (main_arg9 : DevRef τ sig) = V (main_arg9 : DevRef τ sig) := by kept
theorem arg10_eq (V : Valuation τ sig (Elt F)) : after ops V (main_arg10 : DevRef τ sig) = V (main_arg10 : DevRef τ sig) := by kept
theorem arg11_eq (V : Valuation τ sig (Elt F)) : after ops V (main_arg11 : DevRef τ sig) = V (main_arg11 : DevRef τ sig) := by kept
theorem arg12_eq (V : Valuation τ sig (Elt F)) : after ops V (main_arg12 : DevRef τ sig) = V (main_arg12 : DevRef τ sig) := by kept
theorem arg13_eq (V : Valuation τ sig (Elt F)) : after ops V (main_arg13 : DevRef τ sig) = V (main_arg13 : DevRef τ sig) := by kept
theorem arg14_eq (V : Valuation τ sig (Elt F)) : after ops V (main_arg14 : DevRef τ sig) = V (main_arg14 : DevRef τ sig) := by kept
theorem arg15_eq (V : Valuation τ sig (Elt F)) : after ops V (main_arg15 : DevRef τ sig) = V (main_arg15 : DevRef τ sig) := by kept
theorem arg16_eq (V : Valuation τ sig (Elt F)) : after ops V (main_arg16 : DevRef τ sig) = V (main_arg16 : DevRef τ sig) := by kept
theorem arg17_eq (V : Valuation τ sig (Elt F)) : after ops V (main_arg17 : DevRef τ sig) = V (main_arg17 : DevRef τ sig) := by kept
theorem arg18_eq (V : Valuation τ sig (Elt F)) : after ops V (main_arg18 : DevRef τ sig) = V (main_arg18 : DevRef τ sig) := by kept
theorem arg19_eq (V : Valuation τ sig (Elt F)) : after ops V (main_arg19 : DevRef τ sig) = V (main_arg19 : DevRef τ sig) := by kept
theorem arg20_eq (V : Valuation τ sig (Elt F)) : after ops V (main_arg20 : DevRef τ sig) = V (main_arg20 : DevRef τ sig) := by kept
theorem arg21_eq (V : Valuation τ sig (Elt F)) : after ops V (main_arg21 : DevRef τ sig) = V (main_arg21 : DevRef τ sig) := by kept
theorem arg22_eq (V : Valuation τ sig (Elt F)) : after ops V (main_arg22 : DevRef τ sig) = V (main_arg22 : DevRef τ sig) := by kept
theorem arg23_eq (V : Valuation τ sig (Elt F)) : after ops V (main_arg23 : DevRef τ sig) = V (main_arg23 : DevRef τ sig) := by kept

/-! ## The run -/

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _),
      (h c main_arg23).trans (arg23_eq _)⟩)
    (run_seq scopedRefs_eq scopedSems_eq defs main (fun _ => ops) main_eq (fun _ => ops_sub) m ρ)

end Cert.DotInteraction.Ref

end
-- ==== Proof.RStack.lean ====
/-
  The reference's first two stages read at an index.

  The projected rows: entry (b, d) of the product of the [32768, 64] features with the [64, 128] weight, plus the
  bias row broadcast down the batch, is the projection x · W + bias of sample b's raw feature row at d.
  The stack: entry (b, k, d) of the sixteen [32768, 128] arrays, each given a unit middle axis and the sixteen then
  laid along that axis, is entry (b, d) of the k-th array.
-/
import proofs.«175440_j86792699118126_1_alg».proof.Proof.RefTerm
import proofs.«175440_j86792699118126_1_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.DotInteraction.Ref

open Idealize.ShloMosaic Idealize.ShloMosaic.ValueIdx Cert.ReferenceIdeal Cert.ReferenceIdeal.Facts₀ Cert.DotInteraction

variable [Cert.ReferenceIdeal.Facts]

/-- The bias vector made a one-row matrix and the row copied down the batch, read at (b, d), is the bias at d. -/
theorem bias_apply (bp : FVec Ideal S128 .f32) (b : Fin 32768) (d : Fin 128) :
    broadcastInDim S32768x128 ![0, 1] bcast_S1x128_S32768x128_0_1 (broadcastInDim S1x128 ![1] bcast_S128_S1x128_1 bp) (ix2 b d)
      = bp (ix1 d) := by
  refine (broadcastInDim_apply _ _ _ (ix2 b d) (ix2 (0 : Fin 1) d) ?_).trans ?_
  · intro a
    match a with
    | ⟨0, _⟩ => rfl
    | ⟨1, _⟩ => rfl
  · refine broadcastInDim_apply _ _ _ (ix2 (0 : Fin 1) d) (ix1 d) ?_
    intro a
    match a with
    | ⟨0, _⟩ => rfl

/-- The projected rows at (b, d): the projection of sample b's raw features, at d. -/
theorem projAll_apply (a0 : FVec Ideal S32768x64 .f32) (Wp : FVec Ideal S64x128 .f32) (bp : FVec Ideal S128 .f32)
    (b : Fin 32768) (d : Fin 128) :
    projAll (F := Ideal) a0 Wp bp (ix2 b d) = proj (row a0 b) (mat Wp) (vec1 bp) d := by
  unfold projAll proj
  rw [addf_apply, bias_apply]
  have hd : dot_S32768x64_S64x128_S32768x128_1_0_0_1_n_n = DotDims.plain 32768 64 128 := rfl
  rw [hd, StackMember.dotGeneral_plain_apply]

/-- One array given a unit middle axis, read at (b, 0, d), is the array at (b, d). -/
theorem unitMid_apply (x : FVec Ideal S32768x128 .f32) (b : Fin 32768) (d : Fin 128) :
    broadcastInDim S32768x1x128 ![0, 2] bcast_S32768x128_S32768x1x128_0_2 x (ix3 b (0 : Fin 1) d) = x (ix2 b d) := by
  refine broadcastInDim_apply _ _ _ (ix3 b (0 : Fin 1) d) (ix2 b d) ?_
  intro a
  match a with
  | ⟨0, _⟩ => rfl
  | ⟨1, _⟩ => rfl

/-- The stack at (b, k, d): the k-th of the sixteen rows of sample b, at d. -/
theorem stackAll_apply (p0 a1 a2 a3 a4 a5 a6 a7 a8 a9 a10 a11 a12 a13 a14 a15 : FVec Ideal S32768x128 .f32)
    (b : Fin 32768) (k : Fin 16) (d : Fin 128) :
    stackAll (F := Ideal) p0 a1 a2 a3 a4 a5 a6 a7 a8 a9 a10 a11 a12 a13 a14 a15 (ix3 b k d)
      = stack16 (row p0 b) (row a1 b) (row a2 b) (row a3 b) (row a4 b) (row a5 b) (row a6 b) (row a7 b) (row a8 b)
          (row a9 b) (row a10 b) (row a11 b) (row a12 b) (row a13 b) (row a14 b) (row a15 b) k d := by
  have key := concatenate_ofFn_unit_apply (t := S32768x16x128) (s₁ := S32768x1x128) (1 : Fin S32768x16x128.rank) (N := 16)
    (fun n => broadcastInDim S32768x1x128 ![0, 2] bcast_S32768x128_S32768x1x128_0_2
      ((![p0, a1, a2, a3, a4, a5, a6, a7, a8, a9, a10, a11, a12, a13, a14, a15] : Fin 16 → FVec Ideal S32768x128 .f32) n))
    concatenates_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x1x128_S32768x16x128_d1
    rfl rfl (ix3 b k d) k rfl (ix3 b (0 : Fin 1) d)
    (by
      intro a ha
      match a, ha with
      | ⟨0, _⟩, _ => rfl
      | ⟨1, _⟩, ha => exact absurd rfl ha
      | ⟨2, _⟩, _ => rfl)
  refine (Eq.trans ?_ key).trans ?_
  · rfl
  · rw [unitMid_apply]
    fin_cases k <;> rfl

end Cert.DotInteraction.Ref

end
-- ==== Proof.RPairs.lean ====
/-
  The reference's 120 pairwise inner products at an index.

  The reference forms, for every sample, the 16 × 16 matrix of inner products of its rows (a product of the stack
  with itself, batched over the samples, contracted over the 128 features) and gathers from it the 120 entries
  named by a literal table of index pairs.  The table's two columns are the left and right members of the pairs
  of the strict upper triangle in row-major order; every entry is below 16, so the gather's clamp is the identity.
  Hence entry `(b, p)` of the result is the inner product of rows `pairL p` and `pairR p` of sample `b`.
-/
import proofs.«175440_j86792699118126_1_alg».proof.Proof.RefTerm
import proofs.«175440_j86792699118126_1_alg».proof.Proof.Spec
import Idealize.ShloMosaic.Lib.ValueIdx
import Idealize.ShloMosaic.Lib.Pipeline.Value
import Idealize.ShloMosaic.PureOps.Ideal.Laws

noncomputable section

namespace Cert.DotInteraction.Ref

open Idealize.ShloMosaic Idealize.ShloMosaic.ValueIdx Cert.ReferenceIdeal Cert.ReferenceIdeal.Facts₀ Cert.DotInteraction

variable [Cert.ReferenceIdeal.Facts]

/-! ## The literal table is the closed form of the strict upper triangle -/

theorem lit0_pairL : ∀ p : Fin 120, (lit0 p).toInt.toNat = (pairL p).val := by decide
theorem lit1_pairR : ∀ p : Fin 120, (lit1 p).toInt.toNat = (pairR p).val := by decide

/-! ## The index table at a position -/

theorem rowMajor_ix1 (p : Fin 120) : S120.rowMajor (ix1 p) = p := Fin.ext (Shape.rowMajor_val_one _)

/-- A column of the table at row `p` is the literal's entry `p`: the wrap's mask is constantly false. -/
theorem idxCol_apply (lit : Fin 120 → BitVec 32) (p : Fin 120) : idxCol lit (ix2 p (0 : Fin 1)) = lit p := by
  unfold idxCol
  rw [broadcastInDim_apply _ _ _ _ (ix1 p) (by intro a; match a with | ⟨0, _⟩ => rfl)]
  rw [select_apply]
  show Scalar.select 0#1 _ _ = _
  rw [select_zero, rowMajor_ix1]

theorem idxTable_left (p : Fin 120) : idxTable (ix2 p (0 : Fin 2)) = lit0 p := by
  unfold idxTable
  exact (concatenate_pair_apply_left (t := S120x2) (s₁ := S120x1) (s₂ := S120x1) 1 _ _ _ (ix2 p (0 : Fin 2)) rfl
    (ix2 p (0 : Fin 1)) (by intro b; match b with | ⟨0, _⟩ => rfl | ⟨1, _⟩ => rfl)).trans (idxCol_apply lit0 p)

theorem idxTable_right (p : Fin 120) : idxTable (ix2 p (1 : Fin 2)) = lit1 p := by
  unfold idxTable
  exact (concatenate_pair_apply_right (t := S120x2) (s₁ := S120x1) (s₂ := S120x1) 1 _ _ _ (ix2 p (1 : Fin 2)) rfl rfl
    (ix2 p (0 : Fin 1)) (by intro b hb; match b with | ⟨0, _⟩ => rfl | ⟨1, _⟩ => exact absurd rfl hb) rfl).trans
    (idxCol_apply lit1 p)

local notation "G" => gather_S32768x16x16_S120x2_S32768x120_0_12_n_n_12_1_3276811

/-! ## The gather at a position: the batch coordinate kept, the two table entries clamped into the 16 rows -/

theorem gather_apply {α : Type} (x : S32768x16x16.Idx → α) (idx : IVec S120x2 32) (b : Fin 32768) (p : Fin 120) :
    Host.gather G x idx (ix2 b p)
      = x (ix3 b ⟨min (idx (ix2 p (0 : Fin 2))).toInt.toNat 15, by omega⟩ ⟨min (idx (ix2 p (1 : Fin 2))).toInt.toNat 15, by omega⟩) := by
  have m0 : (0 : Fin 3) ∉ GatherDims.startIndexMap G := by show (0 : Fin 3) ∉ ([1, 2] : List (Fin 3)); decide
  have m1 : (1 : Fin 3) ∈ GatherDims.startIndexMap G := by show (1 : Fin 3) ∈ ([1, 2] : List (Fin 3)); decide
  have m2 : (2 : Fin 3) ∈ GatherDims.startIndexMap G := by show (2 : Fin 3) ∈ ([1, 2] : List (Fin 3)); decide
  have c0 : (0 : Fin 3) ∉ GatherDims.collapsedSliceDims G := m0
  have c1 : (1 : Fin 3) ∈ GatherDims.collapsedSliceDims G := m1
  have c2 : (2 : Fin 3) ∈ GatherDims.collapsedSliceDims G := m2
  unfold Host.gather
  congr 1
  funext a
  refine Fin.ext ?_
  show GatherDims.start G (ix2 b p) idx a + GatherDims.batchCoord G (ix2 b p) a + GatherDims.offCoord G (ix2 b p) a = _
  rw [GatherDims.batchCoord_eq_zero _ _ _ List.not_mem_nil, Nat.add_zero]
  match a with
  | ⟨0, _⟩ =>
    have h0 : GatherDims.start G (ix2 b p) idx (0 : Fin 3) = 0 := by
      unfold GatherDims.start; rw [dif_neg m0]
    have hk : (0 : Fin 3) ∈ GatherDims.sKept G := (GatherDims.mem_sKept _ _).2 ⟨c0, List.not_mem_nil⟩
    show GatherDims.start G (ix2 b p) idx (0 : Fin 3) + GatherDims.offCoord G (ix2 b p) (0 : Fin 3) = _
    rw [h0, Nat.zero_add]
    unfold GatherDims.offCoord
    rw [dif_pos hk]
    rfl
  | ⟨1, _⟩ =>
    have hk : (1 : Fin 3) ∉ GatherDims.sKept G := fun h => ((GatherDims.mem_sKept _ _).1 h).1 c1
    show GatherDims.start G (ix2 b p) idx (1 : Fin 3) + GatherDims.offCoord G (ix2 b p) (1 : Fin 3) = _
    rw [GatherDims.offCoord_eq_zero _ _ _ hk, Nat.add_zero]
    unfold GatherDims.start
    rw [dif_pos m1]
    have hsi : GatherDims.siIdx G (ix2 b p) ⟨List.idxOf (1 : Fin 3) (GatherDims.startIndexMap G), List.idxOf_lt_length_iff.2 m1⟩
        = ix2 p (0 : Fin 2) := by
      funext c; refine Fin.ext ?_
      match c with
      | ⟨0, _⟩ => rfl
      | ⟨1, _⟩ => rfl
    rw [hsi]
    rfl
  | ⟨2, _⟩ =>
    have hk : (2 : Fin 3) ∉ GatherDims.sKept G := fun h => ((GatherDims.mem_sKept _ _).1 h).1 c2
    show GatherDims.start G (ix2 b p) idx (2 : Fin 3) + GatherDims.offCoord G (ix2 b p) (2 : Fin 3) = _
    rw [GatherDims.offCoord_eq_zero _ _ _ hk, Nat.add_zero]
    unfold GatherDims.start
    rw [dif_pos m2]
    have hsi : GatherDims.siIdx G (ix2 b p) ⟨List.idxOf (2 : Fin 3) (GatherDims.startIndexMap G), List.idxOf_lt_length_iff.2 m2⟩
        = ix2 p (1 : Fin 2) := by
      funext c; refine Fin.ext ?_
      match c with
      | ⟨0, _⟩ => rfl
      | ⟨1, _⟩ => rfl
    rw [hsi]
    rfl

local notation "D" => dot_S32768x16x128_S32768x16x128_S32768x16x16_2_2_1_1_0_0

/-! ## The batched product's operand indices, axis by axis -/

theorem lhs_0 (j : S32768x16x16.Idx) (q : (DotDims.contr D).Idx) : ((DotDims.lhsIdx D j q 0 : Fin _) : ℕ) = j 0 := rfl
theorem lhs_1 (j : S32768x16x16.Idx) (q : (DotDims.contr D).Idx) : ((DotDims.lhsIdx D j q 1 : Fin _) : ℕ) = j 1 := rfl
theorem lhs_2 (j : S32768x16x16.Idx) (q : (DotDims.contr D).Idx) : ((DotDims.lhsIdx D j q 2 : Fin _) : ℕ) = q ⟨0, Nat.zero_lt_one⟩ :=
  DotDims.lhsIdx_val_of_single D (cl := 2) rfl j q
theorem rhs_0 (j : S32768x16x16.Idx) (q : (DotDims.contr D).Idx) : ((DotDims.rhsIdx D j q 0 : Fin _) : ℕ) = j 0 := rfl
theorem rhs_1 (j : S32768x16x16.Idx) (q : (DotDims.contr D).Idx) : ((DotDims.rhsIdx D j q 1 : Fin _) : ℕ) = j 2 := rfl
theorem rhs_2 (j : S32768x16x16.Idx) (q : (DotDims.contr D).Idx) : ((DotDims.rhsIdx D j q 2 : Fin _) : ℕ) = q ⟨0, Nat.zero_lt_one⟩ :=
  DotDims.rhsIdx_val_of_single D (cr := 2) rfl j q

/-! ## The batched product at an index -/

theorem gramAll_apply (S : FVec Ideal S32768x16x128 .f32) (b : Fin 32768) (k l : Fin 16) :
    gramAll (F := Ideal) S (ix3 b k l) = ∑ d : Fin 128, S (ix3 b k d) * S (ix3 b l d) := by
  unfold gramAll
  simp only [Host.dotGeneral]
  refine (Ideal.dotGeneral_apply _ _ _ _ _ _).trans ?_
  rw [← Equiv.sum_comp (contrEquiv1 D 128 rfl rfl).symm]
  refine Finset.sum_congr rfl fun d _ => ?_
  have hq := contrEquiv1_symm_val D 128 rfl rfl d
  congr 2
  · funext a
    refine Fin.ext ?_
    match a with
    | ⟨0, _⟩ => exact lhs_0 _ _
    | ⟨1, _⟩ => exact lhs_1 _ _
    | ⟨2, _⟩ => exact (lhs_2 _ _).trans hq
  · funext a
    refine Fin.ext ?_
    match a with
    | ⟨0, _⟩ => exact rhs_0 _ _
    | ⟨1, _⟩ => exact rhs_1 _ _
    | ⟨2, _⟩ => exact (rhs_2 _ _).trans hq

/-! ## The clamped table entries are the pair's members -/

theorem clampL (p : Fin 120) : min (idxTable (ix2 p (0 : Fin 2))).toInt.toNat 15 = (pairL p).val := by
  rw [idxTable_left, lit0_pairL]
  exact Nat.min_eq_left (by have := (pairL p).isLt; omega)

theorem clampR (p : Fin 120) : min (idxTable (ix2 p (1 : Fin 2))).toInt.toNat 15 = (pairR p).val := by
  rw [idxTable_right, lit1_pairR]
  exact Nat.min_eq_left (by have := (pairR p).isLt; omega)

/-- The gather through the table reads entry `(pairL p, pairR p)` of the sample's matrix. -/
theorem gather_idxTable {α : Type} (x : S32768x16x16.Idx → α) (b : Fin 32768) (p : Fin 120) :
    Host.gather G x idxTable (ix2 b p) = x (ix3 b (pairL p) (pairR p)) := by
  refine (gather_apply x idxTable b p).trans ?_
  congr 1
  funext a
  match a with
  | ⟨0, _⟩ => rfl
  | ⟨1, _⟩ => exact Fin.ext (clampL p)
  | ⟨2, _⟩ => exact Fin.ext (clampR p)

/-! ## The reference's pairwise inner products at an index -/

theorem pairsAll_apply (S : FVec Ideal S32768x16x128 .f32) (b : Fin 32768) (p : Fin 120) :
    pairsAll (F := Ideal) S (ix2 b p) = inner (fun k d => S (ix3 b k d)) (pairL p) (pairR p) := by
  unfold pairsAll
  exact (gather_idxTable _ b p).trans (gramAll_apply S b (pairL p) (pairR p))

end Cert.DotInteraction.Ref

end
-- ==== Proof.RLayers.lean ====
/-
  The reference's interaction vectors and its three dense layers, each read at one index.

  The interaction array is a concatenation along the feature axis of the 120 gathered inner products and the
  stack of sixteen rows reshaped to one row of 2048 entries: an index below 120 reads the first piece, an index
  `q` from 120 on reads entry `q − 120` of the second, which by row-major position is row `(q − 120) / 128`,
  column `(q − 120) % 128` of the stack.

  A dense layer is a plain rows-by-columns contraction, a bias vector copied down the batch, and a maximum with the
  splat of zero: at batch row `b` and output column `j` it is `max ((∑ c, x b c · W c j) + bias j) 0`.
-/
import proofs.«175440_j86792699118126_1_alg».proof.Proof.RefTerm
import proofs.«175440_j86792699118126_1_alg».proof.Proof.Spec
import Idealize.ShloMosaic.Lib.ValueIdx
import Idealize.ShloMosaic.Lib.ValueIdxRank1
import Idealize.ShloMosaic.Lib.Pipeline.Value
import Idealize.ShloMosaic.Lib.KernelVsHost
import Idealize.ShloMosaic.Lib.StackMember
import Idealize.ShloMosaic.PureOps.Ideal.Laws

noncomputable section

namespace Cert.DotInteraction.Ref

open Idealize.ShloMosaic Idealize.ShloMosaic.ValueIdx Cert.ReferenceIdeal Cert.ReferenceIdeal.Facts₀ Cert.DotInteraction

variable [Cert.ReferenceIdeal.Facts]

/-- The interaction vectors at an index: below 120 the gathered inner product, from 120 on the stacked rows laid end
    to end, entry `q − 120` being row `(q − 120) / 128`, column `(q − 120) % 128`. -/
theorem interactAll_apply (S : FVec Ideal S32768x16x128 .f32) (b : Fin 32768) (q : Fin 2168) :
    interactAll (F := Ideal) S (ix2 b q) = if h : q.val < 120 then pairsAll (F := Ideal) S (ix2 b ⟨q.val, h⟩)
      else S (ix3 b ⟨(q.val - 120) / 128, by have := q.isLt; omega⟩ ⟨(q.val - 120) % 128, Nat.mod_lt _ (by norm_num)⟩) := by
  unfold interactAll
  have hq := q.isLt
  by_cases h : q.val < 120
  · rw [dif_pos h]
    -- the coordinate falls in the first piece
    refine concatenate_pair_apply_left (t := S32768x2168) (s₁ := S32768x120) (s₂ := S32768x2048) (1 : Fin 2)
      (pairsAll (F := Ideal) S) (shapeCast S32768x2048 S shapeCasts_S32768x16x128_S32768x2048)
      concatenates_S32768x120_S32768x2048_S32768x2168_d1 (ix2 b q) rfl (ix2 b (⟨q.val, h⟩ : Fin 120)) ?_
    intro a
    fin_cases a <;> rfl
  · rw [dif_neg h]
    -- the coordinate falls in the second piece, at offset q − 120
    have h2 : q.val - 120 < 2048 := by omega
    refine (concatenate_pair_apply_right (t := S32768x2168) (s₁ := S32768x120) (s₂ := S32768x2048) (1 : Fin 2)
      (pairsAll (F := Ideal) S) (shapeCast S32768x2048 S shapeCasts_S32768x16x128_S32768x2048)
      concatenates_S32768x120_S32768x2048_S32768x2168_d1 (ix2 b q) rfl rfl (ix2 b (⟨q.val - 120, h2⟩ : Fin 2048)) ?_ ?_).trans ?_
    · intro a ha
      fin_cases a
      · rfl
      · exact absurd rfl ha
    · show q.val - 120 + 120 = q.val
      omega
    · -- the reshape keeps the row-major position
      refine shapeCast_apply S shapeCasts_S32768x16x128_S32768x2048 (ix2 b (⟨q.val - 120, h2⟩ : Fin 2048))
        (ix3 b ⟨(q.val - 120) / 128, by omega⟩ ⟨(q.val - 120) % 128, Nat.mod_lt _ (by norm_num)⟩) ?_
      rw [Shape.rowMajor_val_three, Shape.rowMajor_val_two]
      show (b.val * 16 + (q.val - 120) / 128) * 128 + (q.val - 120) % 128 = b.val * 2048 + (q.val - 120)
      omega

/-- Dense layer 1 at an index: the contraction over the 2168 inputs, plus the bias entry, rectified. -/
theorem layer1_apply (x : FVec Ideal S32768x2168 .f32) (W : FVec Ideal S2168x1024 .f32) (bb : FVec Ideal S1024 .f32)
    (b : Fin 32768) (j : Fin 1024) :
    layer1 (F := Ideal) x W bb (ix2 b j) = dense (row x b) (mat W) (vec1 bb) j := by
  unfold layer1 dense
  rw [maximumf_apply, addf_apply]
  -- the product: the record is the plain rows-by-columns contraction
  have hd : Host.dotGeneral (F := Ideal) dot_S32768x2168_S2168x1024_S32768x1024_1_0_0_1_n_n none x W (ix2 b j)
      = ∑ c : Fin 2168, x (ix2 b c) * W (ix2 c j) :=
    StackMember.dotGeneral_plain_apply (m := 32768) (n := 1024) (k := 2168) none x W b j
  -- the bias: a vector made a one-row matrix, the row copied down the batch
  have hb : broadcastInDim S32768x1024 ![0, 1] bcast_S1x1024_S32768x1024_0_1 (broadcastInDim S1x1024 ![1] bcast_S1024_S1x1024_1 bb) (ix2 b j)
      = bb (ix1 j) := by
    rw [broadcastInDim_oneRow_apply]
    refine broadcastInDim_apply ![1] bcast_S1024_S1x1024_1 bb (ix2 (0 : Fin 1) j) (ix1 j) ?_
    intro a
    fin_cases a
    show j.val = if (1024 : ℕ) = 1 then 0 else j.val
    simp
  -- the rectifier's floor: the splat of the constant whose word is zero
  have hz : broadcastInDim S32768x1024 ![] bcast_S_S32768x1024 (constant (F := Ideal) S_ .f32 0x00000000#32) (ix2 b j) = 0 :=
    Ideal.ofBits_zero_f32
  rw [hd, hb, hz]

/-- Dense layer 2 at an index: the contraction over the 1024 inputs, plus the bias entry, rectified. -/
theorem layer2_apply (x : FVec Ideal S32768x1024 .f32) (W : FVec Ideal S1024x512 .f32) (bb : FVec Ideal S512 .f32)
    (b : Fin 32768) (j : Fin 512) :
    layer2 (F := Ideal) x W bb (ix2 b j) = dense (row x b) (mat W) (vec1 bb) j := by
  unfold layer2 dense
  rw [maximumf_apply, addf_apply]
  -- the product: the record is the plain rows-by-columns contraction
  have hd : Host.dotGeneral (F := Ideal) dot_S32768x1024_S1024x512_S32768x512_1_0_0_1_n_n none x W (ix2 b j)
      = ∑ c : Fin 1024, x (ix2 b c) * W (ix2 c j) :=
    StackMember.dotGeneral_plain_apply (m := 32768) (n := 512) (k := 1024) none x W b j
  -- the bias: a vector made a one-row matrix, the row copied down the batch
  have hb : broadcastInDim S32768x512 ![0, 1] bcast_S1x512_S32768x512_0_1 (broadcastInDim S1x512 ![1] bcast_S512_S1x512_1 bb) (ix2 b j)
      = bb (ix1 j) := by
    rw [broadcastInDim_oneRow_apply]
    refine broadcastInDim_apply ![1] bcast_S512_S1x512_1 bb (ix2 (0 : Fin 1) j) (ix1 j) ?_
    intro a
    fin_cases a
    show j.val = if (512 : ℕ) = 1 then 0 else j.val
    simp
  -- the rectifier's floor: the splat of the constant whose word is zero
  have hz : broadcastInDim S32768x512 ![] bcast_S_S32768x512 (constant (F := Ideal) S_ .f32 0x00000000#32) (ix2 b j) = 0 :=
    Ideal.ofBits_zero_f32
  rw [hd, hb, hz]

/-- Dense layer 3 at an index: the contraction over the 512 inputs, plus the bias entry, rectified. -/
theorem layer3_apply (x : FVec Ideal S32768x512 .f32) (W : FVec Ideal S512x256 .f32) (bb : FVec Ideal S256 .f32)
    (b : Fin 32768) (j : Fin 256) :
    layer3 (F := Ideal) x W bb (ix2 b j) = dense (row x b) (mat W) (vec1 bb) j := by
  unfold layer3 dense
  rw [maximumf_apply, addf_apply]
  -- the product: the record is the plain rows-by-columns contraction
  have hd : Host.dotGeneral (F := Ideal) dot_S32768x512_S512x256_S32768x256_1_0_0_1_n_n none x W (ix2 b j)
      = ∑ c : Fin 512, x (ix2 b c) * W (ix2 c j) :=
    StackMember.dotGeneral_plain_apply (m := 32768) (n := 256) (k := 512) none x W b j
  -- the bias: a vector made a one-row matrix, the row copied down the batch
  have hb : broadcastInDim S32768x256 ![0, 1] bcast_S1x256_S32768x256_0_1 (broadcastInDim S1x256 ![1] bcast_S256_S1x256_1 bb) (ix2 b j)
      = bb (ix1 j) := by
    rw [broadcastInDim_oneRow_apply]
    refine broadcastInDim_apply ![1] bcast_S256_S1x256_1 bb (ix2 (0 : Fin 1) j) (ix1 j) ?_
    intro a
    fin_cases a
    show j.val = if (256 : ℕ) = 1 then 0 else j.val
    simp
  -- the rectifier's floor: the splat of the constant whose word is zero
  have hz : broadcastInDim S32768x256 ![] bcast_S_S32768x256 (constant (F := Ideal) S_ .f32 0x00000000#32) (ix2 b j) = 0 :=
    Ideal.ofBits_zero_f32
  rw [hd, hb, hz]

end Cert.DotInteraction.Ref

end
-- ==== Proof.RValue.lean ====
/-
  The reference's result is the batch function of its arguments: sample by sample, its stacked rows are the
  sample's sixteen rows, its gathered entries of the Gram matrix are the pairwise inner products, its
  concatenation is the interaction vector, and each of its three layers is a dense layer with a rectifier.
-/
import proofs.«175440_j86792699118126_1_alg».proof.Proof.Gen.ReferenceIdeal
import proofs.«175440_j86792699118126_1_alg».proof.Proof.RStack
import proofs.«175440_j86792699118126_1_alg».proof.Proof.RPairs
import proofs.«175440_j86792699118126_1_alg».proof.Proof.RLayers

noncomputable section

namespace Cert.DotInteraction.Ref

open Idealize.ShloMosaic Idealize.ShloMosaic.ValueIdx Cert.ReferenceIdeal Cert.DotInteraction

/-- Sample `b`'s rows of the stacked array are its sixteen feature rows, the first one projected. -/
theorem stack_rows (a0 : FVec Ideal S32768x64 .f32) (a1 a2 a3 a4 a5 a6 a7 a8 a9 a10 a11 a12 a13 a14 a15 : FVec Ideal S32768x128 .f32) (Wp : FVec Ideal S64x128 .f32) (bp : FVec Ideal S128 .f32) (b : Fin 32768) :
    (fun k d => stackAll (F := Ideal) (projAll a0 Wp bp) a1 a2 a3 a4 a5 a6 a7 a8 a9 a10 a11 a12 a13 a14 a15 (ix3 b k d))
      = stack16 (proj (row a0 b) (mat Wp) (vec1 bp)) (row a1 b) (row a2 b) (row a3 b) (row a4 b) (row a5 b) (row a6 b) (row a7 b) (row a8 b) (row a9 b) (row a10 b) (row a11 b) (row a12 b) (row a13 b) (row a14 b) (row a15 b) := by
  funext k d
  rw [stackAll_apply]
  have hp : row (projAll (F := Ideal) a0 Wp bp) b = proj (row a0 b) (mat Wp) (vec1 bp) := funext fun d => projAll_apply a0 Wp bp b d
  rw [hp]

/-- Sample `b`'s row of the interaction array is the interaction vector of its rows of the stacked array. -/
theorem interact_row (S : FVec Ideal S32768x16x128 .f32) (b : Fin 32768) :
    row (interactAll (F := Ideal) S) b = interact (fun k d => S (ix3 b k d)) := by
  funext q
  show interactAll (F := Ideal) S (ix2 b q) = _
  rw [interactAll_apply]
  unfold interact
  split
  · exact pairsAll_apply S b _
  · rfl

/-- The reference's result array is the batch function of its twenty-four arguments. -/
theorem result_eq (a0 : FVec Ideal S32768x64 .f32) (a1 a2 a3 a4 a5 a6 a7 a8 a9 a10 a11 a12 a13 a14 a15 : FVec Ideal S32768x128 .f32) (Wp : FVec Ideal S64x128 .f32) (bp : FVec Ideal S128 .f32) (W1 : FVec Ideal S2168x1024 .f32) (b1 : FVec Ideal S1024 .f32) (W2 : FVec Ideal S1024x512 .f32) (b2 : FVec Ideal S512 .f32) (W3 : FVec Ideal S512x256 .f32) (b3 : FVec Ideal S256 .f32) :
    result (F := Ideal) a0 a1 a2 a3 a4 a5 a6 a7 a8 a9 a10 a11 a12 a13 a14 a15 Wp bp W1 b1 W2 b2 W3 b3 = batch (N := 32768) a0 a1 a2 a3 a4 a5 a6 a7 a8 a9 a10 a11 a12 a13 a14 a15 Wp bp W1 b1 W2 b2 W3 b3 := by
  funext i
  obtain ⟨b, j, rfl⟩ : ∃ (b : Fin 32768) (j : Fin 256), i = ix2 b j := ⟨i 0, i 1, eq_ix2 i⟩
  unfold result
  rw [layer3_apply]
  have h2 : ∀ x, row (layer2 (F := Ideal) x W2 b2) b = dense (row x b) (mat W2) (vec1 b2) := fun x => funext fun c => layer2_apply x W2 b2 b c
  have h1 : ∀ x, row (layer1 (F := Ideal) x W1 b1) b = dense (row x b) (mat W1) (vec1 b1) := fun x => funext fun c => layer1_apply x W1 b1 b c
  rw [h2, h1, interact_row, stack_rows]
  rfl

end Cert.DotInteraction.Ref

end
-- ==== Proof.lean ====
/-
  The certificate: the fused feature-interaction kernel against its plain reference.

  Both programs compute, sample by sample, the same function of the arguments on the extended reals: the
  sixteen feature rows (the first projected), their 120 pairwise inner products over the strict upper triangle
  followed by the rows laid end to end, and three dense layers with rectifiers.  The kernel's result array is
  that function block by block over the 64 row blocks; the reference's is that function through a batched
  product, a gather and three matrix products.  Changes of float format are the identity on the extended reals
  and no rewrite was applied when the kernel was idealized, so the preservation claim is trivial.
-/
import proofs.«175440_j86792699118126_1_alg».proof.Defs
import proofs.«175440_j86792699118126_1_alg».proof.Proof.Gen.Kernel
import proofs.«175440_j86792699118126_1_alg».proof.Proof.Gen.Kernel.Frame
import proofs.«175440_j86792699118126_1_alg».proof.Proof.Gen.KernelIdeal
import proofs.«175440_j86792699118126_1_alg».proof.Proof.Gen.KernelIdeal.Frame
import proofs.«175440_j86792699118126_1_alg».proof.Proof.Gen.KernelIdeal.Value
import proofs.«175440_j86792699118126_1_alg».proof.Proof.Gen.ReferenceIdeal
import proofs.«175440_j86792699118126_1_alg».proof.Proof.Gen.Pre_finite_inputs
import proofs.«175440_j86792699118126_1_alg».proof.Proof.KernelValue
import proofs.«175440_j86792699118126_1_alg».proof.Proof.RRun
import proofs.«175440_j86792699118126_1_alg».proof.Proof.RValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.DotInteraction.Ref.run (F := Ideal) m ρ)

theorem preserves : Cert.preserves_Kernel_KernelIdeal := trivial

set_option maxHeartbeats 2000000 in
/-- Both runs end with the batch function of the (agreeing) arguments in their result arrays. -/
theorem algebraic : Cert.algebraic_KernelIdeal_ReferenceIdeal := by
  intro m ρ m' ρ' _ hagree
  refine ⟨fun c => Cert.DotInteraction.batch (N := 32768) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    Cert.DotInteraction.Kernel.run m ρ, ?_⟩
  refine (θ_run Cert.ReferenceIdeal.defs _ _).mono (fun r h c => ⟨?_, (h c).2⟩)
    (Cert.DotInteraction.Ref.run (F := Ideal) m' ρ')
  obtain ⟨g0, g1, g2, g3, g4, g5, g6, g7, g8, g9, g10, g11, g12, g13, g14, g15, g16, g17, g18, g19, g20, g21, g22, g23⟩ := hagree c
  rw [(h c).1, Cert.DotInteraction.Ref.result_eq, g0, g1, g2, g3, g4, g5, g6, g7, g8, g9, g10, g11, g12, g13, g14, g15, g16, g17, g18, g19, g20, g21, g22, g23]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
